-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x200000x4 : Shape := ⟨3, ![16, 200000, 4]⟩
abbrev S5x64 : Shape := ⟨2, ![5, 64]⟩
abbrev S64 : Shape := ⟨1, ![64]⟩
abbrev S64x96 : Shape := ⟨2, ![64, 96]⟩
abbrev S96 : Shape := ⟨1, ![96]⟩
abbrev S_ : Shape := ⟨0, ![]⟩

class Facts : Prop where
  bcast_S_S16x200000x4 : S_.BroadcastsInDim S16x200000x4 (![] : Fin 0 → Fin S16x200000x4.rank)
  reducesTo_S16x200000x4_S_d0_1_2 : S16x200000x4.ReducesTo [0, 1, 2] S_
  h_S_ : 0 < S_.numel
  bcast_S_S5x64 : S_.BroadcastsInDim S5x64 (![] : Fin 0 → Fin S5x64.rank)
  reducesTo_S5x64_S_d0_1 : S5x64.ReducesTo [0, 1] S_
  bcast_S_S64 : S_.BroadcastsInDim S64 (![] : Fin 0 → Fin S64.rank)
  reducesTo_S64_S_d0 : S64.ReducesTo [0] S_
  bcast_S_S64x96 : S_.BroadcastsInDim S64x96 (![] : Fin 0 → Fin S64x96.rank)
  reducesTo_S64x96_S_d0_1 : S64x96.ReducesTo [0, 1] S_
  bcast_S_S96 : S_.BroadcastsInDim S96 (![] : Fin 0 → Fin S96.rank)
  reducesTo_S96_S_d0 : S96.ReducesTo [0] S_

variable [Facts]

def fn_part1 {F : FTy → Type} [FloatOps F] (main_arg4 : FVec F S96 .f32) (main_arg5 : FVec F S96 .f32) (main_arg6 : FVec F S96 .f32) (main_v13 : IVec S_ 1) (main_v16 : IVec S64x96 1) : IVec S_ 1 :=
  let main_c_5 : IVec S_ 1 := constantI S_ 1 1#1
  let main_v17 : IVec S_ 1 := (fun x v => Host.reduce IntOp.andi x v reducesTo_S64x96_S_d0_1 h_S_) main_v16 main_c_5
  let main_v18 : IVec S_ 1 := andi main_v13 main_v17
  let main_v19 : FVec F S96 .f32 := Host.absf main_arg4
  let main_cst_6 : FVec F S_ .f32 := constant S_ .f32 0x7F800000#32
  let main_v20 : FVec F S96 .f32 := broadcastInDim S96 ![] bcast_S_S96 main_cst_6
  let main_v21 : IVec S96 1 := cmpf .olt main_v19 main_v20
  let main_c_7 : IVec S_ 1 := constantI S_ 1 1#1
  let main_v22 : IVec S_ 1 := (fun x v => Host.reduce IntOp.andi x v reducesTo_S96_S_d0 h_S_) main_v21 main_c_7
  let main_v23 : IVec S_ 1 := andi main_v18 main_v22
  let main_v24 : FVec F S96 .f32 := Host.absf main_arg5
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S96 .f32 := Host.absf main_arg6
  let main_cst_10 : FVec F S_ .f32 := constant S_ .f32 0x7F800000#32
  let main_v30 : FVec F S96 .f32 := broadcastInDim S96 ![] bcast_S_S96 main_cst_10
  let main_v31 : IVec S96 1 := cmpf .olt main_v29 main_v30
  let main_c_11 : IVec S_ 1 := constantI S_ 1 1#1
  let main_v32 : IVec S_ 1 := (fun x v => Host.reduce IntOp.andi x v reducesTo_S96_S_d0 h_S_) main_v31 main_c_11
  let main_v33 : IVec S_ 1 := andi main_v28 main_v32
  main_v33

def fn {F : FTy → Type} [FloatOps F] (main_arg0 : FVec F S16x200000x4 .f32) (main_arg1 : FVec F S5x64 .f32) (main_arg2 : FVec F S64 .f32) (main_arg3 : FVec F S64x96 .f32) (main_arg4 : FVec F S96 .f32) (main_arg5 : FVec F S96 .f32) (main_arg6 : FVec F S96 .f32) : IVec S_ 1 :=
  let main_v0 : FVec F S16x200000x4 .f32 := Host.absf main_arg0
  let main_cst : FVec F S_ .f32 := constant S_ .f32 0x7F800000#32
  let main_v1 : FVec F S16x200000x4 .f32 := broadcastInDim S16x200000x4 ![] bcast_S_S16x200000x4 main_cst
  let main_v2 : IVec S16x200000x4 1 := cmpf .olt main_v0 main_v1
  let main_c : IVec S_ 1 := constantI S_ 1 1#1
  let main_v3 : IVec S_ 1 := (fun x v => Host.reduce IntOp.andi x v reducesTo_S16x200000x4_S_d0_1_2 h_S_) main_v2 main_c
  let main_v4 : FVec F S5x64 .f32 := Host.absf main_arg1
  let main_cst_0 : FVec F S_ .f32 := constant S_ .f32 0x7F800000#32
  let main_v5 : FVec F S5x64 .f32 := broadcastInDim S5x64 ![] bcast_S_S5x64 main_cst_0
  let main_v6 : IVec S5x64 1 := cmpf .olt main_v4 main_v5
  let main_c_1 : IVec S_ 1 := constantI S_ 1 1#1
  let main_v7 : IVec S_ 1 := (fun x v => Host.reduce IntOp.andi x v reducesTo_S5x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x96 .f32 := Host.absf main_arg3
  let main_cst_4 : FVec F S_ .f32 := constant S_ .f32 0x7F800000#32
  let main_v15 : FVec F S64x96 .f32 := broadcastInDim S64x96 ![] bcast_S_S64x96 main_cst_4
  let main_v16 : IVec S64x96 1 := cmpf .olt main_v14 main_v15
  fn_part1 (F := F) main_arg4 main_arg5 main_arg6 main_v13 main_v16
-- ==== Kernel.lean ====
abbrev S16x200000x4 : Shape := ⟨3, ![16, 200000, 4]⟩
abbrev S5x64 : Shape := ⟨2, ![5, 64]⟩
abbrev S64 : Shape := ⟨1, ![64]⟩
abbrev S64x96 : Shape := ⟨2, ![64, 96]⟩
abbrev S96 : Shape := ⟨1, ![96]⟩
abbrev S16x200000x5 : Shape := ⟨3, ![16, 200000, 5]⟩
abbrev S16x200000x1 : Shape := ⟨3, ![16, 200000, 1]⟩
abbrev S1x8000x4 : Shape := ⟨3, ![1, 8000, 4]⟩
abbrev S1x8000x5 : Shape := ⟨3, ![1, 8000, 5]⟩
abbrev S1x8000x1 : Shape := ⟨3, ![1, 8000, 1]⟩
abbrev S8000x4 : Shape := ⟨2, ![8000, 4]⟩
abbrev S8000x1 : Shape := ⟨2, ![8000, 1]⟩
abbrev S8000 : Shape := ⟨1, ![8000]⟩
abbrev S3200000x5 : Shape := ⟨2, ![3200000, 5]⟩
abbrev S3200000 : Shape := ⟨1, ![3200000]⟩
abbrev S_ : Shape := ⟨0, ![]⟩
abbrev S640000x5 : Shape := ⟨2, ![640000, 5]⟩
abbrev S3200000x1 : Shape := ⟨2, ![3200000, 1]⟩
abbrev S16x40000x5 : Shape := ⟨3, ![16, 40000, 5]⟩
abbrev S16x40000x96 : Shape := ⟨3, ![16, 40000, 96]⟩
abbrev S1x4000x5 : Shape := ⟨3, ![1, 4000, 5]⟩
abbrev S1x4000x96 : Shape := ⟨3, ![1, 4000, 96]⟩
abbrev S4000x5 : Shape := ⟨2, ![4000, 5]⟩
abbrev S4000x4 : Shape := ⟨2, ![4000, 4]⟩
abbrev S4000x1 : Shape := ⟨2, ![4000, 1]⟩
abbrev S4x64 : Shape := ⟨2, ![4, 64]⟩
abbrev S1x64 : Shape := ⟨2, ![1, 64]⟩
abbrev S4000x64 : Shape := ⟨2, ![4000, 64]⟩
abbrev S4000x96 : Shape := ⟨2, ![4000, 96]⟩
abbrev S1x96 : Shape := ⟨2, ![1, 96]⟩
abbrev S4000 : Shape := ⟨1, ![4000]⟩

abbrev nBuf : Space → Nat
  | .hbm => 17
  | .vmem => 16
  | .smem => 0
  | _ => 0

abbrev bufTy : (tb : Table) → Fin (tcTables nBuf tb) → BufTy
  | .hbm, ⟨0, _⟩ => ⟨S16x200000x4, .f32⟩
  | .hbm, ⟨1, _⟩ => ⟨S5x64, .f32⟩
  | .hbm, ⟨2, _⟩ => ⟨S64, .f32⟩
  | .hbm, ⟨3, _⟩ => ⟨S64x96, .f32⟩
  | .hbm, ⟨4, _⟩ => ⟨S96, .f32⟩
  | .hbm, ⟨5, _⟩ => ⟨S96, .f32⟩
  | .hbm, ⟨6, _⟩ => ⟨S96, .f32⟩
  | .hbm, ⟨7, _⟩ => ⟨S16x200000x5, .f32⟩
  | .hbm, ⟨8, _⟩ => ⟨S16x200000x1, .i32⟩
  | .hbm, ⟨9, _⟩ => ⟨S3200000x5, .f32⟩
  | .hbm, ⟨10, _⟩ => ⟨S3200000, .i32⟩
  | .hbm, ⟨11, _⟩ => ⟨S_, .f32⟩
  | .hbm, ⟨12, _⟩ => ⟨S640000x5, .f32⟩
  | .hbm, ⟨13, _⟩ => ⟨S3200000x1, .i32⟩
  | .hbm, ⟨14, _⟩ => ⟨S640000x5, .f32⟩
  | .hbm, ⟨15, _⟩ => ⟨S16x40000x5, .f32⟩
  | .hbm, ⟨16, _⟩ => ⟨S16x40000x96, .f32⟩
  | .local _ .vmem, ⟨0, _⟩ => ⟨S1x8000x4, .f32⟩
  | .local _ .vmem, ⟨1, _⟩ => ⟨S1x8000x4, .f32⟩
  | .local _ .vmem, ⟨2, _⟩ => ⟨S1x8000x5, .f32⟩
  | .local _ .vmem, ⟨3, _⟩ => ⟨S1x8000x5, .f32⟩
  | .local _ .vmem, ⟨4, _⟩ => ⟨S1x8000x1, .i32⟩
  | .local _ .vmem, ⟨5, _⟩ => ⟨S1x8000x1, .i32⟩
  | .local _ .vmem, ⟨6, _⟩ => ⟨S1x4000x5, .f32⟩
  | .local _ .vmem, ⟨7, _⟩ => ⟨S1x4000x5, .f32⟩
  | .local _ .vmem, ⟨8, _⟩ => ⟨S5x64, .f32⟩
  | .local _ .vmem, ⟨9, _⟩ => ⟨S64, .f32⟩
  | .local _ .vmem, ⟨10, _⟩ => ⟨S64x96, .f32⟩
  | .local _ .vmem, ⟨11, _⟩ => ⟨S96, .f32⟩
  | .local _ .vmem, ⟨12, _⟩ => ⟨S96, .f32⟩
  | .local _ .vmem, ⟨13, _⟩ => ⟨S96, .f32⟩
  | .local _ .vmem, ⟨14, _⟩ => ⟨S1x4000x96, .f32⟩
  | .local _ .vmem, ⟨15, _⟩ => ⟨S1x4000x96, .f32⟩
  | _, _ => ⟨S16x200000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem7_1 : DmaSem sig := 15

abbrev nD : Nat := 1
abbrev τ : Topo := Topo.v7x

variable {F : FTy → Type} [FloatOps F]

abbrev grid0 : Pipeline.Grid := ⟨2, ![16, 25], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8000x5 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8000x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 10], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x4000x5 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S5x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S64x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S96 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S96 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S96 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1x4000x96 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

class Facts₀ : Prop where
  inb_S1x8000x4_S1x8000x4_0_0_0 : ∀ a, (![0, 0, 0] : Fin 3 → Nat) a + S1x8000x4.size a ≤ S1x8000x4.size a
  h_S1x8000x4 : 0 < S1x8000x4.numel
  shapeCasts_S1x8000x4_S8000x4 : S1x8000x4.ShapeCasts S8000x4
  slices_S8000x4_o0_0_S8000x1 : S8000x4.Slices ![0, 0] S8000x1
  shapeCasts_S8000x1_S8000 : S8000x1.ShapeCasts S8000
  slices_S8000x4_o0_1_S8000x1 : S8000x4.Slices ![0, 1] S8000x1
  natLt_1_32 : 1 < 32
  shapeCasts_S8000_S8000x1 : S8000.ShapeCasts S8000x1
  broadcasts_S8000x1_S8000x4 : S8000x1.Broadcasts S8000x4
  shapeCasts_S8000x4_S1x8000x4 : S8000x4.ShapeCasts S1x8000x4
  inb_S1x8000x5_S1x8000x4_0_0_0 : ∀ a, (![0, 0, 0] : Fin 3 → Nat) a + S1x8000x4.size a ≤ S1x8000x5.size a
  shapeCasts_S8000_S1x8000x1 : S8000.ShapeCasts S1x8000x1
  inb_S1x8000x5_S1x8000x1_0_0_4 : ∀ a, (![0, 0, 4] : Fin 3 → Nat) a + S1x8000x1.size a ≤ S1x8000x5.size a
  h_S1x8000x1 : 0 < S1x8000x1.numel
  inb_S1x8000x1_S1x8000x1_0_0_0 : ∀ a, (![0, 0, 0] : Fin 3 → Nat) a + S1x8000x1.size a ≤ S1x8000x1.size a
  shapeCasts_S16x200000x5_S3200000x5 : S16x200000x5.ShapeCasts S3200000x5
  shapeCasts_S16x200000x1_S3200000 : S16x200000x1.ShapeCasts S3200000
  bcast_S_S640000x5 : S_.BroadcastsInDim S640000x5 (![] : Fin 0 → Fin S640000x5.rank)
  bcast_S3200000_S3200000x1_0 : S3200000.BroadcastsInDim S3200000x1 (![0] : Fin 1 → Fin S3200000x1.rank)
  shapeCasts_S640000x5_S16x40000x5 : S640000x5.ShapeCasts S16x40000x5
  inb_S1x4000x5_S1x4000x5_0_0_0 : ∀ a, (![0, 0, 0] : Fin 3 → Nat) a + S1x4000x5.size a ≤ S1x4000x5.size a
  h_S1x4000x5 : 0 < S1x4000x5.numel
  shapeCasts_S1x4000x5_S1x4000x5 : S1x4000x5.ShapeCasts S1x4000x5
  shapeCasts_S1x4000x5_S4000x5 : S1x4000x5.ShapeCasts S4000x5
  slices_S4000x5_o0_0_S4000x4 : S4000x5.Slices ![0, 0] S4000x4
  slices_S4000x5_o0_4_S4000x1 : S4000x5.Slices ![0, 4] S4000x1
  broadcasts_S4000x1_S4000x4 : S4000x1.Broadcasts S4000x4
  inb_S5x64_S5x64_0_0 : ∀ a, (![0, 0] : Fin 2 → Nat) a + S5x64.size a ≤ S5x64.size a
  h_S5x64 : 0 < S5x64.numel
  slices_S5x64_o0_0_S4x64 : S5x64.Slices ![0, 0] S4x64
  slices_S5x64_o4_0_S1x64 : S5x64.Slices ![4, 0] S1x64
  bitsLt_bf16_f32 : FTy.bits .bf16 < FTy.bits .f32
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  inb_S64x96_S64x96_0_0 : ∀ a, (![0, 0] : Fin 2 → Nat) a + S64x96.size a ≤ S64x96.size a
  h_S64x96 : 0 < S64x96.numel
  inb_S96_S96_0 : ∀ a, (![0] : Fin 1 → Nat) a + S96.size a ≤ S96.size a
  h_S96 : 0 < S96.numel
  shapeCasts_S96_S1x96 : S96.ShapeCasts S1x96
  broadcasts_S1x96_S4000x96 : S1x96.Broadcasts S4000x96
  reduces_S4000x96_S4000 : S4000x96.Reduces [1] S4000
  shapeCasts_S4000_S4000x1 : S4000.ShapeCasts S4000x1
  broadcasts_S4000x1_S4000x96 : S4000x1.Broadcasts S4000x96
  shapeCasts_S4000x96_S1x4000x96 : S4000x96.ShapeCasts S1x4000x96
  inb_S1x4000x96_S1x4000x96_0_0_0 : ∀ a, (![0, 0, 0] : Fin 3 → Nat) a + S1x4000x96.size a ≤ S1x4000x96.size a
  h_S1x4000x96 : 0 < S1x4000x96.numel
  scatter_S640000x5_S3200000x1_S3200000x5_1_0_0_1_wf : ScatterDims.WF S640000x5 S3200000x1 S3200000x5 [1] [0] [0] 1
  dot_S4000x4_S4x64_S4000x64_1_0_0_1_n_n_wf : DotDims.WF S4000x4 S4x64 S4000x64 [1] [0] [0] [1] [] []
  dot_S4000x1_S1x64_S4000x64_1_0_0_1_n_n_wf : DotDims.WF S4000x1 S1x64 S4000x64 [1] [0] [0] [1] [] []
  dot_S4000x64_S64x96_S4000x96_1_0_0_1_n_n_wf : DotDims.WF S4000x64 S64x96 S4000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8000x4.size a ≤ S16x200000x4.size a
  hwx0_0 : ∀ i : grid0.Coords, EltTy.bits .f32 = 32 ∨ (Rect.block (s := S16x200000x4) S1x8000x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8000x5.size a ≤ S16x200000x5.size a
  hwx0_1 : ∀ i : grid0.Coords, EltTy.bits .f32 = 32 ∨ (Rect.block (s := S16x200000x5) S1x8000x5.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8000x1.size a ≤ S16x200000x1.size a
  hwx0_2 : ∀ i : grid0.Coords, EltTy.bits .i32 = 32 ∨ (Rect.block (s := S16x200000x1) S1x8000x1.size (cc0_transform_2 i) (hinb0_2 i)).WholeWords (EltTy.packing .i32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x4000x5.size a ≤ S16x40000x5.size a
  hwx1_0 : ∀ i : grid1.Coords, EltTy.bits .f32 = 32 ∨ (Rect.block (s := S16x40000x5) S1x4000x5.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S5x64.size a ≤ S5x64.size a
  hwx1_1 : ∀ i : grid1.Coords, EltTy.bits .f32 = 32 ∨ (Rect.block (s := S5x64) S5x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x96.size a ≤ S64x96.size a
  hwx1_3 : ∀ i : grid1.Coords, EltTy.bits .f32 = 32 ∨ (Rect.block (s := S64x96) S64x96.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S96.size a ≤ S96.size a
  hwx1_4 : ∀ i : grid1.Coords, EltTy.bits .f32 = 32 ∨ (Rect.block (s := S96) S96.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S96.size a ≤ S96.size a
  hwx1_5 : ∀ i : grid1.Coords, EltTy.bits .f32 = 32 ∨ (Rect.block (s := S96) S96.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S96.size a ≤ S96.size a
  hwx1_6 : ∀ i : grid1.Coords, EltTy.bits .f32 = 32 ∨ (Rect.block (s := S96) S96.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1x4000x96.size a ≤ S16x40000x96.size a
  hwx1_7 : ∀ i : grid1.Coords, EltTy.bits .f32 = 32 ∨ (Rect.block (s := S16x40000x96) S1x4000x96.size (cc1_transform_7 i) (hinb1_7 i)).WholeWords (EltTy.packing .f32)

variable [Facts₀]

def scatter_S640000x5_S3200000x1_S3200000x5_1_0_0_1 : ScatterDims S640000x5 S3200000x1 S3200000x5 where
  updateWindowDims := [1]
  insertedWindowDims := [0]
  scatterDimsToOperandDims := [0]
  indexVectorDim := 1
  wf := scatter_S640000x5_S3200000x1_S3200000x5_1_0_0_1_wf
def dot_S4000x4_S4x64_S4000x64_1_0_0_1_n_n : DotDims S4000x4 S4x64 S4000x64 where
  lhsContracting := [1]
  rhsContracting := [0]
  lhsNonContracting := [0]
  rhsNonContracting := [1]
  lhsBatch := []
  rhsBatch := []
  wf := dot_S4000x4_S4x64_S4000x64_1_0_0_1_n_n_wf
def dot_S4000x1_S1x64_S4000x64_1_0_0_1_n_n : DotDims S4000x1 S1x64 S4000x64 where
  lhsContracting := [1]
  rhsContracting := [0]
  lhsNonContracting := [0]
  rhsNonContracting := [1]
  lhsBatch := []
  rhsBatch := []
  wf := dot_S4000x1_S1x64_S4000x64_1_0_0_1_n_n_wf
def dot_S4000x64_S64x96_S4000x96_1_0_0_1_n_n : DotDims S4000x64 S64x96 S4000x96 where
  lhsContracting := [1]
  rhsContracting := [0]
  lhsNonContracting := [0]
  rhsNonContracting := [1]
  lhsBatch := []
  rhsBatch := []
  wf := dot_S4000x64_S64x96_S4000x96_1_0_0_1_n_n_wf

abbrev win0_0 : Pipeline.Window sig grid0 :=
  Pipeline.Window.ofSpec (Memref.whole main_arg0) S1x8000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x8000x5.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x8000x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S1x4000x5.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S5x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64x96.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S96.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S96.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S96.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S1x4000x96.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S16x200000x4 : Shape := ⟨3, ![16, 200000, 4]⟩
abbrev S5x64 : Shape := ⟨2, ![5, 64]⟩
abbrev S64 : Shape := ⟨1, ![64]⟩
abbrev S64x96 : Shape := ⟨2, ![64, 96]⟩
abbrev S96 : Shape := ⟨1, ![96]⟩
abbrev S16x200000x1 : Shape := ⟨3, ![16, 200000, 1]⟩
abbrev S16x200000 : Shape := ⟨2, ![16, 200000]⟩
abbrev S_ : Shape := ⟨0, ![]⟩
abbrev S16 : Shape := ⟨1, ![16]⟩
abbrev S16x1 : Shape := ⟨2, ![16, 1]⟩
abbrev S3200000 : Shape := ⟨1, ![3200000]⟩
abbrev S3200000x4 : Shape := ⟨2, ![3200000, 4]⟩
abbrev S640000x4 : Shape := ⟨2, ![640000, 4]⟩
abbrev S3200000x1 : Shape := ⟨2, ![3200000, 1]⟩
abbrev S16x40000x4 : Shape := ⟨3, ![16, 40000, 4]⟩
abbrev S640000 : Shape := ⟨1, ![640000]⟩
abbrev S16x40000x1 : Shape := ⟨3, ![16, 40000, 1]⟩
abbrev S16x40000x5 : Shape := ⟨3, ![16, 40000, 5]⟩
abbrev S16x40000x64 : Shape := ⟨3, ![16, 40000, 64]⟩
abbrev S1x1x64 : Shape := ⟨3, ![1, 1, 64]⟩
abbrev S16x40000x96 : Shape := ⟨3, ![16, 40000, 96]⟩
abbrev S1x1x96 : Shape := ⟨3, ![1, 1, 96]⟩
abbrev S16x40000 : Shape := ⟨2, ![16, 40000]⟩

abbrev nBuf : Space → Nat
  | .hbm => 120
  | .vmem => 0
  | .smem => 0
  | _ => 0

abbrev bufTy : (tb : Table) → Fin (tcTables nBuf tb) → BufTy
  | .hbm, ⟨0, _⟩ => ⟨S16x200000x4, .f32⟩
  | .hbm, ⟨1, _⟩ => ⟨S5x64, .f32⟩
  | .hbm, ⟨2, _⟩ => ⟨S64, .f32⟩
  | .hbm, ⟨3, _⟩ => ⟨S64x96, .f32⟩
  | .hbm, ⟨4, _⟩ => ⟨S96, .f32⟩
  | .hbm, ⟨5, _⟩ => ⟨S96, .f32⟩
  | .hbm, ⟨6, _⟩ => ⟨S96, .f32⟩
  | .hbm, ⟨7, _⟩ => ⟨S16x200000x1, .f32⟩
  | .hbm, ⟨8, _⟩ => ⟨S16x200000, .f32⟩
  | .hbm, ⟨9, _⟩ => ⟨S_, .f32⟩
  | .hbm, ⟨10, _⟩ => ⟨S16x200000, .f32⟩
  | .hbm, ⟨11, _⟩ => ⟨S16x200000, .f32⟩
  | .hbm, ⟨12, _⟩ => ⟨S_, .f32⟩
  | .hbm, ⟨13, _⟩ => ⟨S16x200000, .f32⟩
  | .hbm, ⟨14, _⟩ => ⟨S16x200000, .f32⟩
  | .hbm, ⟨15, _⟩ => ⟨S16x200000x1, .f32⟩
  | .hbm, ⟨16, _⟩ => ⟨S16x200000, .f32⟩
  | .hbm, ⟨17, _⟩ => ⟨S_, .f32⟩
  | .hbm, ⟨18, _⟩ => ⟨S16x200000, .f32⟩
  | .hbm, ⟨19, _⟩ => ⟨S16x200000, .f32⟩
  | .hbm, ⟨20, _⟩ => ⟨S_, .f32⟩
  | .hbm, ⟨21, _⟩ => ⟨S16x200000, .f32⟩
  | .hbm, ⟨22, _⟩ => ⟨S16x200000, .f32⟩
  | .hbm, ⟨23, _⟩ => ⟨S16x200000, .f32⟩
  | .hbm, ⟨24, _⟩ => ⟨S16x200000, .i32⟩
  | .hbm, ⟨25, _⟩ => ⟨S16x200000, .f32⟩
  | .hbm, ⟨26, _⟩ => ⟨S16x200000, .i32⟩
  | .hbm, ⟨27, _⟩ => ⟨S_, .i32⟩
  | .hbm, ⟨28, _⟩ => ⟨S16x200000, .i32⟩
  | .hbm, ⟨29, _⟩ => ⟨S16x200000, .i1⟩
  | .hbm, ⟨30, _⟩ => ⟨S_, .i32⟩
  | .hbm, ⟨31, _⟩ => ⟨S16x200000, .i32⟩
  | .hbm, ⟨32, _⟩ => ⟨S16x200000, .i1⟩
  | .hbm, ⟨33, _⟩ => ⟨S16x200000, .i1⟩
  | .hbm, ⟨34, _⟩ => ⟨S_, .i32⟩
  | .hbm, ⟨35, _⟩ => ⟨S16x200000, .i32⟩
  | .hbm, ⟨36, _⟩ => ⟨S16x200000, .i1⟩
  | .hbm, ⟨37, _⟩ => ⟨S16x200000, .i1⟩
  | .hbm, ⟨38, _⟩ => ⟨S_, .i32⟩
  | .hbm, ⟨39, _⟩ => ⟨S16x200000, .i32⟩
  | .hbm, ⟨40, _⟩ => ⟨S16x200000, .i1⟩
  | .hbm, ⟨41, _⟩ => ⟨S16x200000, .i1⟩
  | .hbm, ⟨42, _⟩ => ⟨S16x200000, .f32⟩
  | .hbm, ⟨43, _⟩ => ⟨S_, .i32⟩
  | .hbm, ⟨44, _⟩ => ⟨S16x200000, .i32⟩
  | .hbm, ⟨45, _⟩ => ⟨S16x200000, .i32⟩
  | .hbm, ⟨46, _⟩ => ⟨S16x200000, .i32⟩
  | .hbm, ⟨47, _⟩ => ⟨S_, .i32⟩
  | .hbm, ⟨48, _⟩ => ⟨S_, .i32⟩
  | .hbm, ⟨49, _⟩ => ⟨S16x200000, .i32⟩
  | .hbm, ⟨50, _⟩ => ⟨S16x200000, .i32⟩
  | .hbm, ⟨51, _⟩ => ⟨S16, .i32⟩
  | .hbm, ⟨52, _⟩ => ⟨S16x1, .i32⟩
  | .hbm, ⟨53, _⟩ => ⟨S_, .i32⟩
  | .hbm, ⟨54, _⟩ => ⟨S16x1, .i32⟩
  | .hbm, ⟨55, _⟩ => ⟨S16x1, .i32⟩
  | .hbm, ⟨56, _⟩ => ⟨S16x200000, .i32⟩
  | .hbm, ⟨57, _⟩ => ⟨S16x200000, .i32⟩
  | .hbm, ⟨58, _⟩ => ⟨S3200000, .i32⟩
  | .hbm, ⟨59, _⟩ => ⟨S16x200000x1, .f32⟩
  | .hbm, ⟨60, _⟩ => ⟨S16x200000x4, .f32⟩
  | .hbm, ⟨61, _⟩ => ⟨S16x200000x4, .f32⟩
  | .hbm, ⟨62, _⟩ => ⟨S3200000x4, .f32⟩
  | .hbm, ⟨63, _⟩ => ⟨S_, .f32⟩
  | .hbm, ⟨64, _⟩ => ⟨S640000x4, .f32⟩
  | .hbm, ⟨65, _⟩ => ⟨S3200000x1, .i32⟩
  | .hbm, ⟨66, _⟩ => ⟨S640000x4, .f32⟩
  | .hbm, ⟨67, _⟩ => ⟨S16x40000x4, .f32⟩
  | .hbm, ⟨68, _⟩ => ⟨S3200000, .f32⟩
  | .hbm, ⟨69, _⟩ => ⟨S_, .f32⟩
  | .hbm, ⟨70, _⟩ => ⟨S640000, .f32⟩
  | .hbm, ⟨71, _⟩ => ⟨S3200000x1, .i32⟩
  | .hbm, ⟨72, _⟩ => ⟨S640000, .f32⟩
  | .hbm, ⟨73, _⟩ => ⟨S16x40000x1, .f32⟩
  | .hbm, ⟨74, _⟩ => ⟨S_, .f32⟩
  | .hbm, ⟨75, _⟩ => ⟨S16x40000x1, .f32⟩
  | .hbm, ⟨76, _⟩ => ⟨S16x40000x1, .f32⟩
  | .hbm, ⟨77, _⟩ => ⟨S16x40000x4, .f32⟩
  | .hbm, ⟨78, _⟩ => ⟨S16x40000x4, .f32⟩
  | .hbm, ⟨79, _⟩ => ⟨S16x40000x5, .f32⟩
  | .hbm, ⟨80, _⟩ => ⟨S16x40000x64, .f32⟩
  | .hbm, ⟨81, _⟩ => ⟨S1x1x64, .f32⟩
  | .hbm, ⟨82, _⟩ => ⟨S16x40000x64, .f32⟩
  | .hbm, ⟨83, _⟩ => ⟨S16x40000x64, .f32⟩
  | .hbm, ⟨84, _⟩ => ⟨S_, .f32⟩
  | .hbm, ⟨85, _⟩ => ⟨S16x40000x64, .f32⟩
  | .hbm, ⟨86, _⟩ => ⟨S16x40000x64, .f32⟩
  | .hbm, ⟨87, _⟩ => ⟨S16x40000x96, .f32⟩
  | .hbm, ⟨88, _⟩ => ⟨S1x1x96, .f32⟩
  | .hbm, ⟨89, _⟩ => ⟨S16x40000x96, .f32⟩
  | .hbm, ⟨90, _⟩ => ⟨S16x40000x96, .f32⟩
  | .hbm, ⟨91, _⟩ => ⟨S_, .f32⟩
  | .hbm, ⟨92, _⟩ => ⟨S16x40000, .f32⟩
  | .hbm, ⟨93, _⟩ => ⟨S16x40000x1, .f32⟩
  | .hbm, ⟨94, _⟩ => ⟨S_, .f32⟩
  | .hbm, ⟨95, _⟩ => ⟨S16x40000x1, .f32⟩
  | .hbm, ⟨96, _⟩ => ⟨S16x40000x1, .f32⟩
  | .hbm, ⟨97, _⟩ => ⟨S16x40000x96, .f32⟩
  | .hbm, ⟨98, _⟩ => ⟨S16x40000x96, .f32⟩
  | .hbm, ⟨99, _⟩ => ⟨S16x40000x96, .f32⟩
  | .hbm, ⟨100, _⟩ => ⟨S_, .f32⟩
  | .hbm, ⟨101, _⟩ => ⟨S16x40000, .f32⟩
  | .hbm, ⟨102, _⟩ => ⟨S16x40000x1, .f32⟩
  | .hbm, ⟨103, _⟩ => ⟨S_, .f32⟩
  | .hbm, ⟨104, _⟩ => ⟨S16x40000x1, .f32⟩
  | .hbm, ⟨105, _⟩ => ⟨S16x40000x1, .f32⟩
  | .hbm, ⟨106, _⟩ => ⟨S16x40000x96, .f32⟩
  | .hbm, ⟨107, _⟩ => ⟨S16x40000x96, .f32⟩
  | .hbm, ⟨108, _⟩ => ⟨S_, .f32⟩
  | .hbm, ⟨109, _⟩ => ⟨S16x40000x1, .f32⟩
  | .hbm, ⟨110, _⟩ => ⟨S16x40000x1, .f32⟩
  | .hbm, ⟨111, _⟩ => ⟨S16x40000x1, .f32⟩
  | .hbm, ⟨112, _⟩ => ⟨S16x40000x96, .f32⟩
  | .hbm, ⟨113, _⟩ => ⟨S16x40000x96, .f32⟩
  | .hbm, ⟨114, _⟩ => ⟨S1x1x96, .f32⟩
  | .hbm, ⟨115, _⟩ => ⟨S16x40000x96, .f32⟩
  | .hbm, ⟨116, _⟩ => ⟨S16x40000x96, .f32⟩
  | .hbm, ⟨117, _⟩ => ⟨S1x1x96, .f32⟩
  | .hbm, ⟨118, _⟩ => ⟨S16x40000x96, .f32⟩
  | .hbm, ⟨119, _⟩ => ⟨S16x40000x96, .f32⟩
  | _, _ => ⟨S16x200000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_c_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_call0_v0 : Ref sig .tc := ⟨.hbm, 48, rfl⟩
abbrev main_call0_v1 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_8 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_11 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_12 : Ref sig .tc := ⟨.hbm, 91, rfl⟩
abbrev main_v66 : Ref sig .tc := ⟨.hbm, 92, rfl⟩
abbrev main_v67 : Ref sig .tc := ⟨.hbm, 93, rfl⟩
abbrev main_cst_13 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_cst_15 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_16 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩

abbrev nD : Nat := 1
abbrev τ : Topo := Topo.v7x

variable {F : FTy → Type} [FloatOps F]

class Facts₀ : Prop where
  slices_S16x200000x4_S16x200000x1_0_0_0 : S16x200000x4.Slices ![0, 0, 0] S16x200000x1
  shapeCasts_S16x200000x1_S16x200000 : S16x200000x1.ShapeCasts S16x200000
  bcast_S_S16x200000 : S_.BroadcastsInDim S16x200000 (![] : Fin 0 → Fin S16x200000.rank)
  slices_S16x200000x4_S16x200000x1_0_0_1 : S16x200000x4.Slices ![0, 0, 1] S16x200000x1
  bcast_S16_S16x1_0 : S16.BroadcastsInDim S16x1 (![0] : Fin 1 → Fin S16x1.rank)
  bcast_S_S16x1 : S_.BroadcastsInDim S16x1 (![] : Fin 0 → Fin S16x1.rank)
  bcast_S16x1_S16x200000_0_1 : S16x1.BroadcastsInDim S16x200000 (![0, 1] : Fin 2 → Fin S16x200000.rank)
  shapeCasts_S16x200000_S3200000 : S16x200000.ShapeCasts S3200000
  bcast_S16x200000_S16x200000x1_0_1 : S16x200000.BroadcastsInDim S16x200000x1 (![0, 1] : Fin 2 → Fin S16x200000x1.rank)
  bcast_S16x200000x1_S16x200000x4_0_1_2 : S16x200000x1.BroadcastsInDim S16x200000x4 (![0, 1, 2] : Fin 3 → Fin S16x200000x4.rank)
  shapeCasts_S16x200000x4_S3200000x4 : S16x200000x4.ShapeCasts S3200000x4
  bcast_S_S640000x4 : S_.BroadcastsInDim S640000x4 (![] : Fin 0 → Fin S640000x4.rank)
  bcast_S3200000_S3200000x1_0 : S3200000.BroadcastsInDim S3200000x1 (![0] : Fin 1 → Fin S3200000x1.rank)
  shapeCasts_S640000x4_S16x40000x4 : S640000x4.ShapeCasts S16x40000x4
  bcast_S_S640000 : S_.BroadcastsInDim S640000 (![] : Fin 0 → Fin S640000.rank)
  shapeCasts_S640000_S16x40000x1 : S640000.ShapeCasts S16x40000x1
  bcast_S_S16x40000x1 : S_.BroadcastsInDim S16x40000x1 (![] : Fin 0 → Fin S16x40000x1.rank)
  bcast_S16x40000x1_S16x40000x4_0_1_2 : S16x40000x1.BroadcastsInDim S16x40000x4 (![0, 1, 2] : Fin 3 → Fin S16x40000x4.rank)
  concatenates_S16x40000x4_S16x40000x1_S16x40000x5_d2 : Shape.Concatenates [S16x40000x4, S16x40000x1] S16x40000x5 2
  bcast_S64_S1x1x64_2 : S64.BroadcastsInDim S1x1x64 (![2] : Fin 1 → Fin S1x1x64.rank)
  bcast_S1x1x64_S16x40000x64_0_1_2 : S1x1x64.BroadcastsInDim S16x40000x64 (![0, 1, 2] : Fin 3 → Fin S16x40000x64.rank)
  bcast_S_S16x40000x64 : S_.BroadcastsInDim S16x40000x64 (![] : Fin 0 → Fin S16x40000x64.rank)
  bcast_S96_S1x1x96_2 : S96.BroadcastsInDim S1x1x96 (![2] : Fin 1 → Fin S1x1x96.rank)
  bcast_S1x1x96_S16x40000x96_0_1_2 : S1x1x96.BroadcastsInDim S16x40000x96 (![0, 1, 2] : Fin 3 → Fin S16x40000x96.rank)
  reducesTo_S16x40000x96_S16x40000_d2 : S16x40000x96.ReducesTo [2] S16x40000
  h_S_ : 0 < S_.numel
  bcast_S16x40000_S16x40000x1_0_1 : S16x40000.BroadcastsInDim S16x40000x1 (![0, 1] : Fin 2 → Fin S16x40000x1.rank)
  bcast_S16x40000x1_S16x40000x96_0_1_2 : S16x40000x1.BroadcastsInDim S16x40000x96 (![0, 1, 2] : Fin 3 → Fin S16x40000x96.rank)
  scatter_S640000x4_S3200000x1_S3200000x4_1_0_0_1_wf : ScatterDims.WF S640000x4 S3200000x1 S3200000x4 [1] [0] [0] 1
  scatter_S640000_S3200000x1_S3200000_n_0_0_1_wf : ScatterDims.WF S640000 S3200000x1 S3200000 [] [0] [0] 1
  dot_S16x40000x5_S5x64_S16x40000x64_2_0_01_1_n_n_wf : DotDims.WF S16x40000x5 S5x64 S16x40000x64 [2] [0] [0, 1] [1] [] []
  dot_S16x40000x64_S64x96_S16x40000x96_2_0_01_1_n_n_wf : DotDims.WF S16x40000x64 S64x96 S16x40000x96 [2] [0] [0, 1] [1] [] []

variable [Facts₀]

def scatter_S640000x4_S3200000x1_S3200000x4_1_0_0_1 : ScatterDims S640000x4 S3200000x1 S3200000x4 where
  updateWindowDims := [1]
  insertedWindowDims := [0]
  scatterDimsToOperandDims := [0]
  indexVectorDim := 1
  wf := scatter_S640000x4_S3200000x1_S3200000x4_1_0_0_1_wf
def scatter_S640000_S3200000x1_S3200000_n_0_0_1 : ScatterDims S640000 S3200000x1 S3200000 where
  updateWindowDims := []
  insertedWindowDims := [0]
  scatterDimsToOperandDims := [0]
  indexVectorDim := 1
  wf := scatter_S640000_S3200000x1_S3200000_n_0_0_1_wf
def dot_S16x40000x5_S5x64_S16x40000x64_2_0_01_1_n_n : DotDims S16x40000x5 S5x64 S16x40000x64 where
  lhsContracting := [2]
  rhsContracting := [0]
  lhsNonContracting := [0, 1]
  rhsNonContracting := [1]
  lhsBatch := []
  rhsBatch := []
  wf := dot_S16x40000x5_S5x64_S16x40000x64_2_0_01_1_n_n_wf
def dot_S16x40000x64_S64x96_S16x40000x96_2_0_01_1_n_n : DotDims S16x40000x64 S64x96 S16x40000x96 where
  lhsContracting := [2]
  rhsContracting := [0]
  lhsNonContracting := [0, 1]
  rhsNonContracting := [1]
  lhsBatch := []
  rhsBatch := []
  wf := dot_S16x40000x64_S64x96_S16x40000x96_2_0_01_1_n_n_wf

class Facts : Prop extends Facts₀ where

variable [Facts]
-- ==== Proof.Spec.lean ====
/-
  The mathematics of the pillar tokenizer, stated once over the extended reals and free of either program.

  A point `(b, n)` of the cloud has coordinates `x = P[b, n, 0]`, `y = P[b, n, 1]`. Its grid cell is
  `(⌊(x + 50) / 0.5⌋, ⌊(y + 50) / 0.5⌋)` as 32-bit integers; the point is IN the grid when both lie in `[0, 200)`, and
  its weight is then `1`, else `0`. Its pillar is `b · 40000 + (yi · 200 + xi)` when it is in the grid and
  `b · 40000` when it is not, and it contributes the five numbers `(P[b, n, 0..3] · weight, weight)`.
  A pillar `(b, k)` sums the contributions of every point whose pillar number is `b · 40000 + k`: four feature sums
  and a count. From those: the means `sum / max(count, 1)` and the count, a two-layer perceptron
  `relu(feat · w1 + b1) · w2 + b2` and a layer normalisation over the 96 outputs.
  The one algebraic law: `d / sqrt(v)` and `d · rsqrt(v)` agree on the extended reals wherever `0 < v`, and the
  variance plus a positive constant is positive whatever the data (a square is never negative there).
-/
import Idealize.ShloMosaic.PureOps.Ideal
import Idealize.ShloMosaic.Lib.ValueIdx

noncomputable section

open scoped BigOperators

namespace Cert.Pillar

open Idealize.ShloMosaic Idealize.ShloMosaic.ValueIdx

/-! ## One point -/

/-- The grid coordinate of a spatial coordinate: `⌊(v − (−50)) / 0.5⌋`, as a 32-bit integer. -/
def cellCoord (v : EReal) : BitVec 32 :=
  Ideal.fptosi 32 (Ideal.liftRound Int.floor (Ideal.div (v - Ideal.ofBits .f32 0xC2480000#32) (Ideal.ofBits .f32 0x3F000000#32)))

/-- Both grid coordinates in `[0, 200)`, as one bit. -/
def inGrid (xi yi : BitVec 32) : BitVec 1 :=
  IntOp.andi (IntOp.andi (IntOp.andi (IntOp.cmpi .sge xi 0#32) (IntOp.cmpi .slt xi 200#32)) (IntOp.cmpi .sge yi 0#32))
    (IntOp.cmpi .slt yi 200#32)

/-- The bit as a number: `0` or `1`. -/
def weight (ok : BitVec 1) : EReal := (((ok.setWidth 32).toInt : ℝ) : EReal)

/-- The cell number inside one batch: `yi · 200 + xi` in the grid, `0` outside. -/
def cellOf (ok : BitVec 1) (xi yi : BitVec 32) : BitVec 32 :=
  Scalar.select ok (IntOp.addi (IntOp.muli yi 200#32) xi) 0#32

/-- The pillar number over all batches. -/
def flatOf (b : Nat) (cell : BitVec 32) : BitVec 32 := IntOp.addi (IntOp.muli (BitVec.ofNat 32 b) 40000#32) cell

section Points

variable (P : (⟨3, ![16, 200000, 4]⟩ : Shape).Idx → EReal)

def ptX (b : Fin 16) (n : Fin 200000) : BitVec 32 := cellCoord (P (ix3 b n (0 : Fin 4)))
def ptY (b : Fin 16) (n : Fin 200000) : BitVec 32 := cellCoord (P (ix3 b n (1 : Fin 4)))
def ptOk (b : Fin 16) (n : Fin 200000) : BitVec 1 := inGrid (ptX P b n) (ptY P b n)
def ptW (b : Fin 16) (n : Fin 200000) : EReal := weight (ptOk P b n)
def ptFlat (b : Fin 16) (n : Fin 200000) : BitVec 32 := flatOf b.val (cellOf (ptOk P b n) (ptX P b n) (ptY P b n))

/-- What a point contributes: its four features times its weight, then the weight. -/
def ptFeat (b : Fin 16) (n : Fin 200000) (f : Fin 5) : EReal :=
  if h : f.val < 4 then P (ix3 b n (⟨f.val, h⟩ : Fin 4)) * ptW P b n else ptW P b n

/-- Point number `p` of the flattened cloud is point `(p / 200000, p % 200000)`. -/
def ptB (p : Fin 3200000) : Fin 16 := ⟨p.val / 200000, by have := p.isLt; omega⟩
def ptN (p : Fin 3200000) : Fin 200000 := ⟨p.val % 200000, Nat.mod_lt _ (by norm_num)⟩

/-- Pillar `(b, k)`'s five sums: over every point of the cloud, its contribution where its pillar number, read
    signed, is `b · 40000 + k`. -/
def pillarSum (b : Fin 16) (k : Fin 40000) (f : Fin 5) : EReal :=
  ∑ p : Fin 3200000,
    if (ptFlat P (ptB p) (ptN p)).toInt = ((b.val * 40000 + k.val : Nat) : Int) then ptFeat P (ptB p) (ptN p) f else 0

end Points

/-! ## One pillar -/

/-- Means of the four feature sums over `max(count, 1)`, then the count itself. -/
def meanCount (s : Fin 5 → EReal) (f : Fin 5) : EReal :=
  if f.val < 4 then Ideal.div (s f) (max (s (4 : Fin 5)) (Ideal.ofBits .f32 0x3F800000#32)) else s (4 : Fin 5)

def hiddenAt (feat : Fin 5 → EReal) (w1 : (⟨2, ![5, 64]⟩ : Shape).Idx → EReal) (b1 : (⟨1, ![64]⟩ : Shape).Idx → EReal)
    (h : Fin 64) : EReal :=
  max ((∑ f : Fin 5, feat f * w1 (ix2 f h)) + b1 (ix1 h)) (Ideal.ofBits .f32 0x00000000#32)

def tokAt (feat : Fin 5 → EReal) (w1 : (⟨2, ![5, 64]⟩ : Shape).Idx → EReal) (b1 : (⟨1, ![64]⟩ : Shape).Idx → EReal)
    (w2 : (⟨2, ![64, 96]⟩ : Shape).Idx → EReal) (b2 : (⟨1, ![96]⟩ : Shape).Idx → EReal) (e : Fin 96) : EReal :=
  (∑ h : Fin 64, hiddenAt feat w1 b1 h * w2 (ix2 h e)) + b2 (ix1 e)

/-- The mean of 96 numbers: their sum over `96`. -/
def rowMean (t : Fin 96 → EReal) : EReal := Ideal.div (∑ e : Fin 96, t e) (Ideal.ofBits .f32 0x42C00000#32)
def centred (t : Fin 96 → EReal) (e : Fin 96) : EReal := t e - rowMean t
def rowVar (t : Fin 96 → EReal) : EReal := rowMean fun e => centred t e * centred t e

/-- The variance plus the constant `f32(1e-5)`. -/
def varEps (t : Fin 96 → EReal) : EReal := rowVar t + Ideal.ofBits .f32 0x3727C5AC#32

/-- Layer normalisation with the reciprocal square root … -/
def lnMul (t : Fin 96 → EReal) (γ β : (⟨1, ![96]⟩ : Shape).Idx → EReal) (e : Fin 96) : EReal :=
  centred t e * Ideal.rsqrt (varEps t) * γ (ix1 e) + β (ix1 e)

/-- … and with the quotient by the square root. -/
def lnDiv (t : Fin 96 → EReal) (γ β : (⟨1, ![96]⟩ : Shape).Idx → EReal) (e : Fin 96) : EReal :=
  Ideal.div (centred t e) (Ideal.sqrt (varEps t)) * γ (ix1 e) + β (ix1 e)

/-- The whole result: token `(b, k)` of the cloud `P`, output `e`. -/
def tokenOut (P : (⟨3, ![16, 200000, 4]⟩ : Shape).Idx → EReal) (w1 : (⟨2, ![5, 64]⟩ : Shape).Idx → EReal)
    (b1 : (⟨1, ![64]⟩ : Shape).Idx → EReal) (w2 : (⟨2, ![64, 96]⟩ : Shape).Idx → EReal)
    (b2 γ β : (⟨1, ![96]⟩ : Shape).Idx → EReal) : (⟨3, ![16, 40000, 96]⟩ : Shape).Idx → EReal := fun i =>
  lnMul (tokAt (meanCount (pillarSum P (i 0) (i 1))) w1 b1 w2 b2) γ β (i 2)

end Cert.Pillar

end
-- ==== Proof.Laws.lean ====
/-
  The laws the two programs' arrangements differ by, over the extended reals: the quotient by a square root against
  the product with a reciprocal square root (equal wherever the radicand is positive, and a variance plus a positive
  constant always is: a square is never negative there, the two infinities included); a bit read signed after
  widening against the bit read unsigned; a five-term sum against its first four terms plus the fifth.
-/
import proofs.«154551_j39831526703842_1_alg».proof.Proof.Spec

noncomputable section

open scoped BigOperators

namespace Cert.Pillar

open Idealize.ShloMosaic Idealize.ShloMosaic.ValueIdx

/-! ## The constants, as the reals their patterns denote -/

/-- `96.0` denotes the real `96`. -/
theorem ofBits_96 : Ideal.ofBits .f32 0x42C00000#32 = ((96 : ℝ) : EReal) := by
  simp [Ideal.ofBits, Ideal.ieee, -EReal.coe_mul]; norm_num

/-- The constant added to the variance denotes a positive real. -/
theorem ofBits_eps_pos : ∃ r : ℝ, 0 < r ∧ Ideal.ofBits .f32 0x3727C5AC#32 = (r : EReal) := by
  refine ⟨_, ?_, by simp [Ideal.ofBits, Ideal.ieee, -EReal.coe_mul]; rfl⟩
  positivity

/-! ## The law that joins the two normalisations -/

/-- A square is never negative on the extended reals: the two infinities square to `+∞`. -/
theorem mul_self_nonneg_ereal (x : EReal) : 0 ≤ x * x := by
  induction x using EReal.rec with
  | bot => simp
  | coe r => exact_mod_cast mul_self_nonneg r
  | top => simp

theorem rowVar_nonneg (t : Fin 96 → EReal) : 0 ≤ rowVar t := by
  unfold rowVar rowMean
  rw [ofBits_96, Ideal.div_coe (by norm_num)]
  exact mul_nonneg (Finset.sum_nonneg fun e _ => mul_self_nonneg_ereal _) (by exact_mod_cast (by norm_num : (0 : ℝ) ≤ 1 / 96))

theorem varEps_pos (t : Fin 96 → EReal) : 0 < varEps t := by
  obtain ⟨r, hr, he⟩ := ofBits_eps_pos
  unfold varEps; rw [he]
  calc (0 : EReal) < (r : EReal) := by exact_mod_cast hr
    _ = 0 + (r : EReal) := (zero_add _).symm
    _ ≤ rowVar t + (r : EReal) := add_le_add (rowVar_nonneg t) le_rfl

/-- Where `0 < v` the quotient by the square root IS the product with the reciprocal square root: at `+∞` both
    are `0`, at a positive real both are the product with `(√v)⁻¹`. -/
theorem div_sqrt_eq_mul_rsqrt (x v : EReal) (hv : 0 < v) : Ideal.div x (Ideal.sqrt v) = x * Ideal.rsqrt v := by
  induction v using EReal.rec with
  | bot => exact absurd hv (by simp)
  | top => simp [Ideal.div]
  | coe r =>
    have hr : 0 < r := by exact_mod_cast hv
    rw [Ideal.sqrt_coe, Ideal.rsqrt_coe, if_neg (not_lt.mpr hr.le), if_neg (not_lt.mpr hr.le), if_neg hr.ne']
    have hs : Real.sqrt r ≠ 0 := (Real.sqrt_pos.mpr hr).ne'
    rw [Ideal.div_coe hs, one_div]

theorem lnMul_eq_lnDiv (t : Fin 96 → EReal) (γ β : (⟨1, ![96]⟩ : Shape).Idx → EReal) (e : Fin 96) :
    lnMul t γ β e = lnDiv t γ β e := by
  unfold lnMul lnDiv; rw [div_sqrt_eq_mul_rsqrt _ _ (varEps_pos t)]

/-! ## The weight, read unsigned -/

/-- A bit widened to 32 bits and read signed is the bit read unsigned: `0` or `1` either way. -/
theorem weight_eq_toNat (ok : BitVec 1) : weight ok = ((ok.toNat : ℝ) : EReal) := by
  unfold weight
  rcases (by decide : ∀ b : BitVec 1, b = 0#1 ∨ b = 1#1) ok with rfl | rfl
  · rw [show ((0#1 : BitVec 1).setWidth 32).toInt = 0 from by decide, show (0#1 : BitVec 1).toNat = 0 from rfl]; simp
  · rw [show ((1#1 : BitVec 1).setWidth 32).toInt = 1 from by decide, show (1#1 : BitVec 1).toNat = 1 from rfl]; simp

/-- A sum over five terms is the sum over the first four plus the fifth. -/
theorem sum_five (g : Fin 5 → EReal) :
    ∑ f : Fin 5, g f = (∑ f : Fin 4, g ⟨f.val, by omega⟩) + g (4 : Fin 5) := by
  rw [Fin.sum_univ_castSucc]; rfl

end Cert.Pillar

end
-- ==== Proof.PointPayload.lean ====
/-
  The preprocessing kernel's arithmetic on one block of 8000 points, read at an index: row `r`'s weight, pillar number
  and masked features as the scalar functions of that row's coordinates. Every operation of the body is elementwise
  or a change of layout, so each stored value at a row depends on that row of the block alone.
-/
import proofs.«154551_j39831526703842_1_alg».proof.Proof.Gen.KernelIdeal.Skeleton
import proofs.«154551_j39831526703842_1_alg».proof.Proof.Spec
import proofs.«154551_j39831526703842_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.PointPayload

open Cert.KernelIdeal Cert.KernelIdeal.Gen

/-- Row `r` of a block is in the grid or not: the bit of its two grid coordinates. -/
def rowOk (x0 : Vec Ideal S1x8000x4 .f32) (r : Fin 8000) : BitVec 1 :=
  Cert.Pillar.inGrid (Cert.Pillar.cellCoord (x0 (ix3 (0 : Fin 1) r (0 : Fin 4)))) (Cert.Pillar.cellCoord (x0 (ix3 (0 : Fin 1) r (1 : Fin 4))))

/-! ## Changes of layout with a unit axis at the end

A column `[a, 1]` and a vector `[a]` hold the same `a` numbers in the same row-major order, and so do `[1, a, 1]` and
`[a]`; a column broadcast along its unit axis repeats each row's one number across the row. -/

section Layout
variable {α : Type}

/-- A column `[a, 1]` cast to `[a]` reads, at `i`, the operand at `(i, 0)`: both sit at row-major position `i`. -/
private theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A vector `[a]` cast to a column `[a, 1]` reads, at `(i, u)`, the operand at `i`. -/
private theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A vector `[a]` cast to `[1, a, 1]` reads, at `(u, i, w)`, the operand at `i`. -/
private theorem shapeCast_a_1a1_apply {a : ℕ} (x : (⟨1, ![a]⟩ : Shape).Idx → α)
    (h : (⟨1, ![a]⟩ : Shape).ShapeCasts ⟨3, ![1, a, 1]⟩) (u : Fin 1) (i : Fin a) (w : Fin 1) :
    shapeCast ⟨3, ![1, a, 1]⟩ x h (ix3 u i w) = x (ix1 i) :=
  shapeCast_apply x h _ _ (by
    have hu : u.val = 0 := by omega
    have hw : w.val = 0 := by omega
    rw [Shape.rowMajor_val_three, Shape.rowMajor_val_one]
    show i.val = (u.val * a + i.val) * 1 + w.val
    rw [hu, hw]; omega)

/-- A column `[a, 1]` broadcast to `[a, b]` reads, at `(p, c)`, row `p`'s one number. -/
private theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## The block's columns -/

/-- The block without its unit axis reads, at `(r, f)`, the block at `(0, r, f)`. -/
private theorem pay3_apply (x0 : Vec Ideal S1x8000x4 .f32) (r : Fin 8000) (f : Fin 4) :
    k0_pay3 (F := Ideal) x0 (ix2 r f) = x0 (ix3 (0 : Fin 1) r f) := by
  unfold k0_pay3
  exact shapeCast_1ab_ab_apply x0 _ r f

/-- Column `c` of the block, cut out as a `[8000, 1]` column and flattened, reads row `r` at `(0, r, c)`. -/
private theorem col_apply (x0 : Vec Ideal S1x8000x4 .f32) (o : Nat) (h : S8000x4.Slices ![0, o] S8000x1)
    (h' : S8000x1.ShapeCasts S8000) (r : Fin 8000) (c : Fin 4) (hc : c.val = o + (0 : Fin 1).val) :
    shapeCast S8000 (extractStridedSlice S8000x1 ![0, o] (k0_pay3 (F := Ideal) x0) h) h' (ix1 r)
      = x0 (ix3 (0 : Fin 1) r c) := by
  refine (shapeCast_a1_a_apply _ h' r).trans ?_
  refine (slice2_axis1_apply o _ h r (0 : Fin 1) c hc).trans ?_
  exact pay3_apply x0 r c

/-- The first grid coordinate of row `r`: the cell coordinate of the row's `x`. -/
private theorem pay4_apply (x0 : Vec Ideal S1x8000x4 .f32) (r : Fin 8000) :
    k0_pay4 (F := Ideal) x0 (ix1 r) = Cert.Pillar.cellCoord (x0 (ix3 (0 : Fin 1) r (0 : Fin 4))) := by
  unfold k0_pay4 Cert.Pillar.cellCoord
  exact congrArg (fun v : EReal => Ideal.fptosi 32 (Ideal.liftRound Int.floor
    (Ideal.div (v - Ideal.ofBits .f32 0xC2480000#32) (Ideal.ofBits .f32 0x3F000000#32))))
    (col_apply x0 0 _ _ r (0 : Fin 4) rfl)

/-- The second grid coordinate of row `r`: the cell coordinate of the row's `y`. -/
private theorem pay5_apply (x0 : Vec Ideal S1x8000x4 .f32) (r : Fin 8000) :
    k0_pay5 (F := Ideal) x0 (ix1 r) = Cert.Pillar.cellCoord (x0 (ix3 (0 : Fin 1) r (1 : Fin 4))) := by
  unfold k0_pay5 Cert.Pillar.cellCoord
  exact congrArg (fun v : EReal => Ideal.fptosi 32 (Ideal.liftRound Int.floor
    (Ideal.div (v - Ideal.ofBits .f32 0xC2480000#32) (Ideal.ofBits .f32 0x3F000000#32))))
    (col_apply x0 1 _ _ r (1 : Fin 4) rfl)

/-- The in-grid bit of row `r`. -/
private theorem pay6_apply (x0 : Vec Ideal S1x8000x4 .f32) (r : Fin 8000) :
    k0_pay6 (F := Ideal) x0 (ix1 r) = rowOk x0 r := by
  unfold k0_pay6 rowOk Cert.Pillar.inGrid
  rw [← pay4_apply x0 r, ← pay5_apply x0 r]
  rfl

/-- The weight vector at row `r`. -/
theorem weight_apply (x0 : Vec Ideal S1x8000x4 .f32) (r : Fin 8000) :
    k0_pay7 (F := Ideal) x0 (ix1 r) = Cert.Pillar.weight (rowOk x0 r) := by
  unfold k0_pay7 Cert.Pillar.weight
  rw [← pay6_apply x0 r]
  rfl

/-- The pillar-number vector at row `r`, for the grid point whose first coordinate is the batch. -/
theorem flat_apply (i : grid0.Coords) (x0 : Vec Ideal S1x8000x4 .f32) (r : Fin 8000) :
    k0_pay8 (F := Ideal) i x0 (ix1 r)
      = Cert.Pillar.flatOf (i 0).val (Cert.Pillar.cellOf (rowOk x0 r)
          (Cert.Pillar.cellCoord (x0 (ix3 (0 : Fin 1) r (0 : Fin 4)))) (Cert.Pillar.cellCoord (x0 (ix3 (0 : Fin 1) r (1 : Fin 4))))) := by
  unfold k0_pay8 Cert.Pillar.flatOf Cert.Pillar.cellOf
  rw [← pay6_apply x0 r, ← pay4_apply x0 r, ← pay5_apply x0 r]
  rfl

/-- The masked features at row `r`, column `f`. -/
theorem masked_apply (x0 : Vec Ideal S1x8000x4 .f32) (r : Fin 8000) (f : Fin 4) :
    k0_pay9 (F := Ideal) x0 (ix3 (0 : Fin 1) r f) = x0 (ix3 (0 : Fin 1) r f) * Cert.Pillar.weight (rowOk x0 r) := by
  unfold k0_pay9
  refine (shapeCast_ab_1ab_apply _ _ (0 : Fin 1) r f).trans ?_
  refine (mulf_apply _ _ _).trans ?_
  rw [pay3_apply x0 r f]
  congr 1
  refine (broadcastTo_a1_ab_apply _ _ r f).trans ?_
  refine (shapeCast_a_a1_apply _ _ r (0 : Fin 1)).trans ?_
  exact weight_apply x0 r

/-- The weight column stored beside them is the weight vector, re-laid. -/
theorem weightCol_apply (v30 : FVec Ideal S8000 .f32) (r : Fin 8000) :
    k0_pay1 (F := Ideal) v30 (ix3 (0 : Fin 1) r (0 : Fin 1)) = v30 (ix1 r) := by
  unfold k0_pay1
  exact shapeCast_a_1a1_apply v30 _ (0 : Fin 1) r (0 : Fin 1)

/-- The index column is the pillar-number vector, re-laid. -/
theorem flatCol_apply (v38 : IVec S8000 32) (r : Fin 8000) :
    k0_pay2 v38 (ix3 (0 : Fin 1) r (0 : Fin 1)) = v38 (ix1 r) := by
  unfold k0_pay2
  exact shapeCast_a_1a1_apply v38 _ (0 : Fin 1) r (0 : Fin 1)

end Cert.KernelIdeal.PointPayload

end
-- ==== Proof.PointStage.lean ====
/-
  The first region, point by point: what the preprocessing kernel leaves in its two result arrays, as functions of
  the cloud it finds. Grid point `(b, j)` handles points `8000 j … 8000 j + 7999` of batch `b`; its feature block holds
  the four features times the weight in columns 0 to 3 and the weight in column 4, its index block the pillar number.
  The blocks tile the arrays, so the arrays end holding those functions at every index.
-/
import proofs.«154551_j39831526703842_1_alg».proof.Proof.Gen.KernelIdeal.Frame
import proofs.«154551_j39831526703842_1_alg».proof.Proof.Spec
import proofs.«154551_j39831526703842_1_alg».proof.Proof.PointPayload
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.PointStage

open Cert.KernelIdeal Cert.KernelIdeal.Gen

variable (V : (c : Dev nD) → (b : Ref sig .tc) → Buf (Elt Ideal) ((c : Thread nD τ).loc b))

/-- The feature array: at point `(b, n)` and column `f`, that point's contribution `f`. -/
def featArr (c : Dev nD) : Buf (Elt Ideal) ((c : Thread nD τ).loc main_v0_0) :=
  fun i => Cert.Pillar.ptFeat (V c main_arg0) (i 0) (i 1) (i 2)

/-- The index array: at point `(b, n)`, that point's pillar number. -/
def flatArr (c : Dev nD) : Buf (Elt Ideal) ((c : Thread nD τ).loc main_v0_1) :=
  fun i => Cert.Pillar.ptFlat (V c main_arg0) (i 0) (i 1)

/-! ## What one run of the body leaves in its two result blocks -/

private theorem hz3 : (![0, 0, 0] : Fin 3 → Nat) = fun _ => 0 := funext fun a => by fin_cases a <;> rfl

section Pieces

variable {F : FTy → Type} [FloatOps F]

/-- The index block is written once, whole: the pillar-number vector laid out as a column. -/
private theorem flatBlock_eq (c : Dev nD) (i : grid0.Coords) (arg2 : Memref sig .tc .vmem S1x8000x4 .f32) (harg2 : arg2.IsWhole)
    (arg3 : Memref sig .tc .vmem S1x8000x5 .f32) (harg3 : arg3.IsWhole) (arg4 : Memref sig .tc .vmem S1x8000x1 .i32)
    (harg4 : arg4.IsWhole) (x0 : Vec F S1x8000x4 .f32) :
    out0_A_2 c i arg2 harg2 arg3 harg3 arg4 harg4 x0 = k0_pay2 (k0_pay8 i x0) := by
  unfold out0_A_2
  rw [View.read_writes_eq_canon _ _ _ (cover0_A_2 c i arg2 harg2 arg3 harg3 arg4 harg4 x0)]
  unfold kernelRun0_A
  dsimp only
  try sl_unfold_words
  rw [View.canon_unit_zero (S := S1x8000x1) hz3]
  simp only [View.readAt_eq_ld, harg2.read_unread, View.ld_unit_zero (S := S1x8000x4) hz3]

/-- The feature block is written in two parts that sit side by side. Column 4 of row `r` is in the part written
    last: the weight column at row `r`. -/
private theorem featBlock_weight (c : Dev nD) (i : grid0.Coords) (arg2 : Memref sig .tc .vmem S1x8000x4 .f32) (harg2 : arg2.IsWhole)
    (arg3 : Memref sig .tc .vmem S1x8000x5 .f32) (harg3 : arg3.IsWhole) (arg4 : Memref sig .tc .vmem S1x8000x1 .i32)
    (harg4 : arg4.IsWhole) (x0 : Vec F S1x8000x4 .f32) (r : Fin 8000) :
    out0_A_1 c i arg2 harg2 arg3 harg3 arg4 harg4 x0 (ix3 (0 : Fin 1) r (4 : Fin 5))
      = k0_pay1 (k0_pay7 x0) (ix3 (0 : Fin 1) r (0 : Fin 1)) := by
  unfold out0_A_1
  rw [View.read_writes_eq_canon _ _ _ (cover0_A_1 c i arg2 harg2 arg3 harg3 arg4 harg4 x0)]
  unfold kernelRun0_A
  dsimp only
  try sl_unfold_words
  simp only [View.readAt_eq_ld, harg2.read_unread, View.ld_unit_zero (S := S1x8000x4) hz3]
  have e : ix3 (0 : Fin 1) r (4 : Fin 5)
      = (Rect.unit (s := S1x8000x5) ![0, 0, 4] ![1, 8000, 1] inb_S1x8000x5_S1x8000x1_0_0_4).emb (ix3 (0 : Fin 1) r (0 : Fin 1)) := by
    funext a; apply Fin.ext
    match a with
    | ⟨0, _⟩ => rfl
    | ⟨1, _⟩ => show r.val = 0 + 1 * r.val; omega
    | ⟨2, _⟩ => rfl
  rw [e]
  exact View.canon_cons_emb (Rect.unit (s := S1x8000x5) ![0, 0, 4] ![1, 8000, 1] inb_S1x8000x5_S1x8000x1_0_0_4) _ _ _

/-- A column `f < 4` of row `r` is outside the part written last, and in the other: the masked features there. -/
private theorem featBlock_masked (c : Dev nD) (i : grid0.Coords) (arg2 : Memref sig .tc .vmem S1x8000x4 .f32) (harg2 : arg2.IsWhole)
    (arg3 : Memref sig .tc .vmem S1x8000x5 .f32) (harg3 : arg3.IsWhole) (arg4 : Memref sig .tc .vmem S1x8000x1 .i32)
    (harg4 : arg4.IsWhole) (x0 : Vec F S1x8000x4 .f32) (r : Fin 8000) (f : Fin 4) :
    out0_A_1 c i arg2 harg2 arg3 harg3 arg4 harg4 x0 (ix3 (0 : Fin 1) r (⟨f.val, by have := f.isLt; omega⟩ : Fin 5))
      = k0_pay9 x0 (ix3 (0 : Fin 1) r f) := by
  unfold out0_A_1
  rw [View.read_writes_eq_canon _ _ _ (cover0_A_1 c i arg2 harg2 arg3 harg3 arg4 harg4 x0)]
  unfold kernelRun0_A
  dsimp only
  try sl_unfold_words
  simp only [View.readAt_eq_ld, harg2.read_unread, View.ld_unit_zero (S := S1x8000x4) hz3]
  rw [View.canon_cons_of_not_mem]
  swap
  · rw [Rect.mem_set_unit]
    intro h
    have h2 := (h (2 : Fin 3)).1
    have hf := f.isLt
    have : (4 : Nat) ≤ f.val := h2
    omega
  have e : ix3 (0 : Fin 1) r (⟨f.val, by have := f.isLt; omega⟩ : Fin 5)
      = (Rect.unit (s := S1x8000x5) ![0, 0, 0] ![1, 8000, 4] inb_S1x8000x5_S1x8000x4_0_0_0).emb (ix3 (0 : Fin 1) r f) := by
    funext a; apply Fin.ext
    match a with
    | ⟨0, _⟩ => rfl
    | ⟨1, _⟩ => show r.val = 0 + 1 * r.val; omega
    | ⟨2, _⟩ => show f.val = 0 + 1 * f.val; omega
  rw [e]
  exact View.canon_cons_emb (Rect.unit (s := S1x8000x5) ![0, 0, 0] ![1, 8000, 4] inb_S1x8000x5_S1x8000x4_0_0_0) _ _ _

end Pieces

/-! ## The grid and the input block -/

/-- The printed index maps, decided over the 400 grid points: point `t` is `(t / 25, t % 25)`, and there each of the
    three windows is at block `(t / 25, t % 25, 0)`. -/
private theorem idx_facts : ∀ t : Fin cfg0.N,
    (grid0.coords t 0).val = t.val / 25 ∧ (grid0.coords t 1).val = t.val % 25
    ∧ win0_0.index t (0 : Fin 3) = t.val / 25 ∧ win0_0.index t (1 : Fin 3) = t.val % 25 ∧ win0_0.index t (2 : Fin 3) = 0
    ∧ win0_1.index t (0 : Fin 3) = t.val / 25 ∧ win0_1.index t (1 : Fin 3) = t.val % 25 ∧ win0_1.index t (2 : Fin 3) = 0
    ∧ win0_2.index t (0 : Fin 3) = t.val / 25 ∧ win0_2.index t (1 : Fin 3) = t.val % 25 ∧ win0_2.index t (2 : Fin 3) = 0 :=
  (by decide +kernel : ∀ t : Fin grid0.N, _)

/-- The cloud's block at a grid point, as the body finds it. -/
private abbrev xblk (c : Dev nD) (t : Fin cfg0.N) : Vec Ideal S1x8000x4 .f32 := iblk0 V c 0 t

/-- Row `r`, column `f` of the block at point `t` is the cloud at batch `t / 25`, point `8000 (t % 25) + r`. -/
private theorem xblk_apply (c : Dev nD) (t : Fin cfg0.N) (r : Fin 8000) (f : Fin 4) (b : Fin 16) (n : Fin 200000)
    (hb : b.val = t.val / 25) (hn : n.val = 8000 * (t.val % 25) + r.val) :
    xblk V c t (ix3 (0 : Fin 1) r f) = (V c main_arg0 : S16x200000x4.Idx → EReal) (ix3 b n f) := by
  obtain ⟨-, -, e0, e1, e2, -⟩ := idx_facts t
  unfold xblk iblk0
  rw [View.read_apply]
  show V c main_arg0 _ = V c main_arg0 _
  congr 1
  funext a
  apply Fin.ext
  match a with
  | ⟨0, _⟩ => show win0_0.index t (0 : Fin 3) * 1 + 1 * (0 : Fin 1).val = b.val; rw [e0, hb]; simp
  | ⟨1, _⟩ => show win0_0.index t (1 : Fin 3) * 8000 + 1 * r.val = n.val; rw [e1, hn]; omega
  | ⟨2, _⟩ => show win0_0.index t (2 : Fin 3) * 4 + 1 * f.val = f.val; rw [e2]; omega

/-- So the row's in-grid bit is the point's. -/
private theorem rowOk_eq (c : Dev nD) (t : Fin cfg0.N) (r : Fin 8000) (b : Fin 16) (n : Fin 200000)
    (hb : b.val = t.val / 25) (hn : n.val = 8000 * (t.val % 25) + r.val) :
    PointPayload.rowOk (xblk V c t) r = Cert.Pillar.ptOk (V c main_arg0) b n := by
  unfold PointPayload.rowOk Cert.Pillar.ptOk Cert.Pillar.ptX Cert.Pillar.ptY
  rw [xblk_apply V c t r 0 b n hb hn, xblk_apply V c t r 1 b n hb hn]

/-! ## The two result blocks at a grid point, entry by entry -/

/-- Row `r`, column `f` of the feature block that point `t` leaves is the contribution `f` of the cloud's point
    `(t / 25, 8000 (t % 25) + r)`. -/
private theorem featBlock_apply (c : Dev nD) (t : Fin cfg0.N) (r : Fin 8000) (f : Fin 5) (b : Fin 16) (n : Fin 200000)
    (hb : b.val = t.val / 25) (hn : n.val = 8000 * (t.val % 25) + r.val) :
    (outsAt0 (F := Ideal) V c t).1 (ix3 (0 : Fin 1) r f) = Cert.Pillar.ptFeat (V c main_arg0) b n f := by
  unfold outsAt0
  dsimp only
  unfold Cert.Pillar.ptFeat
  by_cases h : f.val < 4
  · rw [dif_pos h]
    refine (featBlock_masked (F := Ideal) c (grid0.coords t) (ms0_0 t) (hs0_0 t) (ms0_1 t) (hs0_1 t) (ms0_2 t) (hs0_2 t)
      (xblk V c t) r ⟨f.val, h⟩).trans ?_
    refine (PointPayload.masked_apply (xblk V c t) r ⟨f.val, h⟩).trans ?_
    rw [xblk_apply V c t r ⟨f.val, h⟩ b n hb hn, rowOk_eq V c t r b n hb hn]
    rfl
  · rw [dif_neg h]
    obtain rfl : f = (4 : Fin 5) := Fin.ext (by have := f.isLt; show f.val = 4; omega)
    refine (featBlock_weight (F := Ideal) c (grid0.coords t) (ms0_0 t) (hs0_0 t) (ms0_1 t) (hs0_1 t) (ms0_2 t) (hs0_2 t)
      (xblk V c t) r).trans ?_
    refine (PointPayload.weightCol_apply (k0_pay7 (F := Ideal) (xblk V c t)) r).trans ?_
    refine (PointPayload.weight_apply (xblk V c t) r).trans ?_
    rw [rowOk_eq V c t r b n hb hn]
    rfl

/-- Row `r` of the index block that point `t` leaves is the pillar number of that same point of the cloud. -/
private theorem flatBlock_apply (c : Dev nD) (t : Fin cfg0.N) (r : Fin 8000) (b : Fin 16) (n : Fin 200000)
    (hb : b.val = t.val / 25) (hn : n.val = 8000 * (t.val % 25) + r.val) :
    (outsAt0 (F := Ideal) V c t).2 (ix3 (0 : Fin 1) r (0 : Fin 1)) = Cert.Pillar.ptFlat (V c main_arg0) b n := by
  obtain ⟨g0, -⟩ := idx_facts t
  unfold outsAt0
  dsimp only
  rw [flatBlock_eq (F := Ideal) c (grid0.coords t) (ms0_0 t) (hs0_0 t) (ms0_1 t) (hs0_1 t) (ms0_2 t) (hs0_2 t) (xblk V c t)]
  refine (PointPayload.flatCol_apply (k0_pay8 (F := Ideal) (grid0.coords t) (xblk V c t)) r).trans ?_
  refine (PointPayload.flat_apply (grid0.coords t) (xblk V c t) r).trans ?_
  unfold Cert.Pillar.ptFlat Cert.Pillar.ptX Cert.Pillar.ptY
  rw [xblk_apply V c t r 0 b n hb hn, xblk_apply V c t r 1 b n hb hn, rowOk_eq V c t r b n hb hn, g0, hb]

/-! ## What each point writes back, and the arrays after the run -/

/-- What point `t` writes back to the feature array is its block of `featArr`: the block's entry `(0, r, f)` sits in
    the array at `(t / 25, 8000 (t % 25) + r, f)`. -/
private theorem flushed1_eq (c : Dev nD) (t : Fin cfg0.N) :
    (dat0 (F := Ideal) V c).flushed 1 t = ((cfg0.win 1).blk t).view.read (Elt Ideal) (featArr V c) := by
  show (cfg0.win 1).cut (grid0.coords t) ((dat0 (F := Ideal) V c).after 1 t) = _
  rw [after0_1]
  funext j
  have h0 : (j 0).val < 1 := (j 0).isLt
  have h1 : (j 1).val < 8000 := (j 1).isLt
  have h2 : (j 2).val < 5 := (j 2).isLt
  obtain ⟨-, -, -, -, -, e0, e1, e2, -⟩ := idx_facts t
  rw [View.read_apply]
  have ej : (cfg0.win 1).xinj (grid0.coords t) j = ix3 (0 : Fin 1) (⟨(j 1).val, h1⟩ : Fin 8000) (⟨(j 2).val, h2⟩ : Fin 5) := by
    funext a; apply Fin.ext
    match a with
    | ⟨0, _⟩ => show (j 0).val = 0; omega
    | ⟨1, _⟩ => rfl
    | ⟨2, _⟩ => rfl
  show (outsAt0 (F := Ideal) V c t).1 ((cfg0.win 1).xinj (grid0.coords t) j) = featArr V c (((cfg0.win 1).blk t).view.emb j)
  rw [ej]
  have hb : ((((cfg0.win 1).blk t).view.emb j) (0 : Fin 3)).val = t.val / 25 := by
    show win0_1.index t (0 : Fin 3) * 1 + 1 * (j 0).val = _; rw [e0]; omega
  have hn : ((((cfg0.win 1).blk t).view.emb j) (1 : Fin 3)).val = 8000 * (t.val % 25) + (j 1).val := by
    show win0_1.index t (1 : Fin 3) * 8000 + 1 * (j 1).val = _; rw [e1]; omega
  have hf : (((cfg0.win 1).blk t).view.emb j) (2 : Fin 3) = (⟨(j 2).val, h2⟩ : Fin 5) :=
    Fin.ext (by show win0_1.index t (2 : Fin 3) * 5 + 1 * (j 2).val = (j 2).val; rw [e2]; omega)
  refine (featBlock_apply V c t ⟨(j 1).val, h1⟩ ⟨(j 2).val, h2⟩ ((((cfg0.win 1).blk t).view.emb j) (0 : Fin 3))
    ((((cfg0.win 1).blk t).view.emb j) (1 : Fin 3)) hb hn).trans ?_
  exact congrArg (Cert.Pillar.ptFeat (V c main_arg0) _ _) hf.symm

/-- What point `t` writes back to the index array is its block of `flatArr`. -/
private theorem flushed2_eq (c : Dev nD) (t : Fin cfg0.N) :
    (dat0 (F := Ideal) V c).flushed 2 t = ((cfg0.win 2).blk t).view.read (Elt Ideal) (flatArr V c) := by
  show (cfg0.win 2).cut (grid0.coords t) ((dat0 (F := Ideal) V c).after 2 t) = _
  rw [after0_2]
  funext j
  have h0 : (j 0).val < 1 := (j 0).isLt
  have h1 : (j 1).val < 8000 := (j 1).isLt
  have h2 : (j 2).val < 1 := (j 2).isLt
  obtain ⟨-, -, -, -, -, -, -, -, e0, e1, e2⟩ := idx_facts t
  rw [View.read_apply]
  have ej : (cfg0.win 2).xinj (grid0.coords t) j = ix3 (0 : Fin 1) (⟨(j 1).val, h1⟩ : Fin 8000) (0 : Fin 1) := by
    funext a; apply Fin.ext
    match a with
    | ⟨0, _⟩ => show (j 0).val = 0; omega
    | ⟨1, _⟩ => rfl
    | ⟨2, _⟩ => show (j 2).val = 0; omega
  show (outsAt0 (F := Ideal) V c t).2 ((cfg0.win 2).xinj (grid0.coords t) j) = flatArr V c (((cfg0.win 2).blk t).view.emb j)
  rw [ej]
  have hb : ((((cfg0.win 2).blk t).view.emb j) (0 : Fin 3)).val = t.val / 25 := by
    show win0_2.index t (0 : Fin 3) * 1 + 1 * (j 0).val = _; rw [e0]; omega
  have hn : ((((cfg0.win 2).blk t).view.emb j) (1 : Fin 3)).val = 8000 * (t.val % 25) + (j 1).val := by
    show win0_2.index t (1 : Fin 3) * 8000 + 1 * (j 1).val = _; rw [e1]; omega
  exact flatBlock_apply V c t ⟨(j 1).val, h1⟩ ((((cfg0.win 2).blk t).view.emb j) (0 : Fin 3))
    ((((cfg0.win 2).blk t).view.emb j) (1 : Fin 3)) hb hn

/-- An index of the feature array is in point `t`'s block iff each coordinate is in the block's range on its axis. -/
private theorem mem_blk1 (t : Fin cfg0.N) (i : S16x200000x5.Idx) :
    i ∈ ((cfg0.win 1).blk t).view.set ↔ ∀ a : Fin 3, win0_1.index t a * S1x8000x5.size a ≤ (i a).val
      ∧ (i a).val < win0_1.index t a * S1x8000x5.size a + S1x8000x5.size a := by
  show i ∈ ((View.whole main_v0_0).slice (win0_1.rect t)).set ↔ _
  rw [View.set_slice_whole, Rect.mem_set_unit]
  exact Iff.rfl

/-- The same for the index array. -/
private theorem mem_blk2 (t : Fin cfg0.N) (i : S16x200000x1.Idx) :
    i ∈ ((cfg0.win 2).blk t).view.set ↔ ∀ a : Fin 3, win0_2.index t a * S1x8000x1.size a ≤ (i a).val
      ∧ (i a).val < win0_2.index t a * S1x8000x1.size a + S1x8000x1.size a := by
  show i ∈ ((View.whole main_v0_1).slice (win0_2.rect t)).set ↔ _
  rw [View.set_slice_whole, Rect.mem_set_unit]
  exact Iff.rfl

/-- The grid point that handles point `n` of batch `b`: number `25 b + n / 8000`. -/
private def pointOf (b n : Nat) (hb : b < 16) (hn : n < 200000) : Fin cfg0.N :=
  ⟨b * 25 + n / 8000, Nat.lt_of_lt_of_eq (by omega) N_0.symm⟩

private theorem pointOf_val (b n : Nat) (hb : b < 16) (hn : n < 200000) : (pointOf b n hb hn).val = b * 25 + n / 8000 := rfl

/-- Every index of the feature array is in the block of the grid point handling its row. -/
private theorem cover1 (i : S16x200000x5.Idx) :
    ∃ t : Fin cfg0.N, (cfg0.win 1).flush t = true ∧ i ∈ ((cfg0.win 1).blk t).view.set := by
  have h0 : (i 0).val < 16 := (i 0).isLt
  have h1 : (i 1).val < 200000 := (i 1).isLt
  have h2 : (i 2).val < 5 := (i 2).isLt
  refine ⟨pointOf (i 0).val (i 1).val h0 h1, flush0_1 _, ?_⟩
  obtain ⟨-, -, -, -, -, e0, e1, e2, -⟩ := idx_facts (pointOf (i 0).val (i 1).val h0 h1)
  rw [pointOf_val] at e0 e1
  rw [mem_blk1]
  intro a
  match a with
  | ⟨0, _⟩ =>
    show win0_1.index (pointOf (i 0).val (i 1).val h0 h1) (0 : Fin 3) * 1 ≤ (i 0).val
      ∧ (i 0).val < win0_1.index (pointOf (i 0).val (i 1).val h0 h1) (0 : Fin 3) * 1 + 1
    rw [e0]; omega
  | ⟨1, _⟩ =>
    show win0_1.index (pointOf (i 0).val (i 1).val h0 h1) (1 : Fin 3) * 8000 ≤ (i 1).val
      ∧ (i 1).val < win0_1.index (pointOf (i 0).val (i 1).val h0 h1) (1 : Fin 3) * 8000 + 8000
    rw [e1]; omega
  | ⟨2, _⟩ =>
    show win0_1.index (pointOf (i 0).val (i 1).val h0 h1) (2 : Fin 3) * 5 ≤ (i 2).val
      ∧ (i 2).val < win0_1.index (pointOf (i 0).val (i 1).val h0 h1) (2 : Fin 3) * 5 + 5
    rw [e2]; omega

/-- Every index of the index array is in the block of the grid point handling its row. -/
private theorem cover2 (i : S16x200000x1.Idx) :
    ∃ t : Fin cfg0.N, (cfg0.win 2).flush t = true ∧ i ∈ ((cfg0.win 2).blk t).view.set := by
  have h0 : (i 0).val < 16 := (i 0).isLt
  have h1 : (i 1).val < 200000 := (i 1).isLt
  have h2 : (i 2).val < 1 := (i 2).isLt
  refine ⟨pointOf (i 0).val (i 1).val h0 h1, flush0_2 _, ?_⟩
  obtain ⟨-, -, -, -, -, -, -, -, e0, e1, e2⟩ := idx_facts (pointOf (i 0).val (i 1).val h0 h1)
  rw [pointOf_val] at e0 e1
  rw [mem_blk2]
  intro a
  match a with
  | ⟨0, _⟩ =>
    show win0_2.index (pointOf (i 0).val (i 1).val h0 h1) (0 : Fin 3) * 1 ≤ (i 0).val
      ∧ (i 0).val < win0_2.index (pointOf (i 0).val (i 1).val h0 h1) (0 : Fin 3) * 1 + 1
    rw [e0]; omega
  | ⟨1, _⟩ =>
    show win0_2.index (pointOf (i 0).val (i 1).val h0 h1) (1 : Fin 3) * 8000 ≤ (i 1).val
      ∧ (i 1).val < win0_2.index (pointOf (i 0).val (i 1).val h0 h1) (1 : Fin 3) * 8000 + 8000
    rw [e1]; omega
  | ⟨2, _⟩ =>
    show win0_2.index (pointOf (i 0).val (i 1).val h0 h1) (2 : Fin 3) * 1 ≤ (i 2).val
      ∧ (i 2).val < win0_2.index (pointOf (i 0).val (i 1).val h0 h1) (2 : Fin 3) * 1 + 1
    rw [e2]; omega

theorem feat_array (c : Dev nD) : (dat0 (F := Ideal) V c).arrAt 1 cfg0.N = featArr V c := by
  exact (dat0 (F := Ideal) V c).arrAt_eq_of_cover 1 (featArr V c) (fun t _ => flushed1_eq V c t) fun i => cover1 i

theorem flat_array (c : Dev nD) : (dat0 (F := Ideal) V c).arrAt 2 cfg0.N = flatArr V c := by
  exact (dat0 (F := Ideal) V c).arrAt_eq_of_cover 2 (flatArr V c) (fun t _ => flushed2_eq V c t) fun i => cover2 i

end Cert.KernelIdeal.PointStage

end
-- ==== Proof.TokenPayload.lean ====
/-
  The perceptron-and-normalisation kernel's arithmetic on one block of 4000 pillars, read at an index: row `r`,
  output `e` of what it stores is the normalised token of row `r`'s five sums. The two matrix products over the four
  means and over the count add up to the one product over all five columns; the three matrix products and the two
  lane sums are plain sums at the extended reals; the changes of float format are the identity there.
-/
import proofs.«154551_j39831526703842_1_alg».proof.Proof.Gen.KernelIdeal.Skeleton
import proofs.«154551_j39831526703842_1_alg».proof.Proof.Spec
import proofs.«154551_j39831526703842_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.KernelIdeal.TokenPayload

open Cert.KernelIdeal Cert.KernelIdeal.Gen

/-! ## Two layout readings: a column made of a vector, and a column spread over the lanes -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) (u : Fin 1) :
    broadcastTo ⟨2, ![a, b]⟩ v h (ix2 p c) = v (ix2 p u) := by
  refine broadcastTo_apply v h (ix2 p c) (ix2 p u) fun ax => ?_
  match ax with
  | ⟨0, _⟩ =>
    show p.val = if a = 1 then 0 else p.val
    split
    · have := p.isLt; omega
    · rfl
  | ⟨1, _⟩ =>
    show u.val = if (1 : ℕ) = 1 then 0 else c.val
    rw [if_pos rfl]; omega

/-! ## The three matrix products into a zero accumulator, each a plain sum over the contracted axis -/

theorem lhs_mm4_0 (i : S4000x64.Idx) (q : dot_S4000x4_S4x64_S4000x64_1_0_0_1_n_n.contr.Idx) :
    (dot_S4000x4_S4x64_S4000x64_1_0_0_1_n_n.lhsIdx i q 0).val = (i 0).val := by
  unfold DotDims.lhsIdx
  rw [dif_neg (show ¬(0 : Fin S4000x4.rank) ∈ dot_S4000x4_S4x64_S4000x64_1_0_0_1_n_n.lhsBatch by decide), dif_pos (show (0 : Fin S4000x4.rank) ∈ dot_S4000x4_S4x64_S4000x64_1_0_0_1_n_n.lhsNonContracting by decide)]
  rfl
theorem lhs_mm4_1 (i : S4000x64.Idx) (q : dot_S4000x4_S4x64_S4000x64_1_0_0_1_n_n.contr.Idx) :
    (dot_S4000x4_S4x64_S4000x64_1_0_0_1_n_n.lhsIdx i q 1).val = (q ⟨0, by decide⟩).val :=
  dot_S4000x4_S4x64_S4000x64_1_0_0_1_n_n.lhsIdx_val_of_single rfl i q
theorem rhs_mm4_0 (i : S4000x64.Idx) (q : dot_S4000x4_S4x64_S4000x64_1_0_0_1_n_n.contr.Idx) :
    (dot_S4000x4_S4x64_S4000x64_1_0_0_1_n_n.rhsIdx i q 0).val = (q ⟨0, by decide⟩).val :=
  dot_S4000x4_S4x64_S4000x64_1_0_0_1_n_n.rhsIdx_val_of_single rfl i q
theorem rhs_mm4_1 (i : S4000x64.Idx) (q : dot_S4000x4_S4x64_S4000x64_1_0_0_1_n_n.contr.Idx) :
    (dot_S4000x4_S4x64_S4000x64_1_0_0_1_n_n.rhsIdx i q 1).val = (i 1).val := by
  unfold DotDims.rhsIdx
  rw [dif_neg (show ¬(1 : Fin S4x64.rank) ∈ dot_S4000x4_S4x64_S4000x64_1_0_0_1_n_n.rhsBatch by decide), dif_pos (show (1 : Fin S4x64.rank) ∈ dot_S4000x4_S4x64_S4000x64_1_0_0_1_n_n.rhsNonContracting by decide)]
  rfl

/-- The product of the four means with the first four rows of the first weight matrix. -/
theorem matmul4_apply {φ₁ φ₂ : FTy} (a : FVec Ideal S4000x4 φ₁) (b : FVec Ideal S4x64 φ₂) (r : Fin 4000) (h : Fin 64) :
    matmul dot_S4000x4_S4x64_S4000x64_1_0_0_1_n_n none a b (constant (F := Ideal) S4000x64 .f32 0x00000000#32) (ix2 r h)
      = ∑ k : Fin 4, a (ix2 r k) * b (ix2 k h) := by
  refine (Ideal.matmul_constant_zero_apply _ none a b (ix2 r h)).trans ?_
  rw [← Equiv.sum_comp (ValueIdx.contrEquiv1 dot_S4000x4_S4x64_S4000x64_1_0_0_1_n_n 4 rfl rfl).symm]
  refine Finset.sum_congr rfl fun k _ => ?_
  have hk := ValueIdx.contrEquiv1_symm_val dot_S4000x4_S4x64_S4000x64_1_0_0_1_n_n 4 rfl rfl k
  have el : dot_S4000x4_S4x64_S4000x64_1_0_0_1_n_n.lhsIdx (ix2 r h) ((ValueIdx.contrEquiv1 dot_S4000x4_S4x64_S4000x64_1_0_0_1_n_n 4 rfl rfl).symm k) = ix2 r k := funext fun ax => Fin.ext (by
    match ax with
    | ⟨0, _⟩ => exact lhs_mm4_0 _ _
    | ⟨1, _⟩ => exact (lhs_mm4_1 _ _).trans hk)
  have er : dot_S4000x4_S4x64_S4000x64_1_0_0_1_n_n.rhsIdx (ix2 r h) ((ValueIdx.contrEquiv1 dot_S4000x4_S4x64_S4000x64_1_0_0_1_n_n 4 rfl rfl).symm k) = ix2 k h := funext fun ax => Fin.ext (by
    match ax with
    | ⟨0, _⟩ => exact (rhs_mm4_0 _ _).trans hk
    | ⟨1, _⟩ => exact rhs_mm4_1 _ _)
  rw [el, er]

theorem lhs_mm1_0 (i : S4000x64.Idx) (q : dot_S4000x1_S1x64_S4000x64_1_0_0_1_n_n.contr.Idx) :
    (dot_S4000x1_S1x64_S4000x64_1_0_0_1_n_n.lhsIdx i q 0).val = (i 0).val := by
  unfold DotDims.lhsIdx
  rw [dif_neg (show ¬(0 : Fin S4000x1.rank) ∈ dot_S4000x1_S1x64_S4000x64_1_0_0_1_n_n.lhsBatch by decide), dif_pos (show (0 : Fin S4000x1.rank) ∈ dot_S4000x1_S1x64_S4000x64_1_0_0_1_n_n.lhsNonContracting by decide)]
  rfl
theorem lhs_mm1_1 (i : S4000x64.Idx) (q : dot_S4000x1_S1x64_S4000x64_1_0_0_1_n_n.contr.Idx) :
    (dot_S4000x1_S1x64_S4000x64_1_0_0_1_n_n.lhsIdx i q 1).val = (q ⟨0, by decide⟩).val :=
  dot_S4000x1_S1x64_S4000x64_1_0_0_1_n_n.lhsIdx_val_of_single rfl i q
theorem rhs_mm1_0 (i : S4000x64.Idx) (q : dot_S4000x1_S1x64_S4000x64_1_0_0_1_n_n.contr.Idx) :
    (dot_S4000x1_S1x64_S4000x64_1_0_0_1_n_n.rhsIdx i q 0).val = (q ⟨0, by decide⟩).val :=
  dot_S4000x1_S1x64_S4000x64_1_0_0_1_n_n.rhsIdx_val_of_single rfl i q
theorem rhs_mm1_1 (i : S4000x64.Idx) (q : dot_S4000x1_S1x64_S4000x64_1_0_0_1_n_n.contr.Idx) :
    (dot_S4000x1_S1x64_S4000x64_1_0_0_1_n_n.rhsIdx i q 1).val = (i 1).val := by
  unfold DotDims.rhsIdx
  rw [dif_neg (show ¬(1 : Fin S1x64.rank) ∈ dot_S4000x1_S1x64_S4000x64_1_0_0_1_n_n.rhsBatch by decide), dif_pos (show (1 : Fin S1x64.rank) ∈ dot_S4000x1_S1x64_S4000x64_1_0_0_1_n_n.rhsNonContracting by decide)]
  rfl

/-- The product of the count column with the fifth row of the first weight matrix: a sum of one term. -/
theorem matmul1_apply {φ₁ φ₂ : FTy} (a : FVec Ideal S4000x1 φ₁) (b : FVec Ideal S1x64 φ₂) (r : Fin 4000) (h : Fin 64) :
    matmul dot_S4000x1_S1x64_S4000x64_1_0_0_1_n_n none a b (constant (F := Ideal) S4000x64 .f32 0x00000000#32) (ix2 r h)
      = ∑ k : Fin 1, a (ix2 r k) * b (ix2 k h) := by
  refine (Ideal.matmul_constant_zero_apply _ none a b (ix2 r h)).trans ?_
  rw [← Equiv.sum_comp (ValueIdx.contrEquiv1 dot_S4000x1_S1x64_S4000x64_1_0_0_1_n_n 1 rfl rfl).symm]
  refine Finset.sum_congr rfl fun k _ => ?_
  have hk := ValueIdx.contrEquiv1_symm_val dot_S4000x1_S1x64_S4000x64_1_0_0_1_n_n 1 rfl rfl k
  have el : dot_S4000x1_S1x64_S4000x64_1_0_0_1_n_n.lhsIdx (ix2 r h) ((ValueIdx.contrEquiv1 dot_S4000x1_S1x64_S4000x64_1_0_0_1_n_n 1 rfl rfl).symm k) = ix2 r k := funext fun ax => Fin.ext (by
    match ax with
    | ⟨0, _⟩ => exact lhs_mm1_0 _ _
    | ⟨1, _⟩ => exact (lhs_mm1_1 _ _).trans hk)
  have er : dot_S4000x1_S1x64_S4000x64_1_0_0_1_n_n.rhsIdx (ix2 r h) ((ValueIdx.contrEquiv1 dot_S4000x1_S1x64_S4000x64_1_0_0_1_n_n 1 rfl rfl).symm k) = ix2 k h := funext fun ax => Fin.ext (by
    match ax with
    | ⟨0, _⟩ => exact (rhs_mm1_0 _ _).trans hk
    | ⟨1, _⟩ => exact rhs_mm1_1 _ _)
  rw [el, er]

theorem lhs_mm64_0 (i : S4000x96.Idx) (q : dot_S4000x64_S64x96_S4000x96_1_0_0_1_n_n.contr.Idx) :
    (dot_S4000x64_S64x96_S4000x96_1_0_0_1_n_n.lhsIdx i q 0).val = (i 0).val := by
  unfold DotDims.lhsIdx
  rw [dif_neg (show ¬(0 : Fin S4000x64.rank) ∈ dot_S4000x64_S64x96_S4000x96_1_0_0_1_n_n.lhsBatch by decide), dif_pos (show (0 : Fin S4000x64.rank) ∈ dot_S4000x64_S64x96_S4000x96_1_0_0_1_n_n.lhsNonContracting by decide)]
  rfl
theorem lhs_mm64_1 (i : S4000x96.Idx) (q : dot_S4000x64_S64x96_S4000x96_1_0_0_1_n_n.contr.Idx) :
    (dot_S4000x64_S64x96_S4000x96_1_0_0_1_n_n.lhsIdx i q 1).val = (q ⟨0, by decide⟩).val :=
  dot_S4000x64_S64x96_S4000x96_1_0_0_1_n_n.lhsIdx_val_of_single rfl i q
theorem rhs_mm64_0 (i : S4000x96.Idx) (q : dot_S4000x64_S64x96_S4000x96_1_0_0_1_n_n.contr.Idx) :
    (dot_S4000x64_S64x96_S4000x96_1_0_0_1_n_n.rhsIdx i q 0).val = (q ⟨0, by decide⟩).val :=
  dot_S4000x64_S64x96_S4000x96_1_0_0_1_n_n.rhsIdx_val_of_single rfl i q
theorem rhs_mm64_1 (i : S4000x96.Idx) (q : dot_S4000x64_S64x96_S4000x96_1_0_0_1_n_n.contr.Idx) :
    (dot_S4000x64_S64x96_S4000x96_1_0_0_1_n_n.rhsIdx i q 1).val = (i 1).val := by
  unfold DotDims.rhsIdx
  rw [dif_neg (show ¬(1 : Fin S64x96.rank) ∈ dot_S4000x64_S64x96_S4000x96_1_0_0_1_n_n.rhsBatch by decide), dif_pos (show (1 : Fin S64x96.rank) ∈ dot_S4000x64_S64x96_S4000x96_1_0_0_1_n_n.rhsNonContracting by decide)]
  rfl

/-- The product of the hidden layer with the second weight matrix. -/
theorem matmul64_apply {φ₁ φ₂ : FTy} (a : FVec Ideal S4000x64 φ₁) (b : FVec Ideal S64x96 φ₂) (r : Fin 4000) (h : Fin 96) :
    matmul dot_S4000x64_S64x96_S4000x96_1_0_0_1_n_n none a b (constant (F := Ideal) S4000x96 .f32 0x00000000#32) (ix2 r h)
      = ∑ k : Fin 64, a (ix2 r k) * b (ix2 k h) := by
  refine (Ideal.matmul_constant_zero_apply _ none a b (ix2 r h)).trans ?_
  rw [← Equiv.sum_comp (ValueIdx.contrEquiv1 dot_S4000x64_S64x96_S4000x96_1_0_0_1_n_n 64 rfl rfl).symm]
  refine Finset.sum_congr rfl fun k _ => ?_
  have hk := ValueIdx.contrEquiv1_symm_val dot_S4000x64_S64x96_S4000x96_1_0_0_1_n_n 64 rfl rfl k
  have el : dot_S4000x64_S64x96_S4000x96_1_0_0_1_n_n.lhsIdx (ix2 r h) ((ValueIdx.contrEquiv1 dot_S4000x64_S64x96_S4000x96_1_0_0_1_n_n 64 rfl rfl).symm k) = ix2 r k := funext fun ax => Fin.ext (by
    match ax with
    | ⟨0, _⟩ => exact lhs_mm64_0 _ _
    | ⟨1, _⟩ => exact (lhs_mm64_1 _ _).trans hk)
  have er : dot_S4000x64_S64x96_S4000x96_1_0_0_1_n_n.rhsIdx (ix2 r h) ((ValueIdx.contrEquiv1 dot_S4000x64_S64x96_S4000x96_1_0_0_1_n_n 64 rfl rfl).symm k) = ix2 k h := funext fun ax => Fin.ext (by
    match ax with
    | ⟨0, _⟩ => exact (rhs_mm64_0 _ _).trans hk
    | ⟨1, _⟩ => exact rhs_mm64_1 _ _)
  rw [el, er]

/-! ## The lane sum -/

/-- The sum over the 96 lanes of row `r`. -/
theorem rowsum_apply (t : FVec Ideal S4000x96 .f32) (hred : S4000x96.Reduces [1] S4000)
    (hφ : FKind.Formats .f32) (hacc : (0x00000000#32 : BitVec (FTy.bits .f32)) = FKind.add.neutral .f32 hφ) (r : Fin 4000) :
    multiReduction (F := Ideal) .add [1] S4000 t 0x00000000#32 hred hφ hacc (ix1 r) = ∑ e : Fin 96, t (ix2 r e) := by
  refine (Ideal.multiReduction_add_single t _ hred hφ hacc (ix1 r)).trans ?_
  refine Finset.sum_congr rfl fun e _ => congrArg t ?_
  funext ax
  match ax with
  | ⟨0, _⟩ => rfl
  | ⟨1, _⟩ => rfl

/-! ## The body's stages, each as a function of the stage before it -/

/-- The block with its leading unit axis dropped. -/
def rowsK (x0 : Vec Ideal S1x4000x5 .f32) : FVec Ideal S4000x5 .f32 :=
  shapeCast S4000x5 (shapeCast S1x4000x5 x0 shapeCasts_S1x4000x5_S1x4000x5) shapeCasts_S1x4000x5_S4000x5

/-- The count column. -/
def countK (v2 : FVec Ideal S4000x5 .f32) : FVec Ideal S4000x1 .f32 :=
  extractStridedSlice S4000x1 ![0, 4] v2 slices_S4000x5_o0_4_S4000x1

/-- The four means: each of the first four columns over the larger of the count and one. -/
def meansK (v2 : FVec Ideal S4000x5 .f32) : FVec Ideal S4000x4 .f32 :=
  divf (extractStridedSlice S4000x4 ![0, 0] v2 slices_S4000x5_o0_0_S4000x4)
    (broadcastTo S4000x4 (maximumf (countK v2) (broadcast S4000x1 (Scalar.ofBits .f32 0x3F800000#32))) broadcasts_S4000x1_S4000x4)

/-- The hidden layer: the two products, the bias, the larger of that and zero. -/
def hiddenK (m : FVec Ideal S4000x4 .f32) (c : FVec Ideal S4000x1 .f32) (x1 : Vec Ideal S5x64 .f32) (x2 : Vec Ideal S64 .f32) :
    FVec Ideal S4000x64 .f32 :=
  maximumf
    (addf
      (addf
        (matmul dot_S4000x4_S4x64_S4000x64_1_0_0_1_n_n none (truncf .bf16 m bitsLt_bf16_f32)
          (truncf .bf16 (extractStridedSlice S4x64 ![0, 0] x1 slices_S5x64_o0_0_S4x64) bitsLt_bf16_f32)
          (constant S4000x64 .f32 0x00000000#32))
        (matmul dot_S4000x1_S1x64_S4000x64_1_0_0_1_n_n none (truncf .bf16 c bitsLt_bf16_f32)
          (truncf .bf16 (extractStridedSlice S1x64 ![4, 0] x1 slices_S5x64_o4_0_S1x64) bitsLt_bf16_f32)
          (constant S4000x64 .f32 0x00000000#32)))
      (broadcastTo S4000x64 (shapeCast S1x64 x2 shapeCasts_S64_S1x64) broadcasts_S1x64_S4000x64))
    (broadcast S4000x64 (Scalar.ofBits .f32 0x00000000#32))

/-- The token before normalisation: the product with the second weight matrix, and its bias. -/
def tokK (h : FVec Ideal S4000x64 .f32) (x3 : Vec Ideal S64x96 .f32) (x4 : Vec Ideal S96 .f32) : FVec Ideal S4000x96 .f32 :=
  addf
    (matmul dot_S4000x64_S64x96_S4000x96_1_0_0_1_n_n none (truncf .bf16 h bitsLt_bf16_f32) (truncf .bf16 x3 bitsLt_bf16_f32)
      (constant S4000x96 .f32 0x00000000#32))
    (broadcastTo S4000x96 (shapeCast S1x96 x4 shapeCasts_S96_S1x96) broadcasts_S1x96_S4000x96)

/-- A row's lane sum over 96, kept as a column. -/
def meanK (q : FVec Ideal S4000 .f32) : FVec Ideal S4000x1 .f32 :=
  divf (shapeCast S4000x1 q shapeCasts_S4000_S4000x1) (broadcast S4000x1 (Scalar.ofBits .f32 0x42C00000#32))

/-- The lane sums of a block. -/
def sumK (t : FVec Ideal S4000x96 .f32) : FVec Ideal S4000 .f32 :=
  multiReduction .add [1] S4000 t 0x00000000#32 reduces_S4000x96_S4000 (.inl rfl) rfl

/-- A block less its rows' means. -/
def centredK (t : FVec Ideal S4000x96 .f32) : FVec Ideal S4000x96 .f32 :=
  subf t (broadcastTo S4000x96 (meanK (sumK t)) broadcasts_S4000x1_S4000x96)

/-- The normalisation: the centred block times the reciprocal root of the mean square plus the constant, scaled and shifted. -/
def normK (d : FVec Ideal S4000x96 .f32) (q : FVec Ideal S4000 .f32) (x5 x6 : Vec Ideal S96 .f32) : FVec Ideal S1x4000x96 .f32 :=
  shapeCast S1x4000x96
    (addf
      (mulf
        (mulf d
          (broadcastTo S4000x96 (rsqrt (addf (meanK q) (broadcast S4000x1 (Scalar.ofBits .f32 0x3727C5AC#32)))) broadcasts_S4000x1_S4000x96))
        (broadcastTo S4000x96 (shapeCast S1x96 x5 shapeCasts_S96_S1x96) broadcasts_S1x96_S4000x96))
      (broadcastTo S4000x96 (shapeCast S1x96 x6 shapeCasts_S96_S1x96) broadcasts_S1x96_S4000x96))
    shapeCasts_S4000x96_S1x4000x96

/-- The three payload terms are these stages composed. -/
theorem pay2_eq (x0 : Vec Ideal S1x4000x5 .f32) (x1 : Vec Ideal S5x64 .f32) (x2 : Vec Ideal S64 .f32)
    (x3 : Vec Ideal S64x96 .f32) (x4 : Vec Ideal S96 .f32) :
    k1_pay2 (F := Ideal) x0 x1 x2 x3 x4 = centredK (tokK (hiddenK (meansK (rowsK x0)) (countK (rowsK x0)) x1 x2) x3 x4) := rfl

theorem pay3_eq (x0 : Vec Ideal S1x4000x5 .f32) (x1 : Vec Ideal S5x64 .f32) (x2 : Vec Ideal S64 .f32)
    (x3 : Vec Ideal S64x96 .f32) (x4 : Vec Ideal S96 .f32) :
    k1_pay3 (F := Ideal) x0 x1 x2 x3 x4 = sumK (mulf (k1_pay2 (F := Ideal) x0 x1 x2 x3 x4) (k1_pay2 (F := Ideal) x0 x1 x2 x3 x4)) := rfl

theorem pay1_eq (d : FVec Ideal S4000x96 .f32) (q : FVec Ideal S4000 .f32) (x5 x6 : Vec Ideal S96 .f32) :
    k1_pay1 (F := Ideal) d q x5 x6 = normK d q x5 x6 := rfl

/-! ## Each stage read at an index -/

theorem rowsK_apply (x0 : Vec Ideal S1x4000x5 .f32) (r : Fin 4000) (f : Fin 5) :
    rowsK x0 (ix2 r f) = x0 (ix3 (0 : Fin 1) r f) := by
  unfold rowsK
  rw [shapeCast_self]
  exact shapeCast_1ab_ab_apply x0 _ r f

theorem countK_apply (v2 : FVec Ideal S4000x5 .f32) (r : Fin 4000) (u : Fin 1) :
    countK v2 (ix2 r u) = v2 (ix2 r (4 : Fin 5)) := by
  unfold countK
  exact slice2_axis1_apply 4 v2 _ r u (4 : Fin 5) (by have hu : u.val = 0 := by omega
                                                      rw [hu]; rfl)

theorem meansK_apply (v2 : FVec Ideal S4000x5 .f32) (r : Fin 4000) (f : Fin 4) :
    meansK v2 (ix2 r f)
      = Ideal.div (v2 (ix2 r (⟨f.val, by omega⟩ : Fin 5))) (max (v2 (ix2 r (4 : Fin 5))) (Ideal.ofBits .f32 0x3F800000#32)) := by
  unfold meansK
  rw [divf_apply, broadcastTo_a1_ab_apply _ _ r f (0 : Fin 1), maximumf_apply, countK_apply, broadcast_apply,
    slice2_axis1_apply 0 v2 _ r f (⟨f.val, by omega⟩ : Fin 5) (Nat.zero_add _).symm]
  rfl

theorem hiddenK_apply (m : FVec Ideal S4000x4 .f32) (c : FVec Ideal S4000x1 .f32) (x1 : Vec Ideal S5x64 .f32)
    (x2 : Vec Ideal S64 .f32) (r : Fin 4000) (h : Fin 64) :
    hiddenK m c x1 x2 (ix2 r h)
      = max (((∑ k : Fin 4, m (ix2 r k) * x1 (ix2 (⟨k.val, by omega⟩ : Fin 5) h))
              + c (ix2 r (0 : Fin 1)) * x1 (ix2 (4 : Fin 5) h)) + x2 (ix1 h))
          (Ideal.ofBits .f32 0x00000000#32) := by
  unfold hiddenK
  rw [maximumf_apply, addf_apply, addf_apply, broadcast_apply, matmul4_apply, matmul1_apply, Fin.sum_univ_one,
    broadcastTo_1b_ab_apply, shapeCast_a_1a_apply]
  have e4 : ∀ k : Fin 4, extractStridedSlice S4x64 ![0, 0] x1 slices_S5x64_o0_0_S4x64 (ix2 k h)
      = x1 (ix2 (⟨k.val, by omega⟩ : Fin 5) h) := fun k =>
    slice2_axis0_apply 0 x1 _ k h _ (Nat.zero_add _).symm
  have e1 : extractStridedSlice S1x64 ![4, 0] x1 slices_S5x64_o4_0_S1x64 (ix2 (0 : Fin 1) h) = x1 (ix2 (4 : Fin 5) h) :=
    slice2_axis0_apply 4 x1 _ (0 : Fin 1) h (4 : Fin 5) rfl
  simp only [truncf_apply, e4, e1]
  rfl

theorem tokK_apply (hd : FVec Ideal S4000x64 .f32) (x3 : Vec Ideal S64x96 .f32) (x4 : Vec Ideal S96 .f32)
    (r : Fin 4000) (e : Fin 96) :
    tokK hd x3 x4 (ix2 r e) = (∑ k : Fin 64, hd (ix2 r k) * x3 (ix2 k e)) + x4 (ix1 e) := by
  unfold tokK
  refine (addf_apply _ _ _).trans ?_
  refine congrArg₂ (· + ·) ((matmul64_apply _ _ r e).trans rfl) ?_
  exact (broadcastTo_1b_ab_apply _ _ r e).trans (shapeCast_a_1a_apply x4 _ (0 : Fin 1) e)

theorem sumK_apply (t : FVec Ideal S4000x96 .f32) (r : Fin 4000) : sumK t (ix1 r) = ∑ e : Fin 96, t (ix2 r e) := by
  unfold sumK
  exact rowsum_apply t _ _ _ r

theorem meanK_apply (q : FVec Ideal S4000 .f32) (r : Fin 4000) (u : Fin 1) :
    meanK q (ix2 r u) = Ideal.div (q (ix1 r)) (Ideal.ofBits .f32 0x42C00000#32) := by
  unfold meanK
  exact congrArg (fun z => Ideal.div z (Ideal.ofBits .f32 0x42C00000#32)) (shapeCast_a_a1_apply q _ r u)

theorem centredK_apply (t : FVec Ideal S4000x96 .f32) (r : Fin 4000) (e : Fin 96) :
    centredK t (ix2 r e) = Cert.Pillar.centred (fun e' => t (ix2 r e')) e := by
  unfold centredK
  refine (subf_apply _ _ _).trans ?_
  refine congrArg (fun z => t (ix2 r e) - z) ?_
  refine (broadcastTo_a1_ab_apply _ _ r e (0 : Fin 1)).trans ?_
  refine (meanK_apply _ r 0).trans ?_
  rw [sumK_apply]
  rfl

theorem normK_apply (d : FVec Ideal S4000x96 .f32) (q : FVec Ideal S4000 .f32) (x5 x6 : Vec Ideal S96 .f32)
    (r : Fin 4000) (e : Fin 96) :
    normK d q x5 x6 (ix3 (0 : Fin 1) r e)
      = d (ix2 r e)
          * Ideal.rsqrt (Ideal.div (q (ix1 r)) (Ideal.ofBits .f32 0x42C00000#32) + Ideal.ofBits .f32 0x3727C5AC#32)
          * x5 (ix1 e) + x6 (ix1 e) := by
  unfold normK
  refine (shapeCast_ab_1ab_apply _ _ (0 : Fin 1) r e).trans ?_
  refine (addf_apply _ _ _).trans ?_
  refine congrArg₂ (· + ·) ?_ ((broadcastTo_1b_ab_apply _ _ r e).trans (shapeCast_a_1a_apply x6 _ (0 : Fin 1) e))
  refine (mulf_apply _ _ _).trans ?_
  refine congrArg₂ (· * ·) ?_ ((broadcastTo_1b_ab_apply _ _ r e).trans (shapeCast_a_1a_apply x5 _ (0 : Fin 1) e))
  refine (mulf_apply _ _ _).trans ?_
  refine congrArg (fun z => d (ix2 r e) * z) ?_
  refine (broadcastTo_a1_ab_apply _ _ r e (0 : Fin 1)).trans ?_
  exact congrArg (fun z => Ideal.rsqrt (z + Ideal.ofBits .f32 0x3727C5AC#32)) (meanK_apply q r 0)

/-! ## The stages against the specification -/

/-- The two products over the four means and over the count are the one product over all five columns. -/
theorem hidden_row (x0 : Vec Ideal S1x4000x5 .f32) (x1 : Vec Ideal S5x64 .f32) (x2 : Vec Ideal S64 .f32)
    (r : Fin 4000) (h : Fin 64) :
    hiddenK (meansK (rowsK x0)) (countK (rowsK x0)) x1 x2 (ix2 r h)
      = Cert.Pillar.hiddenAt (Cert.Pillar.meanCount fun f => x0 (ix3 (0 : Fin 1) r f)) x1 x2 h := by
  rw [hiddenK_apply, countK_apply]
  unfold Cert.Pillar.hiddenAt
  rw [Cert.Pillar.sum_five]
  have em : ∀ k : Fin 4, meansK (rowsK x0) (ix2 r k)
      = Cert.Pillar.meanCount (fun f => x0 (ix3 (0 : Fin 1) r f)) (⟨k.val, by omega⟩ : Fin 5) := fun k => by
    rw [meansK_apply, rowsK_apply, rowsK_apply]
    unfold Cert.Pillar.meanCount
    rw [if_pos (show (⟨k.val, by omega⟩ : Fin 5).val < 4 from k.isLt)]
  have e4 : rowsK x0 (ix2 r (4 : Fin 5)) = Cert.Pillar.meanCount (fun f => x0 (ix3 (0 : Fin 1) r f)) (4 : Fin 5) := by
    rw [rowsK_apply]
    unfold Cert.Pillar.meanCount
    rw [if_neg (show ¬ (4 : Fin 5).val < 4 by decide)]
  simp only [em, e4]

theorem tok_row (x0 : Vec Ideal S1x4000x5 .f32) (x1 : Vec Ideal S5x64 .f32) (x2 : Vec Ideal S64 .f32)
    (x3 : Vec Ideal S64x96 .f32) (x4 : Vec Ideal S96 .f32) (r : Fin 4000) (e : Fin 96) :
    tokK (hiddenK (meansK (rowsK x0)) (countK (rowsK x0)) x1 x2) x3 x4 (ix2 r e)
      = Cert.Pillar.tokAt (Cert.Pillar.meanCount fun f => x0 (ix3 (0 : Fin 1) r f)) x1 x2 x3 x4 e := by
  rw [tokK_apply]
  unfold Cert.Pillar.tokAt
  simp only [hidden_row]

/-- The centred block at row `r` is the specification's centred token. -/
theorem pay2_apply (x0 : Vec Ideal S1x4000x5 .f32) (x1 : Vec Ideal S5x64 .f32) (x2 : Vec Ideal S64 .f32)
    (x3 : Vec Ideal S64x96 .f32) (x4 : Vec Ideal S96 .f32) (r : Fin 4000) (e : Fin 96) :
    k1_pay2 (F := Ideal) x0 x1 x2 x3 x4 (ix2 r e)
      = Cert.Pillar.centred (Cert.Pillar.tokAt (Cert.Pillar.meanCount fun f => x0 (ix3 (0 : Fin 1) r f)) x1 x2 x3 x4) e := by
  rw [pay2_eq, centredK_apply]
  refine congrArg (fun t => Cert.Pillar.centred t e) ?_
  funext e'
  exact tok_row x0 x1 x2 x3 x4 r e'

/-- The stored block at row `r`, output `e`. -/
theorem token_apply (x0 : Vec Ideal S1x4000x5 .f32) (x1 : Vec Ideal S5x64 .f32) (x2 : Vec Ideal S64 .f32)
    (x3 : Vec Ideal S64x96 .f32) (x4 x5 x6 : Vec Ideal S96 .f32) (r : Fin 4000) (e : Fin 96) :
    k1_pay1 (F := Ideal) (k1_pay2 x0 x1 x2 x3 x4) (k1_pay3 x0 x1 x2 x3 x4) x5 x6 (ix3 (0 : Fin 1) r e)
      = Cert.Pillar.lnMul
          (Cert.Pillar.tokAt (Cert.Pillar.meanCount fun f => x0 (ix3 (0 : Fin 1) r f)) x1 x2 x3 x4) x5 x6 e := by
  rw [pay1_eq, normK_apply, pay3_eq, sumK_apply]
  simp only [mulf_apply, pay2_apply]
  rfl

end Cert.KernelIdeal.TokenPayload

end
-- ==== Proof.TokenStage.lean ====
/-
  The second region, pillar by pillar: what the perceptron-and-normalisation kernel leaves in the result array, as a
  function of the five sums per pillar and the six parameter arrays it finds. Grid point `(b, j)` handles pillars
  `4000 j … 4000 j + 3999` of batch `b`; every row of its block is the same function of that pillar's five sums.
-/
import proofs.«154551_j39831526703842_1_alg».proof.Proof.Gen.KernelIdeal.Frame
import proofs.«154551_j39831526703842_1_alg».proof.Proof.Spec
import proofs.«154551_j39831526703842_1_alg».proof.Proof.TokenPayload
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.TokenStage

open Cert.KernelIdeal Cert.KernelIdeal.Gen

variable (V : (c : Dev nD) → (b : Ref sig .tc) → Buf (Elt Ideal) ((c : Thread nD τ).loc b))

/-- The result array: at pillar `(b, k)` and output `e`, the normalised token of that pillar's five sums. -/
def tokArr (c : Dev nD) : Buf (Elt Ideal) ((c : Thread nD τ).loc main_v7) :=
  fun i => Cert.Pillar.lnMul
    (Cert.Pillar.tokAt (Cert.Pillar.meanCount fun f => V c main_v6 (ix3 (i 0) (i 1) f))
      (V c main_arg1) (V c main_arg2) (V c main_arg3) (V c main_arg4))
    (V c main_arg5) (V c main_arg6) (i 2)

/-- Zero offsets on every axis, however spelt. -/
private theorem zeros3 : (![0, 0, 0] : Fin 3 → Nat) = fun _ => 0 := funext fun a => by fin_cases a <;> rfl
private theorem zeros2 : (![0, 0] : Fin 2 → Nat) = fun _ => 0 := funext fun a => by fin_cases a <;> rfl
private theorem zeros1 : (![0] : Fin 1 → Nat) = fun _ => 0 := funext fun a => by fin_cases a <;> rfl

/-- The block indices over the 16 × 10 grid: the sums' block moves with the result's block on the batch and pillar axes
    and stays at 0 on the last; the result's block indices stay inside 16 × 10 × 1; each parameter's single block
    sits at index 0 on every axis. -/
private theorem block_indices : ∀ t : Fin cfg1.N,
    win1_0.index t (0 : Fin 3) = win1_7.index t (0 : Fin 3)
    ∧ win1_0.index t (1 : Fin 3) = win1_7.index t (1 : Fin 3)
    ∧ win1_0.index t (2 : Fin 3) = 0
    ∧ win1_7.index t (2 : Fin 3) = 0
    ∧ win1_7.index t (0 : Fin 3) ≤ 15
    ∧ win1_7.index t (1 : Fin 3) ≤ 9
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 1) = 0 :=
  (by decide +kernel : ∀ t : Fin grid1.N, _)

/-- Every block `(b, j, 0)` of the result array is some grid point's. -/
private theorem point_of_block : ∀ (q0 : Fin 16) (q1 : Fin 10), ∃ t : Fin cfg1.N, win1_7.index t = ![q0.val, q1.val, 0] :=
  (by decide +kernel : ∀ (q0 : Fin 16) (q1 : Fin 10), ∃ t : Fin grid1.N, win1_7.index t = ![q0.val, q1.val, 0])

/-! The seven blocks a grid point reads: 4000 pillars' five sums, then the six parameter arrays. -/

private abbrev sblk (c : Dev nD) (t : Fin cfg1.N) : Vec Ideal S1x4000x5 .f32 := iblk1 V c 0 t
private abbrev w1blk (c : Dev nD) (t : Fin cfg1.N) : Vec Ideal S5x64 .f32 := iblk1 V c 1 t
private abbrev b1blk (c : Dev nD) (t : Fin cfg1.N) : Vec Ideal S64 .f32 := iblk1 V c 2 t
private abbrev w2blk (c : Dev nD) (t : Fin cfg1.N) : Vec Ideal S64x96 .f32 := iblk1 V c 3 t
private abbrev b2blk (c : Dev nD) (t : Fin cfg1.N) : Vec Ideal S96 .f32 := iblk1 V c 4 t
private abbrev gblk (c : Dev nD) (t : Fin cfg1.N) : Vec Ideal S96 .f32 := iblk1 V c 5 t
private abbrev oblk (c : Dev nD) (t : Fin cfg1.N) : Vec Ideal S96 .f32 := iblk1 V c 6 t

/-- Row `r`, column `f` of the sums' block at grid point `(b, j)` is entry `(b, 4000 j + r, f)` of the sums' array. -/
private theorem sblk_apply (c : Dev nD) (t : Fin cfg1.N) (x : S1x4000x5.Idx) (k : S16x40000x5.Idx)
    (hk0 : (k 0).val = win1_7.index t (0 : Fin 3)) (hk1 : (k 1).val = win1_7.index t (1 : Fin 3) * 4000 + (x 1).val)
    (hk2 : (k 2).val = (x 2).val) :
    sblk V c t x = (V c main_v6 : S16x40000x5.Idx → EReal) k := by
  obtain ⟨f00, f01, f02, f72, f70, f71, f10, f11, f20, f30, f31, f40, f50, f60⟩ := block_indices t
  show V c main_v6 (((cfg1.win 0).blk t).view.emb x) = V c main_v6 k
  congr 1
  funext a
  apply Fin.ext
  match a with
  | ⟨0, _⟩ => show win1_0.index t (0 : Fin 3) * 1 + 1 * (x 0).val = (k 0).val; have hx : (x 0).val < 1 := (x 0).isLt; omega
  | ⟨1, _⟩ => show win1_0.index t (1 : Fin 3) * 4000 + 1 * (x 1).val = (k 1).val; omega
  | ⟨2, _⟩ => show win1_0.index t (2 : Fin 3) * 5 + 1 * (x 2).val = (k 2).val; omega

/-! Each parameter's block is the whole parameter array: one block, at index 0, of the array's own extents. -/

private theorem w1blk_eq (c : Dev nD) (t : Fin cfg1.N) : w1blk V c t = (V c main_arg1 : S5x64.Idx → EReal) := by
  obtain ⟨f00, f01, f02, f72, f70, f71, f10, f11, f20, f30, f31, f40, f50, f60⟩ := block_indices t
  funext x
  show V c main_arg1 (((cfg1.win 1).blk t).view.emb x) = V c main_arg1 x
  congr 1
  funext a
  apply Fin.ext
  match a with
  | ⟨0, _⟩ => show win1_1.index t (0 : Fin 2) * 5 + 1 * (x 0).val = (x 0).val; omega
  | ⟨1, _⟩ => show win1_1.index t (1 : Fin 2) * 64 + 1 * (x 1).val = (x 1).val; omega

private theorem b1blk_eq (c : Dev nD) (t : Fin cfg1.N) : b1blk V c t = (V c main_arg2 : S64.Idx → EReal) := by
  obtain ⟨f00, f01, f02, f72, f70, f71, f10, f11, f20, f30, f31, f40, f50, f60⟩ := block_indices t
  funext x
  show V c main_arg2 (((cfg1.win 2).blk t).view.emb x) = V c main_arg2 x
  congr 1
  funext a
  apply Fin.ext
  match a with
  | ⟨0, _⟩ => show win1_2.index t (0 : Fin 1) * 64 + 1 * (x 0).val = (x 0).val; omega

private theorem w2blk_eq (c : Dev nD) (t : Fin cfg1.N) : w2blk V c t = (V c main_arg3 : S64x96.Idx → EReal) := by
  obtain ⟨f00, f01, f02, f72, f70, f71, f10, f11, f20, f30, f31, f40, f50, f60⟩ := block_indices t
  funext x
  show V c main_arg3 (((cfg1.win 3).blk t).view.emb x) = V c main_arg3 x
  congr 1
  funext a
  apply Fin.ext
  match a with
  | ⟨0, _⟩ => show win1_3.index t (0 : Fin 2) * 64 + 1 * (x 0).val = (x 0).val; omega
  | ⟨1, _⟩ => show win1_3.index t (1 : Fin 2) * 96 + 1 * (x 1).val = (x 1).val; omega

private theorem b2blk_eq (c : Dev nD) (t : Fin cfg1.N) : b2blk V c t = (V c main_arg4 : S96.Idx → EReal) := by
  obtain ⟨f00, f01, f02, f72, f70, f71, f10, f11, f20, f30, f31, f40, f50, f60⟩ := block_indices t
  funext x
  show V c main_arg4 (((cfg1.win 4).blk t).view.emb x) = V c main_arg4 x
  congr 1
  funext a
  apply Fin.ext
  match a with
  | ⟨0, _⟩ => show win1_4.index t (0 : Fin 1) * 96 + 1 * (x 0).val = (x 0).val; omega

private theorem gblk_eq (c : Dev nD) (t : Fin cfg1.N) : gblk V c t = (V c main_arg5 : S96.Idx → EReal) := by
  obtain ⟨f00, f01, f02, f72, f70, f71, f10, f11, f20, f30, f31, f40, f50, f60⟩ := block_indices t
  funext x
  show V c main_arg5 (((cfg1.win 5).blk t).view.emb x) = V c main_arg5 x
  congr 1
  funext a
  apply Fin.ext
  match a with
  | ⟨0, _⟩ => show win1_5.index t (0 : Fin 1) * 96 + 1 * (x 0).val = (x 0).val; omega

private theorem oblk_eq (c : Dev nD) (t : Fin cfg1.N) : oblk V c t = (V c main_arg6 : S96.Idx → EReal) := by
  obtain ⟨f00, f01, f02, f72, f70, f71, f10, f11, f20, f30, f31, f40, f50, f60⟩ := block_indices t
  funext x
  show V c main_arg6 (((cfg1.win 6).blk t).view.emb x) = V c main_arg6 x
  congr 1
  funext a
  apply Fin.ext
  match a with
  | ⟨0, _⟩ => show win1_6.index t (0 : Fin 1) * 96 + 1 * (x 0).val = (x 0).val; omega

/-- What a grid point stores at row `r`, output `e` of its block is the result function at `(b, 4000 j + r, e)`:
    the normalised token of that pillar's five sums, with the parameters as the region finds them. -/
private theorem block_at (c : Dev nD) (t : Fin cfg1.N) (y : S1x4000x96.Idx) (i : S16x40000x96.Idx)
    (h0 : (i 0).val = win1_7.index t (0 : Fin 3)) (h1 : (i 1).val = win1_7.index t (1 : Fin 3) * 4000 + (y 1).val)
    (h2 : (i 2).val = (y 2).val) :
    k1_pay1 (F := Ideal) (k1_pay2 (sblk V c t) (w1blk V c t) (b1blk V c t) (w2blk V c t) (b2blk V c t)) (k1_pay3 (sblk V c t) (w1blk V c t) (b1blk V c t) (w2blk V c t) (b2blk V c t)) (gblk V c t) (oblk V c t) y
      = tokArr V c i := by
  obtain ⟨z, r, e, rfl⟩ : ∃ z r e, y = ix3 z r e := ⟨_, _, _, eq_ix3 y⟩
  obtain rfl : z = 0 := Subsingleton.elim _ _
  refine (Cert.KernelIdeal.TokenPayload.token_apply (sblk V c t) (w1blk V c t) (b1blk V c t) (w2blk V c t) (b2blk V c t) (gblk V c t) (oblk V c t) r e).trans ?_
  rw [w1blk_eq V c t, b1blk_eq V c t, w2blk_eq V c t, b2blk_eq V c t, gblk_eq V c t, oblk_eq V c t]
  have hs : (fun f : Fin 5 => sblk V c t (ix3 (0 : Fin 1) r f)) = fun f => (V c main_v6 : S16x40000x5.Idx → EReal) (ix3 (i 0) (i 1) f) :=
    funext fun f => sblk_apply V c t (ix3 (0 : Fin 1) r f) (ix3 (i 0) (i 1) f) h0 h1 rfl
  have he : e = i 2 := Fin.ext h2.symm
  unfold tokArr
  rw [hs, he]

/-- What grid point `(b, j)` writes back is block `(b, j, 0)` of the result function. -/
private theorem written_block (c : Dev nD) (t : Fin cfg1.N) :
    (dat1 (F := Ideal) V c).flushed 7 t = ((cfg1.win 7).blk t).view.read (Elt Ideal) (tokArr V c) := by
  show (cfg1.win 7).cut (grid1.coords t) ((dat1 V c).after 7 t) = _
  rw [after1_7]
  unfold out1_7
  rw [View.canon_unit_zero zeros3]
  simp only [View.ld_unit_zero (S := S1x4000x5) zeros3, View.ld_unit_zero (S := S5x64) zeros2, View.ld_unit_zero (S := S64) zeros1,
    View.ld_unit_zero (S := S64x96) zeros2, View.ld_unit_zero (S := S96) zeros1]
  obtain ⟨f00, f01, f02, f72, f70, f71, f10, f11, f20, f30, f31, f40, f50, f60⟩ := block_indices t
  funext j
  show k1_pay1 (F := Ideal) (k1_pay2 (sblk V c t) (w1blk V c t) (b1blk V c t) (w2blk V c t) (b2blk V c t)) (k1_pay3 (sblk V c t) (w1blk V c t) (b1blk V c t) (w2blk V c t) (b2blk V c t)) (gblk V c t) (oblk V c t) (win1_7.xinj (grid1.coords t) j)
    = tokArr V c (((cfg1.win 7).blk t).view.emb j)
  refine block_at V c t (win1_7.xinj (grid1.coords t) j) (((cfg1.win 7).blk t).view.emb j) ?_ ?_ ?_
  · show win1_7.index t (0 : Fin 3) * 1 + 1 * (j 0).val = win1_7.index t (0 : Fin 3)
    have hj : (j 0).val < 1 := (j 0).isLt
    omega
  · show win1_7.index t (1 : Fin 3) * 4000 + 1 * (j 1).val = win1_7.index t (1 : Fin 3) * 4000 + (j 1).val
    omega
  · show win1_7.index t (2 : Fin 3) * 96 + 1 * (j 2).val = (j 2).val
    omega

/-- An index of the result array lies in a grid point's block iff each coordinate lies in the block's range on its axis. -/
private theorem mem_block (t : Fin cfg1.N) (i : S16x40000x96.Idx) :
    i ∈ ((cfg1.win 7).blk t).view.set ↔ ∀ a : Fin 3, win1_7.index t a * S1x4000x96.size a ≤ (i a).val ∧ (i a).val < win1_7.index t a * S1x4000x96.size a + S1x4000x96.size a := by
  show i ∈ ((View.whole main_v7).slice (win1_7.rect t)).set ↔ _
  rw [View.set_slice_whole, Rect.mem_set_unit]
  exact Iff.rfl

/-- Every index `(b, k, e)` of the result array is in the block of grid point `(b, k / 4000)`. -/
private theorem covered_by_point (i : S16x40000x96.Idx) :
    ∃ t : Fin cfg1.N, (cfg1.win 7).flush t = true ∧ i ∈ ((cfg1.win 7).blk t).view.set := by
  have hi0 : (i 0).val < 16 := (i 0).isLt
  have hi1 : (i 1).val < 40000 := (i 1).isLt
  have hi2 : (i 2).val < 96 := (i 2).isLt
  obtain ⟨t, ht⟩ := point_of_block ⟨(i 0).val, hi0⟩ ⟨(i 1).val / 4000, by omega⟩
  have q0 : win1_7.index t (0 : Fin 3) = (i 0).val := congrFun ht 0
  have q1 : win1_7.index t (1 : Fin 3) = (i 1).val / 4000 := congrFun ht 1
  have q2 : win1_7.index t (2 : Fin 3) = 0 := congrFun ht 2
  refine ⟨t, flush1_7 t, ?_⟩
  rw [mem_block]
  intro a
  match a with
  | ⟨0, _⟩ => show win1_7.index t (0 : Fin 3) * 1 ≤ (i 0).val ∧ (i 0).val < win1_7.index t (0 : Fin 3) * 1 + 1; omega
  | ⟨1, _⟩ => show win1_7.index t (1 : Fin 3) * 4000 ≤ (i 1).val ∧ (i 1).val < win1_7.index t (1 : Fin 3) * 4000 + 4000; omega
  | ⟨2, _⟩ => show win1_7.index t (2 : Fin 3) * 96 ≤ (i 2).val ∧ (i 2).val < win1_7.index t (2 : Fin 3) * 96 + 96; omega

/-- The blocks tile the result array and each is a restriction of the one result function, so the array ends holding it. -/
theorem tok_array (c : Dev nD) : (dat1 (F := Ideal) V c).arrAt 7 cfg1.N = tokArr V c :=
  (dat1 (F := Ideal) V c).arrAt_eq_of_cover 7 (tokArr V c) (fun t _ => written_block V c t) fun i => covered_by_point i

end Cert.KernelIdeal.TokenStage

end
-- ==== Proof.LibScatterRows.lean ====
/-
  A float scatter-add of ROWS, read at an index, at the ideal values.

  The scatter `operand[idx[b, 0], :] += updates[b, :]` — operand `[N, W]`, scatter indices `[B, 1]`, updates `[B, W]`,
  update window axis `[1]`, inserted window axis `[0]`, scatter-dims-to-operand-dims `[0]`, index vector axis `1` — is what
  `jax.ops.segment_sum` and `x.at[idx].add(v)` of a rank-2 array lower to. Update element `(b, n')` lands on operand
  element `(idx[b, 0], n')` when the index, read signed, is a row of the operand, and is dropped otherwise. So at the
  extended reals element `(c, n)` of the result is the operand's plus the sum over ALL rows `b` of the updates of
  `updates[b, n]` where `idx[b, 0] = c` and of zero elsewhere: a masked sum over the batch, the form a kernel that
  multiplies by a `0/1` mask and contracts the batch axis computes.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

variable {N B W w : Nat}

/-- The dimension numbers of a row scatter over operand `[N, W]`, scatter indices `[B, 1]` and updates `[B, W]`; their
    conditions `wf` are decided on a program's literal shapes. -/
abbrev rowDims (N B W : Nat) (wf : ScatterDims.WF ⟨2, ![N, W]⟩ ⟨2, ![B, 1]⟩ ⟨2, ![B, W]⟩ [1] [0] [0] 1) :
    ScatterDims ⟨2, ![N, W]⟩ ⟨2, ![B, 1]⟩ ⟨2, ![B, W]⟩ where
  updateWindowDims := [1]
  insertedWindowDims := [0]
  scatterDimsToOperandDims := [0]
  indexVectorDim := 1
  wf := wf

variable (wf : ScatterDims.WF ⟨2, ![N, W]⟩ ⟨2, ![B, 1]⟩ ⟨2, ![B, W]⟩ [1] [0] [0] 1)

/-- The scatter-indices index `[b, 0]` that update row `b` reads its start from. -/
abbrev rowIdx (b : Fin B) : (⟨2, ![B, 1]⟩ : Shape).Idx := ix2 b ⟨0, Nat.one_pos⟩

/-- On the row axis the window starts at the scatter index of the update's row, read signed. -/
theorem start_row (j : (⟨2, ![B, W]⟩ : Shape).Idx) (idx : IVec ⟨2, ![B, 1]⟩ w) :
    (rowDims N B W wf).start j idx 0 = (idx (rowIdx (j 0))).toInt := by
  unfold ScatterDims.start
  rw [dif_pos (show (0 : Fin 2) ∈ (rowDims N B W wf).scatterDimsToOperandDims from List.mem_singleton.mpr rfl)]
  have hsi : (rowDims N B W wf).siIdx j ⟨List.idxOf (0 : Fin 2) (rowDims N B W wf).scatterDimsToOperandDims,
      List.idxOf_lt_length_iff.2 (List.mem_singleton.mpr rfl)⟩ = rowIdx (j 0) := by
    funext b; refine Fin.ext ?_
    match b with
    | ⟨0, _⟩ => rfl
    | ⟨1, _⟩ => rfl
  rw [hsi]
  rfl

/-- On the column axis, which the index map does not name, the window starts at zero. -/
theorem start_col (j : (⟨2, ![B, W]⟩ : Shape).Idx) (idx : IVec ⟨2, ![B, 1]⟩ w) :
    (rowDims N B W wf).start j idx 1 = 0 := by
  unfold ScatterDims.start
  rw [dif_neg (show ¬ (1 : Fin 2) ∈ ([0] : List (Fin 2)) by decide)]

/-- The row axis is inserted: no window coordinate on it. -/
theorem window_row (j : (⟨2, ![B, W]⟩ : Shape).Idx) : (rowDims N B W wf).window j 0 = 0 := by
  unfold ScatterDims.window
  have h : ¬ (0 : Fin 2) ∈ (rowDims N B W wf).sKept := by
    show ¬ (0 : Fin 2) ∈ (List.finRange 2).filter (· ∉ ([0] : List (Fin 2)))
    decide
  rw [dif_neg h]

/-- The column axis carries the update's column. -/
theorem window_col (j : (⟨2, ![B, W]⟩ : Shape).Idx) : (rowDims N B W wf).window j 1 = (j 1).val := by
  unfold ScatterDims.window
  have h : (1 : Fin 2) ∈ (rowDims N B W wf).sKept := by
    show (1 : Fin 2) ∈ (List.finRange 2).filter (· ∉ ([0] : List (Fin 2)))
    decide
  rw [dif_pos h]
  rfl

/-- WHERE AN UPDATE LANDS: update element `j = (b, n')` lands on operand element `i = (c, n)` exactly when the scatter
    index of row `b`, read signed, is `c` and the columns agree. -/
theorem resultIdx?_eq_some_iff (j : (⟨2, ![B, W]⟩ : Shape).Idx) (idx : IVec ⟨2, ![B, 1]⟩ w) (i : (⟨2, ![N, W]⟩ : Shape).Idx) :
    (rowDims N B W wf).resultIdx? j idx = some i ↔ (idx (rowIdx (j 0))).toInt = ((i 0).val : Int) ∧ (j 1).val = (i 1).val := by
  have hi0 : (i 0).val < N := (i 0).isLt
  have hi1 : (i 1).val < W := (i 1).isLt
  have hj1 : (j 1).val < W := (j 1).isLt
  unfold ScatterDims.resultIdx?
  split
  · rename_i h
    constructor
    · intro he
      have he' := Option.some.inj he
      have h0 := congrArg (fun f => (f 0).val) he'
      have h1 := congrArg (fun f => (f 1).val) he'
      have hb0 := h 0
      have hb1 := h 1
      simp only [start_row, start_col, window_row, window_col] at h0 h1 hb0 hb1
      constructor <;> omega
    · rintro ⟨h0, h1⟩
      congr 1
      funext a
      refine Fin.ext ?_
      match a with
      | ⟨0, _⟩ =>
        show ((rowDims N B W wf).start j idx 0 + ((rowDims N B W wf).window j 0 : Int)).toNat = (i 0).val
        rw [start_row, window_row]; omega
      | ⟨1, _⟩ =>
        show ((rowDims N B W wf).start j idx 1 + ((rowDims N B W wf).window j 1 : Int)).toNat = (i 1).val
        rw [start_col, window_col]; omega
  · rename_i h
    constructor
    · intro he; exact absurd he (by simp)
    · rintro ⟨h0, h1⟩
      exfalso; apply h
      intro a
      match a with
      | ⟨0, _⟩ =>
        show 0 ≤ (rowDims N B W wf).start j idx 0 + ((rowDims N B W wf).window j 0 : Int)
          ∧ (rowDims N B W wf).start j idx 0 + ((rowDims N B W wf).window j 0 : Int) < (N : Int)
        rw [start_row, window_row]; omega
      | ⟨1, _⟩ =>
        show 0 ≤ (rowDims N B W wf).start j idx 1 + ((rowDims N B W wf).window j 1 : Int)
          ∧ (rowDims N B W wf).start j idx 1 + ((rowDims N B W wf).window j 1 : Int) < (W : Int)
        rw [start_col, window_col]; omega

/-- THE SCATTER-ADD OF ROWS READ AT `(c, n)`, at the ideal values: the operand there plus, over every update row `b`,
    the update `(b, n)` where row `b`'s scatter index is `c` and zero where it is not. An index outside `[0, N)` equals
    no `c`, so its row contributes nothing. -/
theorem hostScatterAdd_rows_apply (x : (⟨2, ![N, W]⟩ : Shape).Idx → EReal) (idx : IVec ⟨2, ![B, 1]⟩ w)
    (upd : (⟨2, ![B, W]⟩ : Shape).Idx → EReal) (c : Fin N) (n : Fin W) :
    Ideal.hostScatterAdd (rowDims N B W wf) x idx upd (ix2 c n)
      = x (ix2 c n) + ∑ b : Fin B, if (idx (rowIdx b)).toInt = (c.val : Int) then upd (ix2 b n) else 0 := by
  unfold Ideal.hostScatterAdd
  congr 1
  rw [Finset.sum_filter, sum_idx2]
  refine Finset.sum_congr rfl fun b _ => ?_
  rw [Finset.sum_eq_single n]
  · simp only [resultIdx?_eq_some_iff]
    show (if (idx (rowIdx b)).toInt = (c.val : Int) ∧ n.val = n.val then upd (ix2 b n) else 0) = _
    simp only [and_true]
  · intro n' _ hne
    rw [if_neg]
    rw [resultIdx?_eq_some_iff]
    rintro ⟨_, h1⟩
    exact hne (Fin.ext h1)
  · intro h; exact absurd (Finset.mem_univ n) h

end Idealize.ShloMosaic.ScatterRows

end
-- ==== Proof.PillarStage.lean ====
/-
  Between the two regions: the host reshapes the two arrays of the first region, scatter-adds the feature rows into
  640000 pillars by the index column and reshapes the sums to `[16, 40000, 5]`. Read at an index, pillar `(b, k)`'s
  column `f` is the masked sum over every point of the cloud of that point's contribution `f`: the pillar's five sums.
-/
import proofs.«154551_j39831526703842_1_alg».proof.Proof.Gen.KernelIdeal.Frame
import proofs.«154551_j39831526703842_1_alg».proof.Proof.Spec
import proofs.«154551_j39831526703842_1_alg».proof.Proof.PointStage
import proofs.«154551_j39831526703842_1_alg».proof.Proof.LibScatterRows
import Idealize.ShloMosaic.Lib.StableHlo.Run
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.PillarStage

open Cert.KernelIdeal Cert.KernelIdeal.Gen
open Idealize.ShloMosaic.ScatterRows (rowDims rowIdx hostScatterAdd_rows_apply)
open Cert.Pillar (ptB ptN pillarSum)

variable (m : (ℓ : Loc nD τ sig) → Buf (Elt Ideal) ℓ) (ρ : Dev nD → PrngReg)

/-! ## The two flattenings, read at a point

Row `p` of the flattened cloud is point `(p / 200000, p % 200000)`: both arrays are laid out row-major, so flattening
the two leading axes keeps every element's position. -/

/-- The feature array flattened to one row per point: row `p`, column `f` is the array at point `p`'s batch and
    number, column `f`. -/
private theorem featRows_apply (A : S16x200000x5.Idx → EReal) (p : Fin 3200000) (f : Fin 5) :
    shapeCast S3200000x5 A Facts₀.shapeCasts_S16x200000x5_S3200000x5 (ix2 p f) = A (ix3 (ptB p) (ptN p) f) := by
  refine shapeCast_apply _ _ _ _ ?_
  rw [Shape.rowMajor_val_three, Shape.rowMajor_val_two]
  show (p.val / 200000 * 200000 + p.val % 200000) * 5 + f.val = p.val * 5 + f.val
  omega

/-- The index array flattened to a vector and stood up again as a column: row `p` of the column is the array at point
    `p`'s batch and number. -/
private theorem flatCol_apply (A : S16x200000x1.Idx → BitVec 32) (p : Fin 3200000) :
    broadcastInDim S3200000x1 ![0] Facts₀.bcast_S3200000_S3200000x1_0
        (shapeCast S3200000 A Facts₀.shapeCasts_S16x200000x1_S3200000) (rowIdx p)
      = A (ix3 (ptB p) (ptN p) (0 : Fin 1)) := by
  refine (broadcastInDim_apply _ _ _ (rowIdx p) (ix1 p) (fun a => match a with | ⟨0, _⟩ => rfl)).trans ?_
  refine shapeCast_apply _ _ _ _ ?_
  rw [Shape.rowMajor_val_three, Shape.rowMajor_val_one]
  show (p.val / 200000 * 200000 + p.val % 200000) * 1 + 0 = p.val
  omega

/-- The operand the sums start from is zero everywhere. -/
private theorem zeros_apply (j : S640000x5.Idx) :
    broadcastInDim S640000x5 ![] Facts₀.bcast_S_S640000x5 (constant (F := Ideal) S_ .f32 0x00000000#32) j = 0 :=
  Ideal.ofBits_zero_f32

/-! ## The host stretch as one term -/

/-- What the stretch leaves in its last result: the reshape of the scatter-add of the flattened feature rows, by the
    flattened index column, into the zero array. -/
private theorem host_term (c : Dev nD) :
    (V2 (F := Ideal) m ρ c main_v6 : S16x40000x5.Idx → EReal)
      = shapeCast S16x40000x5
          (Host.scatterAdd (F := Ideal) scatter_S640000x5_S3200000x1_S3200000x5_1_0_0_1
            (broadcastInDim S640000x5 ![] Facts₀.bcast_S_S640000x5 (constant (F := Ideal) S_ .f32 0x00000000#32))
            (broadcastInDim S3200000x1 ![0] Facts₀.bcast_S3200000_S3200000x1_0
              (shapeCast S3200000 (W1 (F := Ideal) m ρ c (Proc.devRef .tc main_v0_1)) Facts₀.shapeCasts_S16x200000x1_S3200000))
            (shapeCast S3200000x5 (W1 (F := Ideal) m ρ c (Proc.devRef .tc main_v0_0)) Facts₀.shapeCasts_S16x200000x5_S3200000x5))
          Facts₀.shapeCasts_S640000x5_S16x40000x5 := by
  show StableHlo.after hostOps1 (W1 m ρ c) (Proc.devRef .tc main_v6) = _
  after_results
  rfl

/-- The program's scatter is the scatter of rows: the same four dimension numbers. -/
private theorem scatter_rows (x : FVec Ideal S640000x5 .f32) (idx : IVec S3200000x1 32) (upd : FVec Ideal S3200000x5 .f32) :
    Host.scatterAdd (F := Ideal) scatter_S640000x5_S3200000x1_S3200000x5_1_0_0_1 x idx upd
      = Ideal.hostScatterAdd (rowDims 640000 3200000 5 Facts₀.scatter_S640000x5_S3200000x1_S3200000x5_1_0_0_1_wf) x idx upd := rfl

/-! ## The pillar sums at one index -/

/-- Pillar `(b, k)`, column `f`: the reshape reads row `b · 40000 + k` of the scatter's result; that row starts from
    zero and gathers, over every point, the point's contribution `f` where the point's pillar number is the row. -/
private theorem sfc_at (c : Dev nD) (b : Fin 16) (k : Fin 40000) (f : Fin 5) :
    (V2 (F := Ideal) m ρ c main_v6 : S16x40000x5.Idx → EReal) (ix3 b k f)
      = pillarSum (m ((c : Thread nD τ).loc main_arg0)) b k f := by
  have h1 : W1 (F := Ideal) m ρ c (Proc.devRef .tc main_v0_0) = PointStage.featArr (V0 m ρ) c :=
    (W1_arr m ρ c 1).trans (PointStage.feat_array (V0 m ρ) c)
  have h2 : W1 (F := Ideal) m ρ c (Proc.devRef .tc main_v0_1) = PointStage.flatArr (V0 m ρ) c :=
    (W1_arr m ρ c 2).trans (PointStage.flat_array (V0 m ρ) c)
  have hrow : b.val * 40000 + k.val < 640000 := by have := b.isLt; have := k.isLt; omega
  refine (congrFun (host_term m ρ c) (ix3 b k f)).trans ?_
  -- the outer reshape: row (b, k) of [16, 40000, 5] is row b · 40000 + k of [640000, 5]
  refine (shapeCast_apply _ _ (ix3 b k f) (ix2 (⟨b.val * 40000 + k.val, hrow⟩ : Fin 640000) f) (by
    rw [Shape.rowMajor_val_two, Shape.rowMajor_val_three]
    show (b.val * 40000 + k.val) * 5 + f.val = (b.val * 40000 + k.val) * 5 + f.val
    rfl)).trans ?_
  -- the scatter-add at that row: the operand there plus the masked sum over every point
  rw [scatter_rows, hostScatterAdd_rows_apply, zeros_apply, zero_add, h1, h2]
  -- both sides are extended reals
  show (_ : EReal) = (_ : EReal)
  unfold Cert.Pillar.pillarSum
  refine Finset.sum_congr rfl fun p _ => ?_
  -- point p: its row of the index column is its pillar number, its row of the updates its contribution
  show ((if (broadcastInDim S3200000x1 ![0] Facts₀.bcast_S3200000_S3200000x1_0
              (shapeCast S3200000 (PointStage.flatArr (V0 m ρ) c) Facts₀.shapeCasts_S16x200000x1_S3200000) (rowIdx p)).toInt
            = ((b.val * 40000 + k.val : Nat) : Int)
          then shapeCast S3200000x5 (PointStage.featArr (V0 m ρ) c) Facts₀.shapeCasts_S16x200000x5_S3200000x5 (ix2 p f)
          else 0 : EReal)) = _
  rw [flatCol_apply, featRows_apply]
  rfl

/-- What the second region finds in its first operand: the five sums of every pillar. -/
theorem sfc_array (c : Dev nD) :
    V2 (F := Ideal) m ρ c main_v6
      = fun i => Cert.Pillar.pillarSum (m ((c : Thread nD τ).loc main_arg0)) (i 0) (i 1) (i 2) := by
  funext i
  exact (congrArg (V2 (F := Ideal) m ρ c main_v6 : S16x40000x5.Idx → EReal) (eq_ix3 i)).trans (sfc_at m ρ c (i 0) (i 1) (i 2))

end Cert.KernelIdeal.PillarStage

end
-- ==== Proof.KernelValue.lean ====
/-
  The kernel program's result, whole: the second region's result array is the pillar function of what that region
  finds; it finds the five sums of every pillar (the host stretch over the first region's two arrays) and the six
  parameter arrays as launched. So the run ends with the result array at `tokenOut` of the argument arrays.
-/
import proofs.«154551_j39831526703842_1_alg».proof.Proof.Gen.KernelIdeal.Frame
import proofs.«154551_j39831526703842_1_alg».proof.Proof.Spec
import proofs.«154551_j39831526703842_1_alg».proof.Proof.KernelRun
import proofs.«154551_j39831526703842_1_alg».proof.Proof.PointStage
import proofs.«154551_j39831526703842_1_alg».proof.Proof.TokenStage
import proofs.«154551_j39831526703842_1_alg».proof.Proof.PillarStage
import Idealize.ShloMosaic.Lib.Pipeline.Value
import Idealize.ShloMosaic.Lib.ValueLayout
import Idealize.ShloMosaic.Lib.Tactic

set_option maxRecDepth 16384

noncomputable section

open scoped BigOperators
open Idealize.ShloMosaic Idealize.ShloMosaic.TcCoe Idealize.SL.Sem Idealize.ShloMosaic.ValueIdx
open Idealize.ShloMosaic.Pipeline (Dat)

namespace Cert.KernelIdeal.KernelValue

open Cert.KernelIdeal Cert.KernelIdeal.Gen

variable (m : (ℓ : Loc nD τ sig) → Buf (Elt Ideal) ℓ) (ρ : Dev nD → PrngReg)

/-! The second region finds each parameter array as launched: no host operation and no region writes one. -/

theorem V2_arg1 (c : Dev nD) : V2 (F := Ideal) m ρ c main_arg1 = m ((c : Thread nD τ).loc main_arg1) :=
  ((W3_arr m ρ c 1).trans (((dat1 (V2 m ρ) c).arrAt_in 1 rfl _).trans (A_eq1 (V2 m ρ) c 1))).symm.trans (W3_main_arg1 m ρ c)
theorem V2_arg2 (c : Dev nD) : V2 (F := Ideal) m ρ c main_arg2 = m ((c : Thread nD τ).loc main_arg2) :=
  ((W3_arr m ρ c 2).trans (((dat1 (V2 m ρ) c).arrAt_in 2 rfl _).trans (A_eq1 (V2 m ρ) c 2))).symm.trans (W3_main_arg2 m ρ c)
theorem V2_arg3 (c : Dev nD) : V2 (F := Ideal) m ρ c main_arg3 = m ((c : Thread nD τ).loc main_arg3) :=
  ((W3_arr m ρ c 3).trans (((dat1 (V2 m ρ) c).arrAt_in 3 rfl _).trans (A_eq1 (V2 m ρ) c 3))).symm.trans (W3_main_arg3 m ρ c)
theorem V2_arg4 (c : Dev nD) : V2 (F := Ideal) m ρ c main_arg4 = m ((c : Thread nD τ).loc main_arg4) :=
  ((W3_arr m ρ c 4).trans (((dat1 (V2 m ρ) c).arrAt_in 4 rfl _).trans (A_eq1 (V2 m ρ) c 4))).symm.trans (W3_main_arg4 m ρ c)
theorem V2_arg5 (c : Dev nD) : V2 (F := Ideal) m ρ c main_arg5 = m ((c : Thread nD τ).loc main_arg5) :=
  ((W3_arr m ρ c 5).trans (((dat1 (V2 m ρ) c).arrAt_in 5 rfl _).trans (A_eq1 (V2 m ρ) c 5))).symm.trans (W3_main_arg5 m ρ c)
theorem V2_arg6 (c : Dev nD) : V2 (F := Ideal) m ρ c main_arg6 = m ((c : Thread nD τ).loc main_arg6) :=
  ((W3_arr m ρ c 6).trans (((dat1 (V2 m ρ) c).arrAt_in 6 rfl _).trans (A_eq1 (V2 m ρ) c 6))).symm.trans (W3_main_arg6 m ρ c)

/-- The result array after the run, as one function of the argument arrays. -/
theorem result_array (c : Dev nD) :
    W3 (F := Ideal) m ρ c (Proc.devRef .tc main_v7)
      = Cert.Pillar.tokenOut (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) := by
  refine (W3_arr m ρ c 7).trans ((Cert.KernelIdeal.TokenStage.tok_array (V2 m ρ) c).trans ?_)
  funext i
  unfold Cert.KernelIdeal.TokenStage.tokArr Cert.Pillar.tokenOut
  rw [Cert.KernelIdeal.PillarStage.sfc_array m ρ c, V2_arg1 m ρ c, V2_arg2 m ρ c, V2_arg3 m ρ c, V2_arg4 m ρ c, V2_arg5 m ρ c,
    V2_arg6 m ρ c]
  rfl

/-- The kernel program's run with its result named. -/
theorem run : θ_run defs (onTc (τ := τ) (main (F := Ideal))) ⟨m, fun _ => 0, ρ⟩ (fun r => ∀ c : Dev nD,
      r.2.mem ((c.tc : Thread nD τ).loc main_v7)
        = Cert.Pillar.tokenOut (m ((c : Thread nD τ).loc main_arg0)) (m ((c : Thread nD τ).loc main_arg1))
            (m ((c : Thread nD τ).loc main_arg2)) (m ((c : Thread nD τ).loc main_arg3)) (m ((c : Thread nD τ).loc main_arg4))
            (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (result_array m ρ c), (h c).2⟩)
    (Cert.KernelIdeal.ValueRun.run_value (F := Ideal) m ρ)

end Cert.KernelIdeal.KernelValue

end
-- ==== Proof.LibScatterVec.lean ====
/-
  A float scatter-add INTO A VECTOR, read at an index, at the ideal values.

  The scatter `operand[idx[b, 0]] += updates[b]` — operand `[N]`, scatter indices `[B, 1]`, updates `[B]`, no update
  window axis, inserted window axis `[0]`, scatter-dims-to-operand-dims `[0]`, index vector axis `1` — is what
  `jax.ops.segment_sum` of a rank-1 array lowers to. Update element `b` lands on operand element `idx[b, 0]` when that
  index, read signed, is a position of the operand, and is dropped otherwise. So at the extended reals element `c` of
  the result is the operand's plus the sum over ALL `b` of `updates[b]` where `idx[b, 0] = c` and of zero elsewhere: a
  masked sum over the batch. With a vector of ones for the updates it counts the positions whose label is `c`.
-/
import Idealize.ShloMosaic.PureOps.Ideal
import Idealize.ShloMosaic.Lib.ValueIdx

noncomputable section

open scoped BigOperators

namespace Idealize.ShloMosaic.ScatterVec

open Idealize.ShloMosaic Idealize.ShloMosaic.ValueIdx

variable {N B w : Nat}

/-- The dimension numbers of a scatter into a vector: operand `[N]`, scatter indices `[B, 1]`, updates `[B]`; their
    conditions `wf` are decided on a program's literal shapes. -/
abbrev vecDims (N B : Nat) (wf : ScatterDims.WF ⟨1, ![N]⟩ ⟨2, ![B, 1]⟩ ⟨1, ![B]⟩ [] [0] [0] 1) :
    ScatterDims ⟨1, ![N]⟩ ⟨2, ![B, 1]⟩ ⟨1, ![B]⟩ where
  updateWindowDims := []
  insertedWindowDims := [0]
  scatterDimsToOperandDims := [0]
  indexVectorDim := 1
  wf := wf

variable (wf : ScatterDims.WF ⟨1, ![N]⟩ ⟨2, ![B, 1]⟩ ⟨1, ![B]⟩ [] [0] [0] 1)

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- On the operand's one axis the window starts at the scatter index of the update's position, read signed. -/
theorem start_vec (j : (⟨1, ![B]⟩ : Shape).Idx) (idx : IVec ⟨2, ![B, 1]⟩ w) :
    (vecDims N B wf).start j idx 0 = (idx (ix2 (j 0) ⟨0, Nat.one_pos⟩)).toInt := by
  unfold ScatterDims.start
  rw [dif_pos (show (0 : Fin 1) ∈ (vecDims N B wf).scatterDimsToOperandDims from List.mem_singleton.mpr rfl)]
  have hsi : (vecDims N B wf).siIdx j ⟨List.idxOf (0 : Fin 1) (vecDims N B wf).scatterDimsToOperandDims,
      List.idxOf_lt_length_iff.2 (List.mem_singleton.mpr rfl)⟩ = ix2 (j 0) ⟨0, Nat.one_pos⟩ := by
    funext b; refine Fin.ext ?_
    match b with
    | ⟨0, _⟩ => rfl
    | ⟨1, _⟩ => rfl
  rw [hsi]
  rfl

/-- The operand's one axis is inserted: no window coordinate on it. -/
theorem window_vec (j : (⟨1, ![B]⟩ : Shape).Idx) : (vecDims N B wf).window j 0 = 0 := by
  unfold ScatterDims.window
  have h : ¬ (0 : Fin 1) ∈ (vecDims N B wf).sKept := by
    show ¬ (0 : Fin 1) ∈ (List.finRange 1).filter (· ∉ ([0] : List (Fin 1)))
    decide
  rw [dif_neg h]

/-- WHERE AN UPDATE LANDS: update element `j = b` lands on operand element `i = c` exactly when the scatter index of
    position `b`, read signed, is `c`. -/
theorem resultIdx?_eq_some_iff (j : (⟨1, ![B]⟩ : Shape).Idx) (idx : IVec ⟨2, ![B, 1]⟩ w) (i : (⟨1, ![N]⟩ : Shape).Idx) :
    (vecDims N B wf).resultIdx? j idx = some i ↔ (idx (ix2 (j 0) ⟨0, Nat.one_pos⟩)).toInt = ((i 0).val : Int) := by
  have hi0 : (i 0).val < N := (i 0).isLt
  unfold ScatterDims.resultIdx?
  split
  · rename_i h
    constructor
    · intro he
      have he' := Option.some.inj he
      have h0 := congrArg (fun f => (f 0).val) he'
      have hb0 := h 0
      simp only [start_vec, window_vec] at h0 hb0
      omega
    · intro h0
      congr 1
      funext a
      refine Fin.ext ?_
      match a with
      | ⟨0, _⟩ =>
        show ((vecDims N B wf).start j idx 0 + ((vecDims N B wf).window j 0 : Int)).toNat = (i 0).val
        rw [start_vec, window_vec]; omega
  · rename_i h
    constructor
    · intro he; exact absurd he (by simp)
    · intro h0
      exfalso; apply h
      intro a
      match a with
      | ⟨0, _⟩ =>
        show 0 ≤ (vecDims N B wf).start j idx 0 + ((vecDims N B wf).window j 0 : Int)
          ∧ (vecDims N B wf).start j idx 0 + ((vecDims N B wf).window j 0 : Int) < (N : Int)
        rw [start_vec, window_vec]; omega

/-- THE SCATTER-ADD INTO A VECTOR READ AT `c`, at the ideal values: the operand there plus, over every update position
    `b`, the update `b` where position `b`'s scatter index is `c` and zero where it is not. An index outside `[0, N)`
    equals no `c`, so its update contributes nothing. -/
theorem hostScatterAdd_vec_apply (x : (⟨1, ![N]⟩ : Shape).Idx → EReal) (idx : IVec ⟨2, ![B, 1]⟩ w)
    (upd : (⟨1, ![B]⟩ : Shape).Idx → EReal) (c : Fin N) :
    Ideal.hostScatterAdd (vecDims N B wf) x idx upd (ix1 c)
      = x (ix1 c) + ∑ b : Fin B, if (idx (ix2 b ⟨0, Nat.one_pos⟩)).toInt = (c.val : Int) then upd (ix1 b) else 0 := by
  unfold Ideal.hostScatterAdd
  congr 1
  rw [Finset.sum_filter, sum_idx1]
  refine Finset.sum_congr rfl fun b _ => ?_
  simp only [resultIdx?_eq_some_iff]
  rfl

end Idealize.ShloMosaic.ScatterVec

end
-- ==== Proof.RefPoints.lean ====
/-
  The reference up to its two segment sums, read at an index: the four feature sums of pillar `(b, k)` and its count
  are the pillar's five sums over the cloud. Each point's weight, pillar number and masked features are read off the
  reference's elementwise stages; the two scatter-adds are masked sums over all points.
-/
import proofs.«154551_j39831526703842_1_alg».proof.Proof.Gen.ReferenceIdeal.Read
import proofs.«154551_j39831526703842_1_alg».proof.Proof.Spec
import proofs.«154551_j39831526703842_1_alg».proof.Proof.Laws
import proofs.«154551_j39831526703842_1_alg».proof.Proof.LibScatterRows
import proofs.«154551_j39831526703842_1_alg».proof.Proof.LibScatterVec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RefPoints

open Cert.ReferenceIdeal Cert.ReferenceIdeal.Gen Cert.ReferenceIdeal.Read

/-! ## Which element of its operand each re-laying stage reads

Every equation here is arithmetic on the literal extents: a row-major position split back into coordinates. -/

/-- The first column of the cloud, re-laid to `[16, 200000]`: position `(b, n)` is the cloud's `(b, n, 0)`. -/
private theorem idx_x (b : Fin 16) (n : Fin 200000) :
    idx_main_v0 (idx_main_v1 (ix2 b n)) = ix3 b n (0 : Fin 4) := by
  have hb := b.isLt; have hn := n.isLt
  funext a; refine Fin.ext ?_
  match a with
  | ⟨0, _⟩ => show (b.val * 200000 + n.val) / 200000 = b.val; omega
  | ⟨1, _⟩ => show (b.val * 200000 + n.val) / 1 % 200000 = n.val; omega
  | ⟨2, _⟩ => rfl

/-- The second column likewise: position `(b, n)` is the cloud's `(b, n, 1)`. -/
private theorem idx_y (b : Fin 16) (n : Fin 200000) :
    idx_main_v6 (idx_main_v7 (ix2 b n)) = ix3 b n (1 : Fin 4) := by
  have hb := b.isLt; have hn := n.isLt
  funext a; refine Fin.ext ?_
  match a with
  | ⟨0, _⟩ => show (b.val * 200000 + n.val) / 200000 = b.val; omega
  | ⟨1, _⟩ => show (b.val * 200000 + n.val) / 1 % 200000 = n.val; omega
  | ⟨2, _⟩ => rfl

/-- The weight spread over the four features: element `(b, n, f)` reads the weight of point `(b, n)`. -/
private theorem idx_w (b : Fin 16) (n : Fin 200000) (f : Fin 4) :
    idx_main_v39 (idx_main_v40 (ix3 b n f)) = ix2 b n := by
  funext a; refine Fin.ext ?_
  match a with
  | ⟨0, _⟩ => rfl
  | ⟨1, _⟩ => rfl

/-- Row `b · 40000 + k` of the flattened grid: pillar `(b, k)`. -/
private abbrev row (b : Fin 16) (k : Fin 40000) : Fin 640000 :=
  ⟨b.val * 40000 + k.val, by have := b.isLt; have := k.isLt; omega⟩

/-- The feature sums re-laid to `[16, 40000, 4]`: element `(b, k, f)` is row `b · 40000 + k`, column `f`. -/
private theorem idx_row (b : Fin 16) (k : Fin 40000) (f : Fin 4) :
    idx_main_v46 (ix3 b k f) = ix2 (row b k) f := by
  have hb := b.isLt; have hk := k.isLt; have hf := f.isLt
  funext a; refine Fin.ext ?_
  match a with
  | ⟨0, _⟩ => show ((b.val * 40000 + k.val) * 4 + f.val) / 4 = b.val * 40000 + k.val; omega
  | ⟨1, _⟩ => show ((b.val * 40000 + k.val) * 4 + f.val) % 4 = f.val; omega

/-- The counts re-laid to `[16, 40000, 1]`: element `(b, k, 0)` is position `b · 40000 + k`. -/
private theorem idx_cnt (b : Fin 16) (k : Fin 40000) :
    idx_main_v51 (ix3 b k (0 : Fin 1)) = ix1 (row b k) := by
  funext a; refine Fin.ext ?_
  match a with
  | ⟨0, _⟩ => show (b.val * 40000 + k.val) * 1 + 0 = b.val * 40000 + k.val; omega

/-- The pillar numbers as a column, for the feature sums: row `p` is point `(p / 200000, p % 200000)`. -/
private theorem idx_pt44 (p : Fin 3200000) :
    idx_main_v38 (idx_main_v44 (ix2 p (⟨0, Nat.one_pos⟩ : Fin 1))) = ix2 (Cert.Pillar.ptB p) (Cert.Pillar.ptN p) := by
  funext a; refine Fin.ext ?_
  match a with
  | ⟨0, _⟩ => rfl
  | ⟨1, _⟩ => rfl

/-- The same column, for the counts. -/
private theorem idx_pt49 (p : Fin 3200000) :
    idx_main_v38 (idx_main_v49 (ix2 p (⟨0, Nat.one_pos⟩ : Fin 1))) = ix2 (Cert.Pillar.ptB p) (Cert.Pillar.ptN p) := by
  funext a; refine Fin.ext ?_
  match a with
  | ⟨0, _⟩ => rfl
  | ⟨1, _⟩ => rfl

/-- The weights as one long vector: position `p` is point `(p / 200000, p % 200000)`. -/
private theorem idx_pt47 (p : Fin 3200000) :
    idx_main_v47 (ix1 p) = ix2 (Cert.Pillar.ptB p) (Cert.Pillar.ptN p) := by
  funext a; refine Fin.ext ?_
  match a with
  | ⟨0, _⟩ => rfl
  | ⟨1, _⟩ => rfl

/-- The masked features as `[3200000, 4]`: row `p`, column `f` is the cloud's point `(p / 200000, p % 200000)`, feature `f`. -/
private theorem idx_upd (p : Fin 3200000) (f : Fin 4) :
    idx_main_v42 (ix2 p f) = ix3 (Cert.Pillar.ptB p) (Cert.Pillar.ptN p) f := by
  have hp := p.isLt; have hf := f.isLt
  funext a; refine Fin.ext ?_
  match a with
  | ⟨0, _⟩ => show (p.val * 4 + f.val) / 800000 = p.val / 200000; omega
  | ⟨1, _⟩ => show (p.val * 4 + f.val) / 4 % 200000 = p.val % 200000; omega
  | ⟨2, _⟩ => show (p.val * 4 + f.val) % 4 = f.val; omega

/-! ## One point of the cloud

The elementwise stages, read at point `(b, n)`, are the specification's functions of that point. -/

section Point

variable (x0 : (⟨S16x200000x4, .f32⟩ : BufTy).Contents (Elt Ideal)) (b : Fin 16) (n : Fin 200000)

/-- The first grid coordinate: the floor of `(x + 50) / 0.5` as an integer. -/
private theorem v13_pt : val_main_v13 (F := Ideal) x0 (ix2 b n) = Cert.Pillar.ptX x0 b n := by
  rw [val_main_v13_apply, val_main_v12_apply, val_main_v5_apply, val_main_v3_apply, val_main_v1_apply,
    val_main_v0_apply, idx_x, val_main_v2_apply, val_main_cst_apply, val_main_v4_apply, val_main_cst_0_apply]
  rfl

/-- The second grid coordinate, from `y`. -/
private theorem v15_pt : val_main_v15 (F := Ideal) x0 (ix2 b n) = Cert.Pillar.ptY x0 b n := by
  rw [val_main_v15_apply, val_main_v14_apply, val_main_v11_apply, val_main_v9_apply, val_main_v7_apply,
    val_main_v6_apply, idx_y, val_main_v8_apply, val_main_cst_1_apply, val_main_v10_apply, val_main_cst_2_apply]
  rfl

/-- The four comparisons joined: both coordinates in `[0, 200)`. -/
private theorem v26_pt : val_main_v26 (F := Ideal) x0 (ix2 b n) = Cert.Pillar.ptOk x0 b n := by
  rw [val_main_v26_apply, val_main_v23_apply, val_main_v20_apply, val_main_v17_apply, val_main_v19_apply,
    val_main_v22_apply, val_main_v25_apply, val_main_v16_apply, val_main_c_apply, val_main_v18_apply,
    val_main_c_3_apply, val_main_v21_apply, val_main_c_4_apply, val_main_v24_apply, val_main_c_5_apply,
    v13_pt, v15_pt]
  rfl

/-- The bit as a number: read unsigned here, signed after widening in the specification; `0` or `1` either way. -/
private theorem v27_pt : val_main_v27 (F := Ideal) x0 (ix2 b n) = Cert.Pillar.ptW x0 b n := by
  rw [val_main_v27_apply, v26_pt]
  unfold Cert.Pillar.ptW
  rw [Cert.Pillar.weight_eq_toNat]
  rfl

/-- The cell number inside the batch: `yi · 200 + xi` in the grid, `0` outside. -/
private theorem v31_pt : val_main_v31 (F := Ideal) x0 (ix2 b n)
    = Cert.Pillar.cellOf (Cert.Pillar.ptOk x0 b n) (Cert.Pillar.ptX x0 b n) (Cert.Pillar.ptY x0 b n) := by
  rw [val_main_v31_apply, val_main_v30_apply, val_main_v29_apply, val_main_v28_apply, val_main_c_6_apply,
    val_main_call0_v1_apply, val_main_call0_v0_apply, val_main_c_7_apply, v26_pt, v13_pt, v15_pt]
  rfl

/-- The pillar number over all batches: `b · 40000` plus the cell number. -/
private theorem v37_pt : val_main_v37 (F := Ideal) x0 (ix2 b n) = Cert.Pillar.ptFlat x0 b n := by
  rw [val_main_v37_apply, val_main_v36_apply, val_main_v35_apply, val_main_v33_apply, val_main_v32_apply,
    val_main_v34_apply, val_main_c_8_apply, v31_pt]
  rfl

/-- A feature of the point times the point's weight. -/
private theorem v41_pt (f : Fin 4) :
    val_main_v41 (F := Ideal) x0 (ix3 b n f) = x0 (ix3 b n f) * Cert.Pillar.ptW x0 b n := by
  rw [val_main_v41_apply, val_main_v40_apply, val_main_v39_apply, idx_w, v27_pt]
  rfl

/-- A point's contribution to one of the four feature sums. -/
private theorem ptFeat_lt (f : Fin 4) :
    Cert.Pillar.ptFeat x0 b n ⟨f.val, by omega⟩ = x0 (ix3 b n f) * Cert.Pillar.ptW x0 b n := by
  unfold Cert.Pillar.ptFeat
  exact dif_pos f.isLt

/-- A point's contribution to the count. -/
private theorem ptFeat_four : Cert.Pillar.ptFeat x0 b n (4 : Fin 5) = Cert.Pillar.ptW x0 b n := by
  unfold Cert.Pillar.ptFeat
  exact dif_neg (by decide)

end Point

/-! ## The flattened cloud

Point number `p` of the flattened cloud is point `(p / 200000, p % 200000)`. -/

section Flat

variable (x0 : (⟨S16x200000x4, .f32⟩ : BufTy).Contents (Elt Ideal)) (p : Fin 3200000)

private theorem v44_pt : val_main_v44 (F := Ideal) x0 (ix2 p (⟨0, Nat.one_pos⟩ : Fin 1))
    = Cert.Pillar.ptFlat x0 (Cert.Pillar.ptB p) (Cert.Pillar.ptN p) := by
  rw [val_main_v44_apply, val_main_v38_apply, idx_pt44, v37_pt]

private theorem v49_pt : val_main_v49 (F := Ideal) x0 (ix2 p (⟨0, Nat.one_pos⟩ : Fin 1))
    = Cert.Pillar.ptFlat x0 (Cert.Pillar.ptB p) (Cert.Pillar.ptN p) := by
  rw [val_main_v49_apply, val_main_v38_apply, idx_pt49, v37_pt]

private theorem v42_pt (f : Fin 4) : val_main_v42 (F := Ideal) x0 (ix2 p f)
    = x0 (ix3 (Cert.Pillar.ptB p) (Cert.Pillar.ptN p) f) * Cert.Pillar.ptW x0 (Cert.Pillar.ptB p) (Cert.Pillar.ptN p) := by
  rw [val_main_v42_apply, idx_upd, v41_pt]

private theorem v47_pt : val_main_v47 (F := Ideal) x0 (ix1 p)
    = Cert.Pillar.ptW x0 (Cert.Pillar.ptB p) (Cert.Pillar.ptN p) := by
  rw [val_main_v47_apply, idx_pt47, v27_pt]

end Flat

/-! ## The two segment sums

A scatter-add into zeros, read at one element, is the sum over all points of the update where the point's pillar
number is that element's row and of zero elsewhere: the specification's pillar sum. -/

/-- At the ideal values the host's accumulating scatter is the exact sum, whatever the shapes. -/
private theorem scatterAdd_ideal {s si u : Shape} {w : Nat} {φ : FTy} (d : ScatterDims s si u) (x : FVec Ideal s φ)
    (idx : IVec si w) (upd : FVec Ideal u φ) :
    Host.scatterAdd d x idx upd = Ideal.hostScatterAdd d x idx upd := rfl

/-- The printed dimension numbers of the row scatter are those of a row scatter over `[640000, 4]`, `[3200000, 1]`,
    `[3200000, 4]`: the same four lists, field by field. -/
private theorem rows_dims : scatter_S640000x4_S3200000x1_S3200000x4_1_0_0_1
    = ScatterRows.rowDims 640000 3200000 4 Facts₀.scatter_S640000x4_S3200000x1_S3200000x4_1_0_0_1_wf := rfl

/-- Likewise for the scatter into a vector over `[640000]`, `[3200000, 1]`, `[3200000]`. -/
private theorem vec_dims : scatter_S640000_S3200000x1_S3200000_n_0_0_1
    = ScatterVec.vecDims 640000 3200000 Facts₀.scatter_S640000_S3200000x1_S3200000_n_0_0_1_wf := rfl

/-- The feature scatter as a whole array: the exact row scatter of the masked features by the pillar numbers, into zeros. -/
private theorem v45_eq (x0 : (⟨S16x200000x4, .f32⟩ : BufTy).Contents (Elt Ideal)) :
    val_main_v45 (F := Ideal) x0
      = Ideal.hostScatterAdd
          (ScatterRows.rowDims 640000 3200000 4 Facts₀.scatter_S640000x4_S3200000x1_S3200000x4_1_0_0_1_wf)
          (val_main_v43 (F := Ideal)) (val_main_v44 (F := Ideal) x0) (val_main_v42 (F := Ideal) x0) := by
  unfold val_main_v45
  rw [scatterAdd_ideal, rows_dims]

/-- The count scatter as a whole array: the exact scatter of the weights by the pillar numbers, into zeros. -/
private theorem v50_eq (x0 : (⟨S16x200000x4, .f32⟩ : BufTy).Contents (Elt Ideal)) :
    val_main_v50 (F := Ideal) x0
      = Ideal.hostScatterAdd
          (ScatterVec.vecDims 640000 3200000 Facts₀.scatter_S640000_S3200000x1_S3200000_n_0_0_1_wf)
          (val_main_v48 (F := Ideal)) (val_main_v49 (F := Ideal) x0) (val_main_v47 (F := Ideal) x0) := by
  unfold val_main_v50
  rw [scatterAdd_ideal, vec_dims]

/-- The specification's pillar sum, written out. -/
private theorem pillarSum_eq (P : (⟨3, ![16, 200000, 4]⟩ : Shape).Idx → EReal) (b : Fin 16) (k : Fin 40000) (f : Fin 5) :
    Cert.Pillar.pillarSum P b k f
      = ∑ p : Fin 3200000,
          if (Cert.Pillar.ptFlat P (Cert.Pillar.ptB p) (Cert.Pillar.ptN p)).toInt = ((b.val * 40000 + k.val : Nat) : Int)
          then Cert.Pillar.ptFeat P (Cert.Pillar.ptB p) (Cert.Pillar.ptN p) f else 0 := rfl

/-- The reference's feature sums are the pillar's first four sums. -/
theorem sums_apply (x0 : (⟨S16x200000x4, .f32⟩ : BufTy).Contents (Elt Ideal)) (b : Fin 16) (k : Fin 40000) (f : Fin 4) :
    val_main_v46 (F := Ideal) x0 (ix3 b k f) = Cert.Pillar.pillarSum x0 b k ⟨f.val, by omega⟩ := by
  rw [val_main_v46_apply, idx_row, v45_eq, ScatterRows.hostScatterAdd_rows_apply, val_main_v43_apply,
    val_main_cst_9_apply, Ideal.ofBits_def, Ideal.ofBits_zero_f32, zero_add, pillarSum_eq]
  refine Finset.sum_congr rfl fun p _ => ?_
  rw [v44_pt, v42_pt, ptFeat_lt]

/-- The reference's count is the pillar's fifth sum. -/
theorem count_apply (x0 : (⟨S16x200000x4, .f32⟩ : BufTy).Contents (Elt Ideal)) (b : Fin 16) (k : Fin 40000) :
    val_main_v51 (F := Ideal) x0 (ix3 b k (0 : Fin 1)) = Cert.Pillar.pillarSum x0 b k (4 : Fin 5) := by
  rw [val_main_v51_apply, idx_cnt, v50_eq, ScatterVec.hostScatterAdd_vec_apply, val_main_v48_apply,
    val_main_cst_10_apply, Ideal.ofBits_def, Ideal.ofBits_zero_f32, zero_add, pillarSum_eq]
  refine Finset.sum_congr rfl fun p _ => ?_
  rw [v49_pt, v47_pt, ptFeat_four]

end Cert.ReferenceIdeal.RefPoints

end
-- ==== Proof.RefTokens.lean ====
/-
  The reference from its two segment sums on, read at an index: the result at pillar `(b, k)` and output `e` is the
  layer normalisation, with the quotient by the square root, of the perceptron's token of the pillar's means and
  count. The joined array of means and count is read column by column; the two matrix products are plain sums.
-/
import proofs.«154551_j39831526703842_1_alg».proof.Proof.Gen.ReferenceIdeal.Read
import proofs.«154551_j39831526703842_1_alg».proof.Proof.Spec
import proofs.«154551_j39831526703842_1_alg».proof.Proof.Laws
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RefTokens

open Cert.ReferenceIdeal Cert.ReferenceIdeal.Gen Cert.ReferenceIdeal.Read

/-! ## Where each stage reads its operand, by coordinates

Every layout stage of this part of the program keeps the pillar's two coordinates `(b, k)` and either keeps the last
coordinate, sends it to the single column `0`, or forgets the pillar altogether (a bias, a scale). -/

/-- The clamped count, one column, is read by all four mean columns. -/
private theorem idx54 (b : Fin 16) (k : Fin 40000) (f : Fin 4) :
    idx_main_v54 (ix3 b k f) = ix3 b k (0 : Fin 1) :=
  funext fun a => by match a with | ⟨0, _⟩ => rfl | ⟨1, _⟩ => rfl | ⟨2, _⟩ => rfl

/-- First product: row `(b, k)` of the joined array against column `h` of the first weight matrix. -/
private theorem lidx57 (b : Fin 16) (k : Fin 40000) (h : Fin 64) (f : Fin 5) :
    lidx_main_v57 (ix3 b k h) f = ix3 b k f :=
  funext fun a => by match a with | ⟨0, _⟩ => rfl | ⟨1, _⟩ => rfl | ⟨2, _⟩ => rfl
private theorem ridx57 (b : Fin 16) (k : Fin 40000) (h : Fin 64) (f : Fin 5) :
    ridx_main_v57 (ix3 b k h) f = ix2 f h :=
  funext fun a => by match a with | ⟨0, _⟩ => rfl | ⟨1, _⟩ => rfl

/-- The first bias, spread over every pillar. -/
private theorem idx5859 (b : Fin 16) (k : Fin 40000) (h : Fin 64) :
    idx_main_v58 (idx_main_v59 (ix3 b k h)) = ix1 h :=
  funext fun a => by match a with | ⟨0, _⟩ => rfl

/-- Second product: the hidden row `(b, k)` against column `e` of the second weight matrix. -/
private theorem lidx62 (b : Fin 16) (k : Fin 40000) (e : Fin 96) (h : Fin 64) :
    lidx_main_v62 (ix3 b k e) h = ix3 b k h :=
  funext fun a => by match a with | ⟨0, _⟩ => rfl | ⟨1, _⟩ => rfl | ⟨2, _⟩ => rfl
private theorem ridx62 (b : Fin 16) (k : Fin 40000) (e : Fin 96) (h : Fin 64) :
    ridx_main_v62 (ix3 b k e) h = ix2 h e :=
  funext fun a => by match a with | ⟨0, _⟩ => rfl | ⟨1, _⟩ => rfl

/-- The second bias, the scale and the shift, each spread over every pillar. -/
private theorem idx6364 (b : Fin 16) (k : Fin 40000) (e : Fin 96) :
    idx_main_v63 (idx_main_v64 (ix3 b k e)) = ix1 e :=
  funext fun a => by match a with | ⟨0, _⟩ => rfl
private theorem idx8485 (b : Fin 16) (k : Fin 40000) (e : Fin 96) :
    idx_main_v84 (idx_main_v85 (ix3 b k e)) = ix1 e :=
  funext fun a => by match a with | ⟨0, _⟩ => rfl
private theorem idx8788 (b : Fin 16) (k : Fin 40000) (e : Fin 96) :
    idx_main_v87 (idx_main_v88 (ix3 b k e)) = ix1 e :=
  funext fun a => by match a with | ⟨0, _⟩ => rfl

/-- The two sums over the 96 outputs run over row `(b, k)`; their results are kept as one column. -/
private theorem idx66 (b : Fin 16) (k : Fin 40000) (e : Fin 96) :
    idx_main_v66 (ix2 b k) e = ix3 b k e :=
  funext fun a => by match a with | ⟨0, _⟩ => rfl | ⟨1, _⟩ => rfl | ⟨2, _⟩ => rfl
private theorem idx67 (b : Fin 16) (k : Fin 40000) :
    idx_main_v67 (ix3 b k (0 : Fin 1)) = ix2 b k :=
  funext fun a => by match a with | ⟨0, _⟩ => rfl | ⟨1, _⟩ => rfl
private theorem idx73 (b : Fin 16) (k : Fin 40000) (e : Fin 96) :
    idx_main_v73 (ix2 b k) e = ix3 b k e :=
  funext fun a => by match a with | ⟨0, _⟩ => rfl | ⟨1, _⟩ => rfl | ⟨2, _⟩ => rfl
private theorem idx74 (b : Fin 16) (k : Fin 40000) :
    idx_main_v74 (ix3 b k (0 : Fin 1)) = ix2 b k :=
  funext fun a => by match a with | ⟨0, _⟩ => rfl | ⟨1, _⟩ => rfl

/-- The mean, the mean again, and the square root: one column read by all 96 outputs. -/
private theorem idx70 (b : Fin 16) (k : Fin 40000) (e : Fin 96) :
    idx_main_v70 (ix3 b k e) = ix3 b k (0 : Fin 1) :=
  funext fun a => by match a with | ⟨0, _⟩ => rfl | ⟨1, _⟩ => rfl | ⟨2, _⟩ => rfl
private theorem idx77 (b : Fin 16) (k : Fin 40000) (e : Fin 96) :
    idx_main_v77 (ix3 b k e) = ix3 b k (0 : Fin 1) :=
  funext fun a => by match a with | ⟨0, _⟩ => rfl | ⟨1, _⟩ => rfl | ⟨2, _⟩ => rfl
private theorem idx82 (b : Fin 16) (k : Fin 40000) (e : Fin 96) :
    idx_main_v82 (ix3 b k e) = ix3 b k (0 : Fin 1) :=
  funext fun a => by match a with | ⟨0, _⟩ => rfl | ⟨1, _⟩ => rfl | ⟨2, _⟩ => rfl

section Stages

variable (x0 : (⟨S16x200000x4, .f32⟩ : BufTy).Contents (Elt Ideal)) (x1 : (⟨S5x64, .f32⟩ : BufTy).Contents (Elt Ideal))
  (x2 : (⟨S64, .f32⟩ : BufTy).Contents (Elt Ideal)) (x3 : (⟨S64x96, .f32⟩ : BufTy).Contents (Elt Ideal))
  (x4 x5 x6 : (⟨S96, .f32⟩ : BufTy).Contents (Elt Ideal))

/-- Pillar `(b, k)`'s five sums as the reference holds them: four feature sums, then the count. -/
private abbrev sums (b : Fin 16) (k : Fin 40000) (f : Fin 5) : EReal :=
  if h : f.val < 4 then val_main_v46 (F := Ideal) x0 (ix3 b k (⟨f.val, h⟩ : Fin 4))
  else val_main_v51 (F := Ideal) x0 (ix3 b k (0 : Fin 1))

/-- The pillar's token before normalisation. -/
private abbrev tok (b : Fin 16) (k : Fin 40000) : Fin 96 → EReal :=
  Cert.Pillar.tokAt (Cert.Pillar.meanCount (sums x0 b k)) x1 x2 x3 x4

/-! ## The joined array, column by column -/

/-- Two arrays of four columns and of one, joined along the columns and read at column `f`: the first array's
    column `f` below `4`, the second's only column at `4`. -/
private theorem joined_cols_gen (A : S16x40000x4.Idx → EReal) (C : S16x40000x1.Idx → EReal)
    (b : Fin 16) (k : Fin 40000) (f : Fin 5) :
    concatenate S16x40000x5 2 [⟨S16x40000x4, A⟩, ⟨S16x40000x1, C⟩]
        concatenates_S16x40000x4_S16x40000x1_S16x40000x5_d2 (ix3 b k f)
      = if h : f.val < 4 then A (ix3 b k (⟨f.val, h⟩ : Fin 4)) else C (ix3 b k (0 : Fin 1)) := by
  by_cases h : f.val < 4
  · rw [dif_pos h]
    exact concatenate_pair_apply_left (t := S16x40000x5) (s₁ := S16x40000x4) (s₂ := S16x40000x1) 2 A C
      concatenates_S16x40000x4_S16x40000x1_S16x40000x5_d2 (ix3 b k f) rfl (ix3 b k (⟨f.val, h⟩ : Fin 4))
      (fun a => by match a with | ⟨0, _⟩ => rfl | ⟨1, _⟩ => rfl | ⟨2, _⟩ => rfl)
  · rw [dif_neg h]
    have hf : f.val = 4 := by have := f.isLt; omega
    exact concatenate_pair_apply_right (t := S16x40000x5) (s₁ := S16x40000x4) (s₂ := S16x40000x1) 2 A C
      concatenates_S16x40000x4_S16x40000x1_S16x40000x5_d2 (ix3 b k f) rfl rfl (ix3 b k (0 : Fin 1))
      (fun a ha => by
        match a, ha with
        | ⟨0, _⟩, _ => rfl
        | ⟨1, _⟩, _ => rfl
        | ⟨2, _⟩, ha => exact absurd rfl ha)
      (by show 0 + 4 = f.val; omega)

/-- The reference's joined array at `(b, k, f)`: a mean below column `4`, the count at column `4`. -/
private theorem joined_cols (b : Fin 16) (k : Fin 40000) (f : Fin 5) :
    val_main_v56 (F := Ideal) x0 (ix3 b k f)
      = if h : f.val < 4 then val_main_v55 (F := Ideal) x0 (ix3 b k (⟨f.val, h⟩ : Fin 4))
        else val_main_v51 (F := Ideal) x0 (ix3 b k (0 : Fin 1)) := by
  unfold val_main_v56
  exact joined_cols_gen (val_main_v55 (F := Ideal) x0) (val_main_v51 (F := Ideal) x0) b k f

/-- A mean column: the feature sum over the count clamped below by one. -/
private theorem mean_col (b : Fin 16) (k : Fin 40000) (f : Fin 4) :
    val_main_v55 (F := Ideal) x0 (ix3 b k f)
      = Ideal.div (val_main_v46 (F := Ideal) x0 (ix3 b k f))
          (max (val_main_v51 (F := Ideal) x0 (ix3 b k (0 : Fin 1))) (Ideal.ofBits .f32 0x3F800000#32)) := by
  rw [val_main_v55_apply, val_main_v54_apply, idx54, val_main_v53_apply, val_main_v52_apply, val_main_cst_11_apply]
  simp only [Ideal.hostDivf_def, Ideal.maximumf_def, Ideal.ofBits_def]

/-- The joined array at `(b, k, f)` is the specification's means and count of the pillar's five sums. -/
private theorem joined_apply (b : Fin 16) (k : Fin 40000) (f : Fin 5) :
    val_main_v56 (F := Ideal) x0 (ix3 b k f) = Cert.Pillar.meanCount (sums x0 b k) f := by
  have e2 : sums x0 b k (4 : Fin 5) = val_main_v51 (F := Ideal) x0 (ix3 b k (0 : Fin 1)) := dif_neg (by decide)
  rw [joined_cols]
  unfold Cert.Pillar.meanCount
  by_cases h : f.val < 4
  · have e1 : sums x0 b k f = val_main_v46 (F := Ideal) x0 (ix3 b k (⟨f.val, h⟩ : Fin 4)) := dif_pos h
    rw [dif_pos h, if_pos h, e1, e2, mean_col]
  · rw [dif_neg h, if_neg h, e2]

/-! ## The perceptron -/

/-- The hidden layer at `(b, k, h)`. -/
private theorem hidden_apply (b : Fin 16) (k : Fin 40000) (h : Fin 64) :
    val_main_v61 (F := Ideal) x0 x1 x2 (ix3 b k h)
      = Cert.Pillar.hiddenAt (Cert.Pillar.meanCount (sums x0 b k)) x1 x2 h := by
  have hs : ∀ f : Fin 5, val_main_v56 (F := Ideal) x0 (lidx_main_v57 (ix3 b k h) f) * x1 (ridx_main_v57 (ix3 b k h) f)
      = Cert.Pillar.meanCount (sums x0 b k) f * x1 (ix2 f h) := fun f => by
    rw [lidx57, ridx57, joined_apply]
  rw [val_main_v61_apply, val_main_v60_apply, val_main_v57_apply, val_main_v59_apply, val_main_v58_apply, idx5859,
    val_main_call1_v0_apply, val_main_call1_cst_apply, Finset.sum_congr rfl fun f _ => hs f]
  rfl

/-- The token at `(b, k, e)`. -/
private theorem tok_apply (b : Fin 16) (k : Fin 40000) (e : Fin 96) :
    val_main_v65 (F := Ideal) x0 x1 x2 x3 x4 (ix3 b k e) = tok x0 x1 x2 x3 x4 b k e := by
  have hs : ∀ h : Fin 64, val_main_v61 (F := Ideal) x0 x1 x2 (lidx_main_v62 (ix3 b k e) h) * x3 (ridx_main_v62 (ix3 b k e) h)
      = Cert.Pillar.hiddenAt (Cert.Pillar.meanCount (sums x0 b k)) x1 x2 h * x3 (ix2 h e) := fun h => by
    rw [lidx62, ridx62, hidden_apply]
  rw [val_main_v65_apply, val_main_v62_apply, val_main_v64_apply, val_main_v63_apply, idx6364,
    Finset.sum_congr rfl fun h _ => hs h]
  rfl

/-! ## The normalisation -/

/-- The mean of the token's 96 outputs, kept as one column: the sum starts from zero. -/
private theorem mean_apply (b : Fin 16) (k : Fin 40000) :
    val_main_v69 (F := Ideal) x0 x1 x2 x3 x4 (ix3 b k (0 : Fin 1)) = Cert.Pillar.rowMean (tok x0 x1 x2 x3 x4 b k) := by
  have hs : ∀ e : Fin 96, val_main_v65 (F := Ideal) x0 x1 x2 x3 x4 (idx_main_v66 (ix2 b k) e)
      = tok x0 x1 x2 x3 x4 b k e := fun e => by rw [idx66, tok_apply]
  rw [val_main_v69_apply, val_main_v67_apply, idx67, val_main_v66_apply, val_main_v68_apply, val_main_cst_12_apply,
    val_main_cst_13_apply, Finset.sum_congr rfl fun e _ => hs e]
  show Ideal.div (Ideal.ofBits .f32 0x00000000#32 + ∑ e : Fin 96, tok x0 x1 x2 x3 x4 b k e)
      (Ideal.ofBits .f32 0x42C00000#32) = _
  rw [Ideal.ofBits_zero_f32, zero_add]
  rfl

/-- The token less its mean. -/
private theorem centred_apply (b : Fin 16) (k : Fin 40000) (e : Fin 96) :
    val_main_v71 (F := Ideal) x0 x1 x2 x3 x4 (ix3 b k e) = Cert.Pillar.centred (tok x0 x1 x2 x3 x4 b k) e := by
  rw [val_main_v71_apply, val_main_v70_apply, idx70, mean_apply, tok_apply]
  rfl

/-- The variance: the mean of the squares of the centred token, the sum again from zero. -/
private theorem var_apply (b : Fin 16) (k : Fin 40000) :
    val_main_v76 (F := Ideal) x0 x1 x2 x3 x4 (ix3 b k (0 : Fin 1)) = Cert.Pillar.rowVar (tok x0 x1 x2 x3 x4 b k) := by
  have hs : ∀ e : Fin 96, val_main_v72 (F := Ideal) x0 x1 x2 x3 x4 (idx_main_v73 (ix2 b k) e)
      = Cert.Pillar.centred (tok x0 x1 x2 x3 x4 b k) e * Cert.Pillar.centred (tok x0 x1 x2 x3 x4 b k) e := fun e => by
    rw [idx73, val_main_v72_apply, centred_apply]
    rfl
  rw [val_main_v76_apply, val_main_v74_apply, idx74, val_main_v73_apply, val_main_v75_apply, val_main_cst_14_apply,
    val_main_cst_15_apply, Finset.sum_congr rfl fun e _ => hs e]
  show Ideal.div (Ideal.ofBits .f32 0x00000000#32
        + ∑ e : Fin 96, Cert.Pillar.centred (tok x0 x1 x2 x3 x4 b k) e * Cert.Pillar.centred (tok x0 x1 x2 x3 x4 b k) e)
      (Ideal.ofBits .f32 0x42C00000#32) = _
  rw [Ideal.ofBits_zero_f32, zero_add]
  rfl

end Stages

/-- The reference's result as the pillar function of its own two segment sums. -/
theorem token_apply (x0 : (⟨S16x200000x4, .f32⟩ : BufTy).Contents (Elt Ideal)) (x1 : (⟨S5x64, .f32⟩ : BufTy).Contents (Elt Ideal))
    (x2 : (⟨S64, .f32⟩ : BufTy).Contents (Elt Ideal)) (x3 : (⟨S64x96, .f32⟩ : BufTy).Contents (Elt Ideal))
    (x4 x5 x6 : (⟨S96, .f32⟩ : BufTy).Contents (Elt Ideal)) (b : Fin 16) (k : Fin 40000) (e : Fin 96) :
    val_main_v89 (F := Ideal) x0 x1 x2 x3 x4 x5 x6 (ix3 b k e)
      = Cert.Pillar.lnDiv
          (Cert.Pillar.tokAt
            (Cert.Pillar.meanCount fun f =>
              if h : f.val < 4 then val_main_v46 (F := Ideal) x0 (ix3 b k (⟨f.val, h⟩ : Fin 4))
              else val_main_v51 (F := Ideal) x0 (ix3 b k (0 : Fin 1)))
            x1 x2 x3 x4)
          x5 x6 e := by
  rw [val_main_v89_apply, val_main_v86_apply, val_main_v83_apply, val_main_v78_apply, val_main_v77_apply, idx77,
    val_main_v82_apply, idx82, val_main_v81_apply, val_main_v80_apply, val_main_v79_apply, val_main_v85_apply,
    val_main_v84_apply, idx8485, val_main_v88_apply, val_main_v87_apply, idx8788, val_main_cst_16_apply, tok_apply, mean_apply,
    var_apply]
  rfl

end Cert.ReferenceIdeal.RefTokens

end
-- ==== Proof.RefValue.lean ====
/-
  The reference program's result, whole: its last stage at pillar `(b, k)` and output `e` is the pillar function, with
  the quotient by the square root, of its own two segment sums; those are the pillar's five sums; and the quotient form
  of the normalisation is the product form. So the reference's result is `tokenOut` of the argument arrays.
-/
import proofs.«154551_j39831526703842_1_alg».proof.Proof.Gen.ReferenceIdeal.Read
import proofs.«154551_j39831526703842_1_alg».proof.Proof.Spec
import proofs.«154551_j39831526703842_1_alg».proof.Proof.Laws
import proofs.«154551_j39831526703842_1_alg».proof.Proof.RefPoints
import proofs.«154551_j39831526703842_1_alg».proof.Proof.RefTokens
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators
open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The reference's two segment sums, column by column, are the pillar's five sums. -/
theorem sums_fun (x0 : (⟨S16x200000x4, .f32⟩ : BufTy).Contents (Elt Ideal)) (b : Fin 16) (k : Fin 40000) :
    (fun f : Fin 5 =>
      if h : f.val < 4 then val_main_v46 (F := Ideal) x0 (ix3 b k (⟨f.val, h⟩ : Fin 4))
      else val_main_v51 (F := Ideal) x0 (ix3 b k (0 : Fin 1)))
      = Cert.Pillar.pillarSum x0 b k := by
  funext f
  by_cases h : f.val < 4
  · rw [dif_pos h, Cert.ReferenceIdeal.RefPoints.sums_apply]
  · rw [dif_neg h, Cert.ReferenceIdeal.RefPoints.count_apply]
    have hf : f = (4 : Fin 5) := Fin.ext (by have := f.isLt; show f.val = 4; omega)
    rw [hf]

/-- The reference's result term is the pillar function of the argument arrays. -/
theorem result_array (m : (ℓ : Loc nD τ sig) → Buf (Elt Ideal) ℓ) (c : Dev nD) :
    Cert.ReferenceIdeal.Value.res_main_v89 (F := Ideal) m c
      = Cert.Pillar.tokenOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) := by
  rw [val_main_v89_eq]
  funext i
  obtain ⟨b, k, e, rfl⟩ : ∃ (b : Fin 16) (k : Fin 40000) (e : Fin 96), i = ix3 b k e := ⟨i 0, i 1, i 2, eq_ix3 i⟩
  rw [Cert.ReferenceIdeal.RefTokens.token_apply, sums_fun, ← Cert.Pillar.lnMul_eq_lnDiv]
  rfl

end Cert.ReferenceIdeal.RefValue

end
-- ==== Proof.lean ====
/-
  The pillar tokenizer, kernel against reference, over the extended reals.

  Both programs bin a cloud of `16 × 200000` points into `16 × 40000` pillars of a `200 × 200` grid of half-unit cells,
  sum each pillar's in-grid points' four features and count them, and turn (means, count) into a 96-vector by a
  two-layer perceptron and a layer normalisation. The kernel program does the per-point part in one launch (features
  times weight beside the weight, and the pillar number), lets the host scatter-add the five columns at once, and does
  the per-pillar part in a second launch, with the hidden layer's product split over the four means and the count and
  the normalisation by a reciprocal square root. The reference scatter-adds the four feature columns and the weights
  separately, contracts all five columns at once and divides by the square root.
  They are one function of the arguments (`Cert.Pillar.tokenOut`): a scatter-add at the extended reals is a masked sum
  over all points whichever columns travel together; a five-term sum is its first four terms plus the fifth; and the
  quotient by `sqrt(v)` is the product with `rsqrt(v)` wherever `0 < v`, which a variance plus a positive constant
  always is there (a square is never negative, the infinities included). No finiteness of the inputs is used.
  The frames of the two kernel programs are the generated ones; the reference's frame is its generated run with the
  result dropped; the idealization rewrote nothing, so `preserves` is trivial.
-/
import proofs.«154551_j39831526703842_1_alg».proof.Defs
import proofs.«154551_j39831526703842_1_alg».proof.Proof.Gen.Kernel
import proofs.«154551_j39831526703842_1_alg».proof.Proof.Gen.Kernel.Frame
import proofs.«154551_j39831526703842_1_alg».proof.Proof.Gen.KernelIdeal
import proofs.«154551_j39831526703842_1_alg».proof.Proof.Gen.KernelIdeal.Frame
import proofs.«154551_j39831526703842_1_alg».proof.Proof.Gen.ReferenceIdeal
import proofs.«154551_j39831526703842_1_alg».proof.Proof.Gen.ReferenceIdeal.Run
import proofs.«154551_j39831526703842_1_alg».proof.Proof.Gen.Pre_finite_inputs
import proofs.«154551_j39831526703842_1_alg».proof.Proof.KernelValue
import proofs.«154551_j39831526703842_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end with the result array at `tokenOut` of the argument arrays, which agree. -/
theorem algebraic : Cert.algebraic_KernelIdeal_ReferenceIdeal := by
  intro m ρ m' ρ' _ hagree
  refine ⟨fun c => Cert.Pillar.tokenOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefValue.result_array, (hagree c).1, (hagree c).2.1, (hagree c).2.2.1, (hagree c).2.2.2.1,
    (hagree c).2.2.2.2.1, (hagree c).2.2.2.2.2.1, (hagree c).2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
